-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3200000 : Shape := ⟨1, ![3200000]⟩
abbrev S64x64 : Shape := ⟨2, ![64, 64]⟩
abbrev S64 : Shape := ⟨1, ![64]⟩
abbrev S8192 : Shape := ⟨1, ![8192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S50000x64 .f32) (main_arg2 : FVec F S3200000 .f32) (main_arg3 : FVec F S64x64 .f32) (main_arg4 : FVec F S64 .f32) (main_arg5 : IVec S3200000 32) (main_arg6 : IVec S3200000 32) (main_arg7 : IVec S8192 32) (main_arg8 : IVec S8192 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S50000x64 : Shape := ⟨2, ![50000, 64]⟩
abbrev S3200000 : Shape := ⟨1, ![3200000]⟩
abbrev S64x64 : Shape := ⟨2, ![64, 64]⟩
abbrev S64 : Shape := ⟨1, ![64]⟩
abbrev S8192 : Shape := ⟨1, ![8192]⟩
abbrev S150000x64 : Shape := ⟨2, ![150000, 64]⟩
abbrev S_ : Shape := ⟨0, ![]⟩
abbrev S3200000x1 : Shape := ⟨2, ![3200000, 1]⟩
abbrev S3200000x64 : Shape := ⟨2, ![3200000, 64]⟩
abbrev S6400x64 : Shape := ⟨2, ![6400, 64]⟩
abbrev S6400x1 : Shape := ⟨2, ![6400, 1]⟩
abbrev S1x50000x64 : Shape := ⟨3, ![1, 50000, 64]⟩
abbrev S4x50000x64 : Shape := ⟨3, ![4, 50000, 64]⟩
abbrev S4x2000x64 : Shape := ⟨3, ![4, 2000, 64]⟩
abbrev S2000x64 : Shape := ⟨2, ![2000, 64]⟩
abbrev S1x64 : Shape := ⟨2, ![1, 64]⟩
abbrev S8192x1 : Shape := ⟨2, ![8192, 1]⟩
abbrev S8192x64 : Shape := ⟨2, ![8192, 64]⟩

abbrev nBuf : Space → Nat
  | .hbm => 85
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3200000, .f32⟩
  | .hbm, ⟨3, _⟩ => ⟨S64x64, .f32⟩
  | .hbm, ⟨4, _⟩ => ⟨S64, .f32⟩
  | .hbm, ⟨5, _⟩ => ⟨S3200000, .i32⟩
  | .hbm, ⟨6, _⟩ => ⟨S3200000, .i32⟩
  | .hbm, ⟨7, _⟩ => ⟨S8192, .i32⟩
  | .hbm, ⟨8, _⟩ => ⟨S8192, .i32⟩
  | .hbm, ⟨9, _⟩ => ⟨S150000x64, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x1, .f32⟩
  | .hbm, ⟨20, _⟩ => ⟨S3200000x64, .f32⟩
  | .hbm, ⟨21, _⟩ => ⟨S_, .f32⟩
  | .hbm, ⟨22, _⟩ => ⟨S150000x64, .f32⟩
  | .hbm, ⟨23, _⟩ => ⟨S3200000x1, .i32⟩
  | .hbm, ⟨24, _⟩ => ⟨S150000x64, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x1, .f32⟩
  | .hbm, ⟨35, _⟩ => ⟨S3200000x64, .f32⟩
  | .hbm, ⟨36, _⟩ => ⟨S_, .f32⟩
  | .hbm, ⟨37, _⟩ => ⟨S150000x64, .f32⟩
  | .hbm, ⟨38, _⟩ => ⟨S3200000x1, .i32⟩
  | .hbm, ⟨39, _⟩ => ⟨S150000x64, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x64, .f32⟩
  | .hbm, ⟨49, _⟩ => ⟨S3200000x1, .f32⟩
  | .hbm, ⟨50, _⟩ => ⟨S3200000x64, .f32⟩
  | .hbm, ⟨51, _⟩ => ⟨S_, .f32⟩
  | .hbm, ⟨52, _⟩ => ⟨S150000x64, .f32⟩
  | .hbm, ⟨53, _⟩ => ⟨S3200000x1, .i32⟩
  | .hbm, ⟨54, _⟩ => ⟨S150000x64, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x50000x64, .f32⟩
  | .hbm, ⟨60, _⟩ => ⟨S1x50000x64, .f32⟩
  | .hbm, ⟨61, _⟩ => ⟨S1x50000x64, .f32⟩
  | .hbm, ⟨62, _⟩ => ⟨S1x50000x64, .f32⟩
  | .hbm, ⟨63, _⟩ => ⟨S4x50000x64, .f32⟩
  | .hbm, ⟨64, _⟩ => ⟨S50000x64, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x64, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S8192x64, .f32⟩
  | .hbm, ⟨83, _⟩ => ⟨S8192x1, .f32⟩
  | .hbm, ⟨84, _⟩ => ⟨S8192, .f32⟩
  | .local _ .vmem, ⟨0, _⟩ => ⟨S6400x64, .f32⟩
  | .local _ .vmem, ⟨1, _⟩ => ⟨S6400x64, .f32⟩
  | .local _ .vmem, ⟨2, _⟩ => ⟨S6400x1, .f32⟩
  | .local _ .vmem, ⟨3, _⟩ => ⟨S6400x1, .f32⟩
  | .local _ .vmem, ⟨4, _⟩ => ⟨S6400x64, .f32⟩
  | .local _ .vmem, ⟨5, _⟩ => ⟨S6400x64, .f32⟩
  | .local _ .vmem, ⟨6, _⟩ => ⟨S6400x64, .f32⟩
  | .local _ .vmem, ⟨7, _⟩ => ⟨S6400x64, .f32⟩
  | .local _ .vmem, ⟨8, _⟩ => ⟨S6400x1, .f32⟩
  | .local _ .vmem, ⟨9, _⟩ => ⟨S6400x1, .f32⟩
  | .local _ .vmem, ⟨10, _⟩ => ⟨S6400x64, .f32⟩
  | .local _ .vmem, ⟨11, _⟩ => ⟨S6400x64, .f32⟩
  | .local _ .vmem, ⟨12, _⟩ => ⟨S6400x64, .f32⟩
  | .local _ .vmem, ⟨13, _⟩ => ⟨S6400x64, .f32⟩
  | .local _ .vmem, ⟨14, _⟩ => ⟨S6400x1, .f32⟩
  | .local _ .vmem, ⟨15, _⟩ => ⟨S6400x1, .f32⟩
  | .local _ .vmem, ⟨16, _⟩ => ⟨S6400x64, .f32⟩
  | .local _ .vmem, ⟨17, _⟩ => ⟨S6400x64, .f32⟩
  | .local _ .vmem, ⟨18, _⟩ => ⟨S4x2000x64, .f32⟩
  | .local _ .vmem, ⟨19, _⟩ => ⟨S4x2000x64, .f32⟩
  | .local _ .vmem, ⟨20, _⟩ => ⟨S64x64, .f32⟩
  | .local _ .vmem, ⟨21, _⟩ => ⟨S64, .f32⟩
  | .local _ .vmem, ⟨22, _⟩ => ⟨S2000x64, .f32⟩
  | .local _ .vmem, ⟨23, _⟩ => ⟨S2000x64, .f32⟩
  | .local _ .vmem, ⟨24, _⟩ => ⟨S8192x64, .f32⟩
  | .local _ .vmem, ⟨25, _⟩ => ⟨S8192x64, .f32⟩
  | .local _ .vmem, ⟨26, _⟩ => ⟨S8192x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S8192x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S8192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8192x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  concatenates_S100000x64_S50000x64_S150000x64_d0 : Shape.Concatenates [S100000x64, S50000x64] S150000x64 0
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S3200000x1 : S3200000.ShapeCasts S3200000x1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  bcast_S_S150000x64 : S_.BroadcastsInDim S150000x64 (![] : Fin 0 → Fin S150000x64.rank)
  slices_S150000x64_S50000x64_100000_0 : S150000x64.Slices ![100000, 0] S50000x64
  bcast_S50000x64_S1x50000x64_1_2 : S50000x64.BroadcastsInDim S1x50000x64 (![1, 2] : Fin 2 → Fin S1x50000x64.rank)
  concatenates_S1x50000x64_S1x50000x64_S1x50000x64_S1x50000x64_S4x50000x64_d0 : Shape.Concatenates [S1x50000x64, S1x50000x64, S1x50000x64, S1x50000x64] S4x50000x64 0
  inb_S4x2000x64_S4x2000x64_0_0_0 : ∀ a, (![0, 0, 0] : Fin 3 → Nat) a + S4x2000x64.size a ≤ S4x2000x64.size a
  h_S4x2000x64 : 0 < S4x2000x64.numel
  shapeCasts_S4x2000x64_S4x2000x64 : S4x2000x64.ShapeCasts S4x2000x64
  reduces_S4x2000x64_S2000x64 : S4x2000x64.Reduces [0] S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S8192 : S_.BroadcastsInDim S8192 (![] : Fin 0 → Fin S8192.rank)
  bcast_S8192_S8192x1_0 : S8192.BroadcastsInDim S8192x1 (![0] : Fin 1 → Fin S8192x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S8192x1_S8192 : S8192x1.ShapeCasts S8192
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  dot_S2000x64_S64x64_S2000x64_1_0_0_1_n_n_wf : DotDims.WF S2000x64 S64x64 S2000x64 [1] [0] [0] [1] [] []
  gather_S100000x64_S8192x1_S8192x64_1_0_n_n_0_1_164_wf : GatherDims.WF S100000x64 S8192x1 S8192x64 [1] [0] [] [0] [] 1 ![1, 64]
  gather_S50000x64_S8192x1_S8192x64_1_0_n_n_0_1_164_wf : GatherDims.WF S50000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S3200000x64.size a
  hwx0_0 : ∀ i : grid0.Coords, EltTy.bits .f32 = 32 ∨ (Rect.block (s := S3200000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S3200000x1.size a
  hwx0_1 : ∀ i : grid0.Coords, EltTy.bits .f32 = 32 ∨ (Rect.block (s := S3200000x1) S6400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S3200000x64.size a
  hwx0_2 : ∀ i : grid0.Coords, EltTy.bits .f32 = 32 ∨ (Rect.block (s := S3200000x64) S6400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S3200000x64.size a
  hwx1_0 : ∀ i : grid1.Coords, EltTy.bits .f32 = 32 ∨ (Rect.block (s := S3200000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S3200000x1.size a
  hwx1_1 : ∀ i : grid1.Coords, EltTy.bits .f32 = 32 ∨ (Rect.block (s := S3200000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S3200000x64.size a
  hwx1_2 : ∀ i : grid1.Coords, EltTy.bits .f32 = 32 ∨ (Rect.block (s := S3200000x64) S6400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S3200000x64.size a
  hwx2_0 : ∀ i : grid2.Coords, EltTy.bits .f32 = 32 ∨ (Rect.block (s := S3200000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x1.size a ≤ S3200000x1.size a
  hwx2_1 : ∀ i : grid2.Coords, EltTy.bits .f32 = 32 ∨ (Rect.block (s := S3200000x1) S6400x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S3200000x64.size a
  hwx2_2 : ∀ i : grid2.Coords, EltTy.bits .f32 = 32 ∨ (Rect.block (s := S3200000x64) S6400x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x2000x64.size a ≤ S4x50000x64.size a
  hwx3_0 : ∀ i : grid3.Coords, EltTy.bits .f32 = 32 ∨ (Rect.block (s := S4x50000x64) S4x2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S8192x64.size a
  hwx4_0 : ∀ i : grid4.Coords, EltTy.bits .f32 = 32 ∨ (Rect.block (s := S8192x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .f32 = 32 ∨ (Rect.block (s := S8192x64) S8192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8192x1.size a ≤ S8192x1.size a
  hwx4_2 : ∀ i : grid4.Coords, EltTy.bits .f32 = 32 ∨ (Rect.block (s := S8192x1) S8192x1.size (cc4_transform_2 i) (hinb4_2 i)).WholeWords (EltTy.packing .f32)

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

abbrev win0_0 : Pipeline.Window sig grid0 :=
  Pipeline.Window.ofSpec (Memref.whole main_v7) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S6400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S6400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S6400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S4x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v53) S8192x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v60) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S8192x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3200000 : Shape := ⟨1, ![3200000]⟩
abbrev S64x64 : Shape := ⟨2, ![64, 64]⟩
abbrev S64 : Shape := ⟨1, ![64]⟩
abbrev S8192 : Shape := ⟨1, ![8192]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S150000x1x64 : Shape := ⟨3, ![150000, 1, 64]⟩
abbrev S150000x4x64 : Shape := ⟨3, ![150000, 4, 64]⟩
abbrev S8192x1 : Shape := ⟨2, ![8192, 1]⟩
abbrev S8192x64 : Shape := ⟨2, ![8192, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3200000, .f32⟩
  | .hbm, ⟨3, _⟩ => ⟨S64x64, .f32⟩
  | .hbm, ⟨4, _⟩ => ⟨S64, .f32⟩
  | .hbm, ⟨5, _⟩ => ⟨S3200000, .i32⟩
  | .hbm, ⟨6, _⟩ => ⟨S3200000, .i32⟩
  | .hbm, ⟨7, _⟩ => ⟨S8192, .i32⟩
  | .hbm, ⟨8, _⟩ => ⟨S8192, .i32⟩
  | .hbm, ⟨9, _⟩ => ⟨S150000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S150000x64, .f32⟩
  | .hbm, ⟨24, _⟩ => ⟨S3200000x1, .i32⟩
  | .hbm, ⟨25, _⟩ => ⟨S150000x64, .f32⟩
  | .hbm, ⟨26, _⟩ => ⟨S3200000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x64, .f32⟩
  | .hbm, ⟨36, _⟩ => ⟨S3200000x64, .f32⟩
  | .hbm, ⟨37, _⟩ => ⟨S3200000x64, .f32⟩
  | .hbm, ⟨38, _⟩ => ⟨S_, .f32⟩
  | .hbm, ⟨39, _⟩ => ⟨S150000x64, .f32⟩
  | .hbm, ⟨40, _⟩ => ⟨S3200000x1, .i32⟩
  | .hbm, ⟨41, _⟩ => ⟨S150000x64, .f32⟩
  | .hbm, ⟨42, _⟩ => ⟨S3200000x1, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .f32⟩
  | .hbm, ⟨52, _⟩ => ⟨S3200000x64, .f32⟩
  | .hbm, ⟨53, _⟩ => ⟨S3200000x64, .f32⟩
  | .hbm, ⟨54, _⟩ => ⟨S_, .f32⟩
  | .hbm, ⟨55, _⟩ => ⟨S150000x64, .f32⟩
  | .hbm, ⟨56, _⟩ => ⟨S3200000x1, .i32⟩
  | .hbm, ⟨57, _⟩ => ⟨S150000x64, .f32⟩
  | .hbm, ⟨58, _⟩ => ⟨S50000x64, .f32⟩
  | .hbm, ⟨59, _⟩ => ⟨S64x64, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S150000x64, .f32⟩
  | .hbm, ⟨65, _⟩ => ⟨S50000x64, .f32⟩
  | .hbm, ⟨66, _⟩ => ⟨S64x64, .f32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S150000x64, .f32⟩
  | .hbm, ⟨72, _⟩ => ⟨S50000x64, .f32⟩
  | .hbm, ⟨73, _⟩ => ⟨S64x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S150000x64, .f32⟩
  | .hbm, ⟨79, _⟩ => ⟨S50000x64, .f32⟩
  | .hbm, ⟨80, _⟩ => ⟨S64x64, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S150000x64, .f32⟩
  | .hbm, ⟨86, _⟩ => ⟨S150000x1x64, .f32⟩
  | .hbm, ⟨87, _⟩ => ⟨S150000x1x64, .f32⟩
  | .hbm, ⟨88, _⟩ => ⟨S150000x1x64, .f32⟩
  | .hbm, ⟨89, _⟩ => ⟨S150000x1x64, .f32⟩
  | .hbm, ⟨90, _⟩ => ⟨S150000x4x64, .f32⟩
  | .hbm, ⟨91, _⟩ => ⟨S_, .f32⟩
  | .hbm, ⟨92, _⟩ => ⟨S150000x64, .f32⟩
  | .hbm, ⟨93, _⟩ => ⟨S_, .f32⟩
  | .hbm, ⟨94, _⟩ => ⟨S150000x64, .f32⟩
  | .hbm, ⟨95, _⟩ => ⟨S150000x64, .f32⟩
  | .hbm, ⟨96, _⟩ => ⟨S100000x64, .f32⟩
  | .hbm, ⟨97, _⟩ => ⟨S50000x64, .f32⟩
  | .hbm, ⟨98, _⟩ => ⟨S_, .i32⟩
  | .hbm, ⟨99, _⟩ => ⟨S8192, .i32⟩
  | .hbm, ⟨100, _⟩ => ⟨S8192, .i1⟩
  | .hbm, ⟨101, _⟩ => ⟨S_, .i32⟩
  | .hbm, ⟨102, _⟩ => ⟨S8192, .i32⟩
  | .hbm, ⟨103, _⟩ => ⟨S8192, .i32⟩
  | .hbm, ⟨104, _⟩ => ⟨S8192, .i32⟩
  | .hbm, ⟨105, _⟩ => ⟨S8192x1, .i32⟩
  | .hbm, ⟨106, _⟩ => ⟨S8192x64, .f32⟩
  | .hbm, ⟨107, _⟩ => ⟨S_, .i32⟩
  | .hbm, ⟨108, _⟩ => ⟨S8192, .i32⟩
  | .hbm, ⟨109, _⟩ => ⟨S8192, .i1⟩
  | .hbm, ⟨110, _⟩ => ⟨S_, .i32⟩
  | .hbm, ⟨111, _⟩ => ⟨S8192, .i32⟩
  | .hbm, ⟨112, _⟩ => ⟨S8192, .i32⟩
  | .hbm, ⟨113, _⟩ => ⟨S8192, .i32⟩
  | .hbm, ⟨114, _⟩ => ⟨S8192x1, .i32⟩
  | .hbm, ⟨115, _⟩ => ⟨S8192x64, .f32⟩
  | .hbm, ⟨116, _⟩ => ⟨S8192x64, .f32⟩
  | .hbm, ⟨117, _⟩ => ⟨S_, .f32⟩
  | .hbm, ⟨118, _⟩ => ⟨S8192, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_cst_8 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_9 : Ref sig .tc := ⟨.hbm, 98, rfl⟩
abbrev main_v78 : Ref sig .tc := ⟨.hbm, 99, rfl⟩
abbrev main_v79 : Ref sig .tc := ⟨.hbm, 100, rfl⟩
abbrev main_c_10 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_11 : Ref sig .tc := ⟨.hbm, 107, rfl⟩
abbrev main_v85 : Ref sig .tc := ⟨.hbm, 108, rfl⟩
abbrev main_v86 : Ref sig .tc := ⟨.hbm, 109, rfl⟩
abbrev main_c_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S50000x64_100000_0 : S150000x64.Slices ![100000, 0] S50000x64
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S150000x64_S150000x1x64_0_2 : S150000x64.BroadcastsInDim S150000x1x64 (![0, 2] : Fin 2 → Fin S150000x1x64.rank)
  concatenates_S150000x1x64_S150000x1x64_S150000x1x64_S150000x1x64_S150000x4x64_d1 : Shape.Concatenates [S150000x1x64, S150000x1x64, S150000x1x64, S150000x1x64] S150000x4x64 1
  reducesTo_S150000x4x64_S150000x64_d1 : S150000x4x64.ReducesTo [1] S150000x64
  h_S_ : 0 < S_.numel
  slices_S150000x64_S100000x64_0_0 : S150000x64.Slices ![0, 0] S100000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  dot_S50000x64_S64x64_S50000x64_1_0_0_1_n_n_wf : DotDims.WF S50000x64 S64x64 S50000x64 [1] [0] [0] [1] [] []
  gather_S100000x64_S8192x1_S8192x64_1_0_n_n_0_1_164_wf : GatherDims.WF S100000x64 S8192x1 S8192x64 [1] [0] [] [0] [] 1 ![1, 64]
  gather_S50000x64_S8192x1_S8192x64_1_0_n_n_0_1_164_wf : GatherDims.WF S50000x64 S8192x1 S8192x64 [1] [0] [] [0] [] 1 ![1, 64]

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

class Facts : Prop extends Facts₀ where

variable [Facts]
-- ==== Proof.RunKernel.Edge0.lean ====
/-
  The first edge-scaling region, at the contents `V` the core's buffers hold when the region is entered.

  The region walks the 3200000 edges in 500 blocks of 6400 rows. At a point the body reads the block of gathered source
  rows (6400 × 64) and the block of edge weights (6400 × 1), and stores their row-wise product over the whole output
  block. Stated here: what the output block holds after the body, as the one store's value over the two input blocks;
  the body's triple; the pipeline's proof data (arrays as entered, the inputs' blocks kept, the output's block as
  computed, nothing kept between points, nothing owed); and the obligation the launch asks of the body at every point.
-/
import proofs.«430620_j47536698032634_3_alg».proof.Proof.Gen.Kernel.Launch
import proofs.«430620_j47536698032634_3_alg».proof.Proof.Gen.Kernel.Skeleton
import proofs.«430620_j47536698032634_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 6400 × 64 block and the whole 6400 × 1 block, as rectangles. -/
abbrev r0_x : Rect S6400x64 := Rect.unit (s := S6400x64) ![0, 0] S6400x64.size inb_S6400x64_S6400x64_0_0
abbrev r0_v : Rect S6400x1 := Rect.unit (s := S6400x1) ![0, 0] S6400x1.size inb_S6400x1_S6400x1_0_0

/-- The output block after the body: its one store, of the product of the two blocks read. -/
def out0_2 (x0 : Vec F S6400x64 .f32) (x1 : Vec F S6400x1 .f32) : Vec F S6400x64 .f32 :=
  View.canon [⟨r0_x, k0_pay1 (View.ld x0 r0_x) (View.ld x1 r0_v)⟩]

/-- The one store covers the block. -/
theorem cover0_2 (p0 : Vec F S6400x64 .f32) (y : S6400x64.Idx) :
    ∃ pc ∈ ([⟨r0_x, p0⟩] : List (View.Piece (Elt F) S6400x64 .f32)), y ∈ pc.1.set :=
  View.cover_of_tiled [⟨r0_x, p0⟩] S6400x64.size (by rfl) y

set_option maxHeartbeats 1000000 in
/-- The body on whole staging buffers, the inputs' at `x0`, `x1` and the output's at anything, ends with the inputs'
    unchanged and the output's at `out0_2 x0 x1`. -/
theorem sound_kernel0 (c : Dev nD) (E : Set ℕ) (i : grid0.Coords) (arg0 : Memref sig .tc .vmem S6400x64 .f32) (harg0 : arg0.IsWhole)
    (arg1 : Memref sig .tc .vmem S6400x1 .f32) (harg1 : arg1.IsWhole) (arg2 : Memref sig .tc .vmem S6400x64 .f32) (harg2 : arg2.IsWhole)
    (x0 : Vec F S6400x64 .f32) (x1 : Vec F S6400x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__edge_scale_kernel i arg0 harg0 arg1 harg1 arg2 harg2) K := by
  simp only [cc0__edge_scale_kernel_eq_skeleton]; unfold cc0__edge_scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.RunKernel.Edge1.lean ====
/-
  The second edge-scaling region, at the contents `V` the core's buffers hold when the region is entered.

  The region walks the 3200000 edges in 500 blocks of 6400 rows. At a point the body reads the block of gathered source
  rows (6400 × 64) and the block of edge weights (6400 × 1), and stores their row-wise product over the whole output
  block. Stated here: what the output block holds after the body, as the one store's value over the two input blocks;
  the body's triple; the pipeline's proof data (arrays as entered, the inputs' blocks kept, the output's block as
  computed, nothing kept between points, nothing owed); and the obligation the launch asks of the body at every point.
-/
import proofs.«430620_j47536698032634_3_alg».proof.Proof.Gen.Kernel.Launch
import proofs.«430620_j47536698032634_3_alg».proof.Proof.Gen.Kernel.Skeleton
import proofs.«430620_j47536698032634_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 6400 × 64 block and the whole 6400 × 1 block, as rectangles. -/
abbrev r1_x : Rect S6400x64 := Rect.unit (s := S6400x64) ![0, 0] S6400x64.size inb_S6400x64_S6400x64_0_0
abbrev r1_v : Rect S6400x1 := Rect.unit (s := S6400x1) ![0, 0] S6400x1.size inb_S6400x1_S6400x1_0_0

/-- The output block after the body: its one store, of the product of the two blocks read. -/
def out1_2 (x0 : Vec F S6400x64 .f32) (x1 : Vec F S6400x1 .f32) : Vec F S6400x64 .f32 :=
  View.canon [⟨r1_x, k1_pay1 (View.ld x0 r1_x) (View.ld x1 r1_v)⟩]

/-- The one store covers the block. -/
theorem cover1_2 (p0 : Vec F S6400x64 .f32) (y : S6400x64.Idx) :
    ∃ pc ∈ ([⟨r1_x, p0⟩] : List (View.Piece (Elt F) S6400x64 .f32)), y ∈ pc.1.set :=
  View.cover_of_tiled [⟨r1_x, p0⟩] S6400x64.size (by rfl) y

set_option maxHeartbeats 1000000 in
/-- The body on whole staging buffers, the inputs' at `x0`, `x1` and the output's at anything, ends with the inputs'
    unchanged and the output's at `out1_2 x0 x1`. -/
theorem sound_kernel1 (c : Dev nD) (E : Set ℕ) (i : grid1.Coords) (arg0 : Memref sig .tc .vmem S6400x64 .f32) (harg0 : arg0.IsWhole)
    (arg1 : Memref sig .tc .vmem S6400x1 .f32) (harg1 : arg1.IsWhole) (arg2 : Memref sig .tc .vmem S6400x64 .f32) (harg2 : arg2.IsWhole)
    (x0 : Vec F S6400x64 .f32) (x1 : Vec F S6400x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__edge_scale_kernel i arg0 harg0 arg1 harg1 arg2 harg2) K := by
  simp only [cc1__edge_scale_kernel_eq_skeleton]; unfold cc1__edge_scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.RunKernel.Edge2.lean ====
/-
  The third edge-scaling region, at the contents `V` the core's buffers hold when the region is entered.

  The region walks the 3200000 edges in 500 blocks of 6400 rows. At a point the body reads the block of gathered source
  rows (6400 × 64) and the block of edge weights (6400 × 1), and stores their row-wise product over the whole output
  block. Stated here: what the output block holds after the body, as the one store's value over the two input blocks;
  the body's triple; the pipeline's proof data (arrays as entered, the inputs' blocks kept, the output's block as
  computed, nothing kept between points, nothing owed); and the obligation the launch asks of the body at every point.
-/
import proofs.«430620_j47536698032634_3_alg».proof.Proof.Gen.Kernel.Launch
import proofs.«430620_j47536698032634_3_alg».proof.Proof.Gen.Kernel.Skeleton
import proofs.«430620_j47536698032634_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 6400 × 64 block and the whole 6400 × 1 block, as rectangles. -/
abbrev r2_x : Rect S6400x64 := Rect.unit (s := S6400x64) ![0, 0] S6400x64.size inb_S6400x64_S6400x64_0_0
abbrev r2_v : Rect S6400x1 := Rect.unit (s := S6400x1) ![0, 0] S6400x1.size inb_S6400x1_S6400x1_0_0

/-- The output block after the body: its one store, of the product of the two blocks read. -/
def out2_2 (x0 : Vec F S6400x64 .f32) (x1 : Vec F S6400x1 .f32) : Vec F S6400x64 .f32 :=
  View.canon [⟨r2_x, k2_pay1 (View.ld x0 r2_x) (View.ld x1 r2_v)⟩]

/-- The one store covers the block. -/
theorem cover2_2 (p0 : Vec F S6400x64 .f32) (y : S6400x64.Idx) :
    ∃ pc ∈ ([⟨r2_x, p0⟩] : List (View.Piece (Elt F) S6400x64 .f32)), y ∈ pc.1.set :=
  View.cover_of_tiled [⟨r2_x, p0⟩] S6400x64.size (by rfl) y

set_option maxHeartbeats 1000000 in
/-- The body on whole staging buffers, the inputs' at `x0`, `x1` and the output's at anything, ends with the inputs'
    unchanged and the output's at `out2_2 x0 x1`. -/
theorem sound_kernel2 (c : Dev nD) (E : Set ℕ) (i : grid2.Coords) (arg0 : Memref sig .tc .vmem S6400x64 .f32) (harg0 : arg0.IsWhole)
    (arg1 : Memref sig .tc .vmem S6400x1 .f32) (harg1 : arg1.IsWhole) (arg2 : Memref sig .tc .vmem S6400x64 .f32) (harg2 : arg2.IsWhole)
    (x0 : Vec F S6400x64 .f32) (x1 : Vec F S6400x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__edge_scale_kernel i arg0 harg0 arg1 harg1 arg2 harg2) K := by
  simp only [cc2__edge_scale_kernel_eq_skeleton]; unfold cc2__edge_scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.RunKernel.Combine.lean ====
/-
  The linear-combine region, at the contents `V` the core's buffers hold when the region is entered.

  The region walks the 50000 item rows in 25 blocks of 2000 rows. At a point the body reads the block of the four
  stacked feature arrays (4 × 2000 × 64), the whole matrix (64 × 64) and the whole offset (64), and stores, over the
  whole output block (2000 × 64), the mean of the four arrays sent through the affine map. The matrix and the offset
  are brought in at the first point only: their block never moves, so their buffers hold them at every point.
  Stated here: what the output block holds after the body, as the one store's value over the three input blocks; the
  body's triple; the pipeline's proof data (arrays as entered, the inputs' blocks kept, the output's block as
  computed, nothing kept between points, nothing owed); and the obligation the launch asks of the body at every point.
-/
import proofs.«430620_j47536698032634_3_alg».proof.Proof.Gen.Kernel.Launch
import proofs.«430620_j47536698032634_3_alg».proof.Proof.Gen.Kernel.Skeleton
import proofs.«430620_j47536698032634_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, for any proof data whose array is `V`'s
    and whose body leaves the block in place — brought in at that point or, the block not having moved, earlier. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 4 × 2000 × 64 block, the whole 64 × 64 matrix, the whole offset, the whole 2000 × 64 block, as rectangles. -/
abbrev r3_s : Rect S4x2000x64 := Rect.unit (s := S4x2000x64) ![0, 0, 0] S4x2000x64.size inb_S4x2000x64_S4x2000x64_0_0_0
abbrev r3_w : Rect S64x64 := Rect.unit (s := S64x64) ![0, 0] S64x64.size inb_S64x64_S64x64_0_0
abbrev r3_b : Rect S64 := Rect.unit (s := S64) ![0] S64.size inb_S64_S64_0
abbrev r3_o : Rect S2000x64 := Rect.unit (s := S2000x64) ![0, 0] S2000x64.size inb_S2000x64_S2000x64_0_0

/-- The output block after the body: its one store, of the affine image of the mean of the blocks read. -/
def out3_3 (x0 : Vec F S4x2000x64 .f32) (x1 : Vec F S64x64 .f32) (x2 : Vec F S64 .f32) : Vec F S2000x64 .f32 :=
  View.canon [⟨r3_o, k3_pay1 (View.ld x0 r3_s) (View.ld x1 r3_w) (View.ld x2 r3_b)⟩]

/-- The one store covers the block. -/
theorem cover3_3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

set_option maxHeartbeats 1000000 in
/-- The body on whole staging buffers, the inputs' at `x0`, `x1`, `x2` and the output's at anything, ends with the
    inputs' unchanged and the output's at `out3_3 x0 x1 x2`. -/
theorem sound_kernel3 (c : Dev nD) (E : Set ℕ) (i : grid3.Coords) (arg0 : Memref sig .tc .vmem S4x2000x64 .f32) (harg0 : arg0.IsWhole)
    (arg1 : Memref sig .tc .vmem S64x64 .f32) (harg1 : arg1.IsWhole) (arg2 : Memref sig .tc .vmem S64 .f32) (harg2 : arg2.IsWhole)
    (arg3 : Memref sig .tc .vmem S2000x64 .f32) (harg3 : arg3.IsWhole)
    (x0 : Vec F S4x2000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__linear_combine_kernel i arg0 harg0 arg1 harg1 arg2 harg2 arg3 harg3) K := by
  simp only [cc3__linear_combine_kernel_eq_skeleton]; unfold cc3__linear_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every point. -/
theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.RunKernel.Score.lean ====
/-
  The scoring region, at the contents `V` the core's buffers hold when the region is entered.

  The region has a single point. Its body reads the whole array of gathered user rows (8192 × 64) and the whole array
  of gathered item rows (8192 × 64), and stores over the whole output column (8192 × 1) the row-wise sums of their
  entrywise products. Stated here: what the output holds after the body, as the one store's value over the two arrays
  read; the body's triple; the pipeline's proof data (arrays as entered, the inputs' blocks kept, the output's block as
  computed, nothing kept between points, nothing owed); and the obligation the launch asks of the body at its point.
-/
import proofs.«430620_j47536698032634_3_alg».proof.Proof.Gen.Kernel.Launch
import proofs.«430620_j47536698032634_3_alg».proof.Proof.Gen.Kernel.Skeleton
import proofs.«430620_j47536698032634_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at the point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole 8192 × 64 array and the whole 8192 × 1 column, as rectangles. -/
abbrev r4_x : Rect S8192x64 := Rect.unit (s := S8192x64) ![0, 0] S8192x64.size inb_S8192x64_S8192x64_0_0
abbrev r4_o : Rect S8192x1 := Rect.unit (s := S8192x1) ![0, 0] S8192x1.size inb_S8192x1_S8192x1_0_0

/-- The output column after the body: its one store, of the row sums of the products of the two arrays read. -/
def out4_2 (x0 : Vec F S8192x64 .f32) (x1 : Vec F S8192x64 .f32) : Vec F S8192x1 .f32 :=
  View.canon [⟨r4_o, k4_pay1 (View.ld x0 r4_x) (View.ld x1 r4_x)⟩]

/-- The one store covers the column. -/
theorem cover4_2 (p0 : Vec F S8192x1 .f32) (y : S8192x1.Idx) :
    ∃ pc ∈ ([⟨r4_o, p0⟩] : List (View.Piece (Elt F) S8192x1 .f32)), y ∈ pc.1.set :=
  View.cover_of_tiled [⟨r4_o, p0⟩] S8192x1.size (by rfl) y

set_option maxHeartbeats 1000000 in
/-- The body on whole staging buffers, the inputs' at `x0`, `x1` and the output's at anything, ends with the inputs'
    unchanged and the output's at `out4_2 x0 x1`. -/
theorem sound_kernel4 (c : Dev nD) (E : Set ℕ) (i : grid4.Coords) (arg0 : Memref sig .tc .vmem S8192x64 .f32) (harg0 : arg0.IsWhole)
    (arg1 : Memref sig .tc .vmem S8192x64 .f32) (harg1 : arg1.IsWhole) (arg2 : Memref sig .tc .vmem S8192x1 .f32) (harg2 : arg2.IsWhole)
    (x0 : Vec F S8192x64 .f32) (x1 : Vec F S8192x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__score_kernel i arg0 harg0 arg1 harg1 arg2 harg2) K := by
  simp only [cc4__score_kernel_eq_skeleton]; unfold cc4__score_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at the point: the inputs' buffers hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at its point. -/
theorem body_obligation4 (c : Dev nD) : BodyObligation (dat4 (F := F) V c) (defs₀ (F := F)) Variants.none () Set.univ := fun t => by
  rw [bigSep_W4, bigSep_W4]
  exact sound_body4 V c t

end Cert.Kernel.Run

end
-- ==== Proof.RunKernel.Fold.lean ====
/-
  The contents of the core's buffers at every boundary of the program: launch, then alternately after a stretch of host
  operations (the stretch's operations applied in order) and after a kernel region (the region's arrays at what its
  blocks' write-backs leave, every other buffer as it was). Every argument array comes through all of it unchanged: no host
  operation writes one, and a region only reads those it is handed.
-/
import proofs.«430620_j47536698032634_3_alg».proof.Proof.RunKernel.Edge0
import proofs.«430620_j47536698032634_3_alg».proof.Proof.RunKernel.Edge1
import proofs.«430620_j47536698032634_3_alg».proof.Proof.RunKernel.Edge2
import proofs.«430620_j47536698032634_3_alg».proof.Proof.RunKernel.Combine
import proofs.«430620_j47536698032634_3_alg».proof.Proof.RunKernel.Score
import proofs.«430620_j47536698032634_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m ((c : Dev nD), b)

/-- After host stretch 0 (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array is as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- After host stretch 1 (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- An input window's array is as entered. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-- After host stretch 2 (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- An input window's array is as entered. -/
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-- After host stretch 3 (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- An input window's array is as entered. -/
theorem W8_in (c : Dev nD) (w : Fin cfg3.W) (hin : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hin _).trans (A_eq3 (V7 m) c w))

/-- After host stretch 4 (region 4's entry). -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- After region 4: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- An input window's array is as entered. -/
theorem W10_in (c : Dev nD) (w : Fin cfg4.W) (hin : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hin _).trans (A_eq4 (V9 m) c w))

/-- After the last host stretch. -/
abbrev W11 : Dev nD → Valuation τ sig (Elt F) := fun c => StableHlo.after hostOps5 (W10 m c)

/-! ## What a host stretch does not write is as before it -/
theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h
theorem W9_keep (c : Dev nD) (r : Ref sig .tc) (h : r ∉ hostOps4_W) : W9 m c r = W8 m c r :=
  StableHlo.after_of_writes_sub hostOps4 _ hostOps4_writes h
theorem W11_keep (c : Dev nD) (r : Ref sig .tc) (h : r ∉ hostOps5_W) : W11 m c r = W10 m c r :=
  StableHlo.after_of_writes_sub hostOps5 _ hostOps5_writes h

/-! ## The arguments are as launched at every boundary -/
theorem W0_main_arg0 (c : Dev nD) : W0 m c main_arg0 = m ((c : Thread nD τ).loc main_arg0) := rfl
theorem W1_main_arg0 (c : Dev nD) : W1 m c main_arg0 = m ((c : Thread nD τ).loc main_arg0) := (W1_keep m c main_arg0 (by decide)).trans (W0_main_arg0 m c)
theorem W2_main_arg0 (c : Dev nD) : W2 m c main_arg0 = m ((c : Thread nD τ).loc main_arg0) := (W2_of_ne m c main_arg0 (by decide)).trans (W1_main_arg0 m c)
theorem W3_main_arg0 (c : Dev nD) : W3 m c main_arg0 = m ((c : Thread nD τ).loc main_arg0) := (W3_keep m c main_arg0 (by decide)).trans (W2_main_arg0 m c)
theorem W4_main_arg0 (c : Dev nD) : W4 m c main_arg0 = m ((c : Thread nD τ).loc main_arg0) := (W4_of_ne m c main_arg0 (by decide)).trans (W3_main_arg0 m c)
theorem W5_main_arg0 (c : Dev nD) : W5 m c main_arg0 = m ((c : Thread nD τ).loc main_arg0) := (W5_keep m c main_arg0 (by decide)).trans (W4_main_arg0 m c)
theorem W6_main_arg0 (c : Dev nD) : W6 m c main_arg0 = m ((c : Thread nD τ).loc main_arg0) := (W6_of_ne m c main_arg0 (by decide)).trans (W5_main_arg0 m c)
theorem W7_main_arg0 (c : Dev nD) : W7 m c main_arg0 = m ((c : Thread nD τ).loc main_arg0) := (W7_keep m c main_arg0 (by decide)).trans (W6_main_arg0 m c)
theorem W8_main_arg0 (c : Dev nD) : W8 m c main_arg0 = m ((c : Thread nD τ).loc main_arg0) := (W8_of_ne m c main_arg0 (by decide)).trans (W7_main_arg0 m c)
theorem W9_main_arg0 (c : Dev nD) : W9 m c main_arg0 = m ((c : Thread nD τ).loc main_arg0) := (W9_keep m c main_arg0 (by decide)).trans (W8_main_arg0 m c)
theorem W10_main_arg0 (c : Dev nD) : W10 m c main_arg0 = m ((c : Thread nD τ).loc main_arg0) := (W10_of_ne m c main_arg0 (by decide)).trans (W9_main_arg0 m c)
theorem W11_main_arg0 (c : Dev nD) : W11 m c main_arg0 = m ((c : Thread nD τ).loc main_arg0) := (W11_keep m c main_arg0 (by decide)).trans (W10_main_arg0 m c)
theorem W0_main_arg1 (c : Dev nD) : W0 m c main_arg1 = m ((c : Thread nD τ).loc main_arg1) := rfl
theorem W1_main_arg1 (c : Dev nD) : W1 m c main_arg1 = m ((c : Thread nD τ).loc main_arg1) := (W1_keep m c main_arg1 (by decide)).trans (W0_main_arg1 m c)
theorem W2_main_arg1 (c : Dev nD) : W2 m c main_arg1 = m ((c : Thread nD τ).loc main_arg1) := (W2_of_ne m c main_arg1 (by decide)).trans (W1_main_arg1 m c)
theorem W3_main_arg1 (c : Dev nD) : W3 m c main_arg1 = m ((c : Thread nD τ).loc main_arg1) := (W3_keep m c main_arg1 (by decide)).trans (W2_main_arg1 m c)
theorem W4_main_arg1 (c : Dev nD) : W4 m c main_arg1 = m ((c : Thread nD τ).loc main_arg1) := (W4_of_ne m c main_arg1 (by decide)).trans (W3_main_arg1 m c)
theorem W5_main_arg1 (c : Dev nD) : W5 m c main_arg1 = m ((c : Thread nD τ).loc main_arg1) := (W5_keep m c main_arg1 (by decide)).trans (W4_main_arg1 m c)
theorem W6_main_arg1 (c : Dev nD) : W6 m c main_arg1 = m ((c : Thread nD τ).loc main_arg1) := (W6_of_ne m c main_arg1 (by decide)).trans (W5_main_arg1 m c)
theorem W7_main_arg1 (c : Dev nD) : W7 m c main_arg1 = m ((c : Thread nD τ).loc main_arg1) := (W7_keep m c main_arg1 (by decide)).trans (W6_main_arg1 m c)
theorem W8_main_arg1 (c : Dev nD) : W8 m c main_arg1 = m ((c : Thread nD τ).loc main_arg1) := (W8_of_ne m c main_arg1 (by decide)).trans (W7_main_arg1 m c)
theorem W9_main_arg1 (c : Dev nD) : W9 m c main_arg1 = m ((c : Thread nD τ).loc main_arg1) := (W9_keep m c main_arg1 (by decide)).trans (W8_main_arg1 m c)
theorem W10_main_arg1 (c : Dev nD) : W10 m c main_arg1 = m ((c : Thread nD τ).loc main_arg1) := (W10_of_ne m c main_arg1 (by decide)).trans (W9_main_arg1 m c)
theorem W11_main_arg1 (c : Dev nD) : W11 m c main_arg1 = m ((c : Thread nD τ).loc main_arg1) := (W11_keep m c main_arg1 (by decide)).trans (W10_main_arg1 m c)
theorem W0_main_arg2 (c : Dev nD) : W0 m c main_arg2 = m ((c : Thread nD τ).loc main_arg2) := rfl
theorem W1_main_arg2 (c : Dev nD) : W1 m c main_arg2 = m ((c : Thread nD τ).loc main_arg2) := (W1_keep m c main_arg2 (by decide)).trans (W0_main_arg2 m c)
theorem W2_main_arg2 (c : Dev nD) : W2 m c main_arg2 = m ((c : Thread nD τ).loc main_arg2) := (W2_of_ne m c main_arg2 (by decide)).trans (W1_main_arg2 m c)
theorem W3_main_arg2 (c : Dev nD) : W3 m c main_arg2 = m ((c : Thread nD τ).loc main_arg2) := (W3_keep m c main_arg2 (by decide)).trans (W2_main_arg2 m c)
theorem W4_main_arg2 (c : Dev nD) : W4 m c main_arg2 = m ((c : Thread nD τ).loc main_arg2) := (W4_of_ne m c main_arg2 (by decide)).trans (W3_main_arg2 m c)
theorem W5_main_arg2 (c : Dev nD) : W5 m c main_arg2 = m ((c : Thread nD τ).loc main_arg2) := (W5_keep m c main_arg2 (by decide)).trans (W4_main_arg2 m c)
theorem W6_main_arg2 (c : Dev nD) : W6 m c main_arg2 = m ((c : Thread nD τ).loc main_arg2) := (W6_of_ne m c main_arg2 (by decide)).trans (W5_main_arg2 m c)
theorem W7_main_arg2 (c : Dev nD) : W7 m c main_arg2 = m ((c : Thread nD τ).loc main_arg2) := (W7_keep m c main_arg2 (by decide)).trans (W6_main_arg2 m c)
theorem W8_main_arg2 (c : Dev nD) : W8 m c main_arg2 = m ((c : Thread nD τ).loc main_arg2) := (W8_of_ne m c main_arg2 (by decide)).trans (W7_main_arg2 m c)
theorem W9_main_arg2 (c : Dev nD) : W9 m c main_arg2 = m ((c : Thread nD τ).loc main_arg2) := (W9_keep m c main_arg2 (by decide)).trans (W8_main_arg2 m c)
theorem W10_main_arg2 (c : Dev nD) : W10 m c main_arg2 = m ((c : Thread nD τ).loc main_arg2) := (W10_of_ne m c main_arg2 (by decide)).trans (W9_main_arg2 m c)
theorem W11_main_arg2 (c : Dev nD) : W11 m c main_arg2 = m ((c : Thread nD τ).loc main_arg2) := (W11_keep m c main_arg2 (by decide)).trans (W10_main_arg2 m c)
theorem W0_main_arg3 (c : Dev nD) : W0 m c main_arg3 = m ((c : Thread nD τ).loc main_arg3) := rfl
theorem W1_main_arg3 (c : Dev nD) : W1 m c main_arg3 = m ((c : Thread nD τ).loc main_arg3) := (W1_keep m c main_arg3 (by decide)).trans (W0_main_arg3 m c)
theorem W2_main_arg3 (c : Dev nD) : W2 m c main_arg3 = m ((c : Thread nD τ).loc main_arg3) := (W2_of_ne m c main_arg3 (by decide)).trans (W1_main_arg3 m c)
theorem W3_main_arg3 (c : Dev nD) : W3 m c main_arg3 = m ((c : Thread nD τ).loc main_arg3) := (W3_keep m c main_arg3 (by decide)).trans (W2_main_arg3 m c)
theorem W4_main_arg3 (c : Dev nD) : W4 m c main_arg3 = m ((c : Thread nD τ).loc main_arg3) := (W4_of_ne m c main_arg3 (by decide)).trans (W3_main_arg3 m c)
theorem W5_main_arg3 (c : Dev nD) : W5 m c main_arg3 = m ((c : Thread nD τ).loc main_arg3) := (W5_keep m c main_arg3 (by decide)).trans (W4_main_arg3 m c)
theorem W6_main_arg3 (c : Dev nD) : W6 m c main_arg3 = m ((c : Thread nD τ).loc main_arg3) := (W6_of_ne m c main_arg3 (by decide)).trans (W5_main_arg3 m c)
theorem W7_main_arg3 (c : Dev nD) : W7 m c main_arg3 = m ((c : Thread nD τ).loc main_arg3) := (W7_keep m c main_arg3 (by decide)).trans (W6_main_arg3 m c)
theorem W8_main_arg3 (c : Dev nD) : W8 m c main_arg3 = m ((c : Thread nD τ).loc main_arg3) := (W8_in m c 1 rfl).trans (W7_main_arg3 m c)
theorem W9_main_arg3 (c : Dev nD) : W9 m c main_arg3 = m ((c : Thread nD τ).loc main_arg3) := (W9_keep m c main_arg3 (by decide)).trans (W8_main_arg3 m c)
theorem W10_main_arg3 (c : Dev nD) : W10 m c main_arg3 = m ((c : Thread nD τ).loc main_arg3) := (W10_of_ne m c main_arg3 (by decide)).trans (W9_main_arg3 m c)
theorem W11_main_arg3 (c : Dev nD) : W11 m c main_arg3 = m ((c : Thread nD τ).loc main_arg3) := (W11_keep m c main_arg3 (by decide)).trans (W10_main_arg3 m c)
theorem W0_main_arg4 (c : Dev nD) : W0 m c main_arg4 = m ((c : Thread nD τ).loc main_arg4) := rfl
theorem W1_main_arg4 (c : Dev nD) : W1 m c main_arg4 = m ((c : Thread nD τ).loc main_arg4) := (W1_keep m c main_arg4 (by decide)).trans (W0_main_arg4 m c)
theorem W2_main_arg4 (c : Dev nD) : W2 m c main_arg4 = m ((c : Thread nD τ).loc main_arg4) := (W2_of_ne m c main_arg4 (by decide)).trans (W1_main_arg4 m c)
theorem W3_main_arg4 (c : Dev nD) : W3 m c main_arg4 = m ((c : Thread nD τ).loc main_arg4) := (W3_keep m c main_arg4 (by decide)).trans (W2_main_arg4 m c)
theorem W4_main_arg4 (c : Dev nD) : W4 m c main_arg4 = m ((c : Thread nD τ).loc main_arg4) := (W4_of_ne m c main_arg4 (by decide)).trans (W3_main_arg4 m c)
theorem W5_main_arg4 (c : Dev nD) : W5 m c main_arg4 = m ((c : Thread nD τ).loc main_arg4) := (W5_keep m c main_arg4 (by decide)).trans (W4_main_arg4 m c)
theorem W6_main_arg4 (c : Dev nD) : W6 m c main_arg4 = m ((c : Thread nD τ).loc main_arg4) := (W6_of_ne m c main_arg4 (by decide)).trans (W5_main_arg4 m c)
theorem W7_main_arg4 (c : Dev nD) : W7 m c main_arg4 = m ((c : Thread nD τ).loc main_arg4) := (W7_keep m c main_arg4 (by decide)).trans (W6_main_arg4 m c)
theorem W8_main_arg4 (c : Dev nD) : W8 m c main_arg4 = m ((c : Thread nD τ).loc main_arg4) := (W8_in m c 2 rfl).trans (W7_main_arg4 m c)
theorem W9_main_arg4 (c : Dev nD) : W9 m c main_arg4 = m ((c : Thread nD τ).loc main_arg4) := (W9_keep m c main_arg4 (by decide)).trans (W8_main_arg4 m c)
theorem W10_main_arg4 (c : Dev nD) : W10 m c main_arg4 = m ((c : Thread nD τ).loc main_arg4) := (W10_of_ne m c main_arg4 (by decide)).trans (W9_main_arg4 m c)
theorem W11_main_arg4 (c : Dev nD) : W11 m c main_arg4 = m ((c : Thread nD τ).loc main_arg4) := (W11_keep m c main_arg4 (by decide)).trans (W10_main_arg4 m c)
theorem W0_main_arg5 (c : Dev nD) : W0 m c main_arg5 = m ((c : Thread nD τ).loc main_arg5) := rfl
theorem W1_main_arg5 (c : Dev nD) : W1 m c main_arg5 = m ((c : Thread nD τ).loc main_arg5) := (W1_keep m c main_arg5 (by decide)).trans (W0_main_arg5 m c)
theorem W2_main_arg5 (c : Dev nD) : W2 m c main_arg5 = m ((c : Thread nD τ).loc main_arg5) := (W2_of_ne m c main_arg5 (by decide)).trans (W1_main_arg5 m c)
theorem W3_main_arg5 (c : Dev nD) : W3 m c main_arg5 = m ((c : Thread nD τ).loc main_arg5) := (W3_keep m c main_arg5 (by decide)).trans (W2_main_arg5 m c)
theorem W4_main_arg5 (c : Dev nD) : W4 m c main_arg5 = m ((c : Thread nD τ).loc main_arg5) := (W4_of_ne m c main_arg5 (by decide)).trans (W3_main_arg5 m c)
theorem W5_main_arg5 (c : Dev nD) : W5 m c main_arg5 = m ((c : Thread nD τ).loc main_arg5) := (W5_keep m c main_arg5 (by decide)).trans (W4_main_arg5 m c)
theorem W6_main_arg5 (c : Dev nD) : W6 m c main_arg5 = m ((c : Thread nD τ).loc main_arg5) := (W6_of_ne m c main_arg5 (by decide)).trans (W5_main_arg5 m c)
theorem W7_main_arg5 (c : Dev nD) : W7 m c main_arg5 = m ((c : Thread nD τ).loc main_arg5) := (W7_keep m c main_arg5 (by decide)).trans (W6_main_arg5 m c)
theorem W8_main_arg5 (c : Dev nD) : W8 m c main_arg5 = m ((c : Thread nD τ).loc main_arg5) := (W8_of_ne m c main_arg5 (by decide)).trans (W7_main_arg5 m c)
theorem W9_main_arg5 (c : Dev nD) : W9 m c main_arg5 = m ((c : Thread nD τ).loc main_arg5) := (W9_keep m c main_arg5 (by decide)).trans (W8_main_arg5 m c)
theorem W10_main_arg5 (c : Dev nD) : W10 m c main_arg5 = m ((c : Thread nD τ).loc main_arg5) := (W10_of_ne m c main_arg5 (by decide)).trans (W9_main_arg5 m c)
theorem W11_main_arg5 (c : Dev nD) : W11 m c main_arg5 = m ((c : Thread nD τ).loc main_arg5) := (W11_keep m c main_arg5 (by decide)).trans (W10_main_arg5 m c)
theorem W0_main_arg6 (c : Dev nD) : W0 m c main_arg6 = m ((c : Thread nD τ).loc main_arg6) := rfl
theorem W1_main_arg6 (c : Dev nD) : W1 m c main_arg6 = m ((c : Thread nD τ).loc main_arg6) := (W1_keep m c main_arg6 (by decide)).trans (W0_main_arg6 m c)
theorem W2_main_arg6 (c : Dev nD) : W2 m c main_arg6 = m ((c : Thread nD τ).loc main_arg6) := (W2_of_ne m c main_arg6 (by decide)).trans (W1_main_arg6 m c)
theorem W3_main_arg6 (c : Dev nD) : W3 m c main_arg6 = m ((c : Thread nD τ).loc main_arg6) := (W3_keep m c main_arg6 (by decide)).trans (W2_main_arg6 m c)
theorem W4_main_arg6 (c : Dev nD) : W4 m c main_arg6 = m ((c : Thread nD τ).loc main_arg6) := (W4_of_ne m c main_arg6 (by decide)).trans (W3_main_arg6 m c)
theorem W5_main_arg6 (c : Dev nD) : W5 m c main_arg6 = m ((c : Thread nD τ).loc main_arg6) := (W5_keep m c main_arg6 (by decide)).trans (W4_main_arg6 m c)
theorem W6_main_arg6 (c : Dev nD) : W6 m c main_arg6 = m ((c : Thread nD τ).loc main_arg6) := (W6_of_ne m c main_arg6 (by decide)).trans (W5_main_arg6 m c)
theorem W7_main_arg6 (c : Dev nD) : W7 m c main_arg6 = m ((c : Thread nD τ).loc main_arg6) := (W7_keep m c main_arg6 (by decide)).trans (W6_main_arg6 m c)
theorem W8_main_arg6 (c : Dev nD) : W8 m c main_arg6 = m ((c : Thread nD τ).loc main_arg6) := (W8_of_ne m c main_arg6 (by decide)).trans (W7_main_arg6 m c)
theorem W9_main_arg6 (c : Dev nD) : W9 m c main_arg6 = m ((c : Thread nD τ).loc main_arg6) := (W9_keep m c main_arg6 (by decide)).trans (W8_main_arg6 m c)
theorem W10_main_arg6 (c : Dev nD) : W10 m c main_arg6 = m ((c : Thread nD τ).loc main_arg6) := (W10_of_ne m c main_arg6 (by decide)).trans (W9_main_arg6 m c)
theorem W11_main_arg6 (c : Dev nD) : W11 m c main_arg6 = m ((c : Thread nD τ).loc main_arg6) := (W11_keep m c main_arg6 (by decide)).trans (W10_main_arg6 m c)
theorem W0_main_arg7 (c : Dev nD) : W0 m c main_arg7 = m ((c : Thread nD τ).loc main_arg7) := rfl
theorem W1_main_arg7 (c : Dev nD) : W1 m c main_arg7 = m ((c : Thread nD τ).loc main_arg7) := (W1_keep m c main_arg7 (by decide)).trans (W0_main_arg7 m c)
theorem W2_main_arg7 (c : Dev nD) : W2 m c main_arg7 = m ((c : Thread nD τ).loc main_arg7) := (W2_of_ne m c main_arg7 (by decide)).trans (W1_main_arg7 m c)
theorem W3_main_arg7 (c : Dev nD) : W3 m c main_arg7 = m ((c : Thread nD τ).loc main_arg7) := (W3_keep m c main_arg7 (by decide)).trans (W2_main_arg7 m c)
theorem W4_main_arg7 (c : Dev nD) : W4 m c main_arg7 = m ((c : Thread nD τ).loc main_arg7) := (W4_of_ne m c main_arg7 (by decide)).trans (W3_main_arg7 m c)
theorem W5_main_arg7 (c : Dev nD) : W5 m c main_arg7 = m ((c : Thread nD τ).loc main_arg7) := (W5_keep m c main_arg7 (by decide)).trans (W4_main_arg7 m c)
theorem W6_main_arg7 (c : Dev nD) : W6 m c main_arg7 = m ((c : Thread nD τ).loc main_arg7) := (W6_of_ne m c main_arg7 (by decide)).trans (W5_main_arg7 m c)
theorem W7_main_arg7 (c : Dev nD) : W7 m c main_arg7 = m ((c : Thread nD τ).loc main_arg7) := (W7_keep m c main_arg7 (by decide)).trans (W6_main_arg7 m c)
theorem W8_main_arg7 (c : Dev nD) : W8 m c main_arg7 = m ((c : Thread nD τ).loc main_arg7) := (W8_of_ne m c main_arg7 (by decide)).trans (W7_main_arg7 m c)
theorem W9_main_arg7 (c : Dev nD) : W9 m c main_arg7 = m ((c : Thread nD τ).loc main_arg7) := (W9_keep m c main_arg7 (by decide)).trans (W8_main_arg7 m c)
theorem W10_main_arg7 (c : Dev nD) : W10 m c main_arg7 = m ((c : Thread nD τ).loc main_arg7) := (W10_of_ne m c main_arg7 (by decide)).trans (W9_main_arg7 m c)
theorem W11_main_arg7 (c : Dev nD) : W11 m c main_arg7 = m ((c : Thread nD τ).loc main_arg7) := (W11_keep m c main_arg7 (by decide)).trans (W10_main_arg7 m c)
theorem W0_main_arg8 (c : Dev nD) : W0 m c main_arg8 = m ((c : Thread nD τ).loc main_arg8) := rfl
theorem W1_main_arg8 (c : Dev nD) : W1 m c main_arg8 = m ((c : Thread nD τ).loc main_arg8) := (W1_keep m c main_arg8 (by decide)).trans (W0_main_arg8 m c)
theorem W2_main_arg8 (c : Dev nD) : W2 m c main_arg8 = m ((c : Thread nD τ).loc main_arg8) := (W2_of_ne m c main_arg8 (by decide)).trans (W1_main_arg8 m c)
theorem W3_main_arg8 (c : Dev nD) : W3 m c main_arg8 = m ((c : Thread nD τ).loc main_arg8) := (W3_keep m c main_arg8 (by decide)).trans (W2_main_arg8 m c)
theorem W4_main_arg8 (c : Dev nD) : W4 m c main_arg8 = m ((c : Thread nD τ).loc main_arg8) := (W4_of_ne m c main_arg8 (by decide)).trans (W3_main_arg8 m c)
theorem W5_main_arg8 (c : Dev nD) : W5 m c main_arg8 = m ((c : Thread nD τ).loc main_arg8) := (W5_keep m c main_arg8 (by decide)).trans (W4_main_arg8 m c)
theorem W6_main_arg8 (c : Dev nD) : W6 m c main_arg8 = m ((c : Thread nD τ).loc main_arg8) := (W6_of_ne m c main_arg8 (by decide)).trans (W5_main_arg8 m c)
theorem W7_main_arg8 (c : Dev nD) : W7 m c main_arg8 = m ((c : Thread nD τ).loc main_arg8) := (W7_keep m c main_arg8 (by decide)).trans (W6_main_arg8 m c)
theorem W8_main_arg8 (c : Dev nD) : W8 m c main_arg8 = m ((c : Thread nD τ).loc main_arg8) := (W8_of_ne m c main_arg8 (by decide)).trans (W7_main_arg8 m c)
theorem W9_main_arg8 (c : Dev nD) : W9 m c main_arg8 = m ((c : Thread nD τ).loc main_arg8) := (W9_keep m c main_arg8 (by decide)).trans (W8_main_arg8 m c)
theorem W10_main_arg8 (c : Dev nD) : W10 m c main_arg8 = m ((c : Thread nD τ).loc main_arg8) := (W10_of_ne m c main_arg8 (by decide)).trans (W9_main_arg8 m c)
theorem W11_main_arg8 (c : Dev nD) : W11 m c main_arg8 = m ((c : Thread nD τ).loc main_arg8) := (W11_keep m c main_arg8 (by decide)).trans (W10_main_arg8 m c)

end Cert.Kernel.Run

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.RunKernel.Run.lean ====
/-
  The program's run. Its @main is eleven items: six stretches of host operations alternating with the five kernel regions.
  Each item is a segment over one thread state — every unscoped buffer of the core held whole at the boundary's contents,
  beside the generator register at some state and the core owing nothing — and the segments chain from the launch to the
  return. Every weakly fair execution then terminates, and in the final memory every unscoped buffer holds the last
  boundary's contents; in particular the arguments are as launched.
-/
import proofs.«430620_j47536698032634_3_alg».proof.Proof.RunKernel.Fold
import proofs.«430620_j47536698032634_3_alg».proof.Proof.LibRegion
import Idealize.ShloMosaic.Lib.Pipeline.Kit
import Idealize.ShloMosaic.Lib.Ring

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := Cert.LibRegion.R (nD := nD) (τ := τ) (sig := sig) (Val := Elt F) (U := UR sig nD τ) c
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W11 m c) ∗ ∃ r, prngReg c r)

set_option backward.isDefEq.respectTransparency.types false in
/-- Region 0 as a segment: entered with every unscoped buffer at `W1`, left with them at `W2`. Its arrays are distinct
    whole buffers, each window at the full share. -/
def reg0 : Pipeline.RegionSeg (pcfgs (F := F)) adm (pdats m) () defs₀ 𝒱₀ L lv 0 :=
  Cert.LibRegion.regionSegHeldA (pcfgs (F := F)) adm (pdats m) defs₀ 𝒱₀ L lv 0 launch0.win.to₀ launch0.block_pos launch0.stage_whole rfl
    (fun c => (body_obligation0 (V1 m) c).loose) (fun c => rfl) (fun c => rfl) (fun c t => rfl) (fun c => rfl)
    (W1 m) (W2 m)
    (fun c => Cert.LibRegion.arrBufs_split_distinct cfg0 c (pdats m 0 c) launch0.win.arr_inj launch0.arr_whole
      ((pdats m 0 c).share_full fun _ => rfl) (fun b => W1 m c b) _ (fun _ => rfl))
    (fun c => Cert.LibRegion.arrBufs_join_distinct cfg0 c (pdats m 0 c) launch0.win.arr_inj launch0.arr_whole
      ((pdats m 0 c).share_full fun _ => rfl) (fun b => W2 m c b) _ (hF0 m c))
    (hrest0 m)

set_option backward.isDefEq.respectTransparency.types false in
/-- Region 1 as a segment: entered with every unscoped buffer at `W3`, left with them at `W4`. Its arrays are distinct
    whole buffers, each window at the full share. -/
def reg1 : Pipeline.RegionSeg (pcfgs (F := F)) adm (pdats m) () defs₀ 𝒱₀ L lv 1 :=
  Cert.LibRegion.regionSegHeldA (pcfgs (F := F)) adm (pdats m) defs₀ 𝒱₀ L lv 1 launch1.win.to₀ launch1.block_pos launch1.stage_whole rfl
    (fun c => (body_obligation1 (V3 m) c).loose) (fun c => rfl) (fun c => rfl) (fun c t => rfl) (fun c => rfl)
    (W3 m) (W4 m)
    (fun c => Cert.LibRegion.arrBufs_split_distinct cfg1 c (pdats m 1 c) launch1.win.arr_inj launch1.arr_whole
      ((pdats m 1 c).share_full fun _ => rfl) (fun b => W3 m c b) _ (fun _ => rfl))
    (fun c => Cert.LibRegion.arrBufs_join_distinct cfg1 c (pdats m 1 c) launch1.win.arr_inj launch1.arr_whole
      ((pdats m 1 c).share_full fun _ => rfl) (fun b => W4 m c b) _ (hF1 m c))
    (hrest1 m)

set_option backward.isDefEq.respectTransparency.types false in
/-- Region 2 as a segment: entered with every unscoped buffer at `W5`, left with them at `W6`. Its arrays are distinct
    whole buffers, each window at the full share. -/
def reg2 : Pipeline.RegionSeg (pcfgs (F := F)) adm (pdats m) () defs₀ 𝒱₀ L lv 2 :=
  Cert.LibRegion.regionSegHeldA (pcfgs (F := F)) adm (pdats m) defs₀ 𝒱₀ L lv 2 launch2.win.to₀ launch2.block_pos launch2.stage_whole rfl
    (fun c => (body_obligation2 (V5 m) c).loose) (fun c => rfl) (fun c => rfl) (fun c t => rfl) (fun c => rfl)
    (W5 m) (W6 m)
    (fun c => Cert.LibRegion.arrBufs_split_distinct cfg2 c (pdats m 2 c) launch2.win.arr_inj launch2.arr_whole
      ((pdats m 2 c).share_full fun _ => rfl) (fun b => W5 m c b) _ (fun _ => rfl))
    (fun c => Cert.LibRegion.arrBufs_join_distinct cfg2 c (pdats m 2 c) launch2.win.arr_inj launch2.arr_whole
      ((pdats m 2 c).share_full fun _ => rfl) (fun b => W6 m c b) _ (hF2 m c))
    (hrest2 m)

set_option backward.isDefEq.respectTransparency.types false in
/-- Region 3 as a segment: entered with every unscoped buffer at `W7`, left with them at `W8`. Its arrays are distinct
    whole buffers, each window at the full share. -/
def reg3 : Pipeline.RegionSeg (pcfgs (F := F)) adm (pdats m) () defs₀ 𝒱₀ L lv 3 :=
  Cert.LibRegion.regionSegHeldA (pcfgs (F := F)) adm (pdats m) defs₀ 𝒱₀ L lv 3 launch3.win.to₀ launch3.block_pos launch3.stage_whole rfl
    (fun c => (body_obligation3 (V7 m) c).loose) (fun c => rfl) (fun c => rfl) (fun c t => rfl) (fun c => rfl)
    (W7 m) (W8 m)
    (fun c => Cert.LibRegion.arrBufs_split_distinct cfg3 c (pdats m 3 c) launch3.win.arr_inj launch3.arr_whole
      ((pdats m 3 c).share_full fun _ => rfl) (fun b => W7 m c b) _ (fun _ => rfl))
    (fun c => Cert.LibRegion.arrBufs_join_distinct cfg3 c (pdats m 3 c) launch3.win.arr_inj launch3.arr_whole
      ((pdats m 3 c).share_full fun _ => rfl) (fun b => W8 m c b) _ (hF3 m c))
    (hrest3 m)

set_option backward.isDefEq.respectTransparency.types false in
/-- Region 4 as a segment: entered with every unscoped buffer at `W9`, left with them at `W10`. Its arrays are distinct
    whole buffers, each window at the full share. -/
def reg4 : Pipeline.RegionSeg (pcfgs (F := F)) adm (pdats m) () defs₀ 𝒱₀ L lv 4 :=
  Cert.LibRegion.regionSegHeldA (pcfgs (F := F)) adm (pdats m) defs₀ 𝒱₀ L lv 4 launch4.win.to₀ launch4.block_pos launch4.stage_whole rfl
    (fun c => (body_obligation4 (V9 m) c).loose) (fun c => rfl) (fun c => rfl) (fun c t => rfl) (fun c => rfl)
    (W9 m) (W10 m)
    (fun c => Cert.LibRegion.arrBufs_split_distinct cfg4 c (pdats m 4 c) launch4.win.arr_inj launch4.arr_whole
      ((pdats m 4 c).share_full fun _ => rfl) (fun b => W9 m c b) _ (fun _ => rfl))
    (fun c => Cert.LibRegion.arrBufs_join_distinct cfg4 c (pdats m 4 c) launch4.win.arr_inj launch4.arr_whole
      ((pdats m 4 c).share_full fun _ => rfl) (fun b => W10 m c b) _ (hF4 m c))
    (hrest4 m)

/-- @main's eleven segments in order. -/
abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m),
    .host (hseg hostOps5 hostOps5_sub hostOps5_fresh (W10 m)) ]

/-- @main is the run of the segments. -/
theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of @main terminates, nothing faulting, and in
    the final memory every unscoped buffer of every core holds the last boundary's contents. -/
theorem run (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W11 m c) ∗ ∃ r, prngReg c r)
            ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c b hb => h c _ (mem_uc b hb))

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_arg0 (by decide)).trans (W11_main_arg0 m c), (h c main_arg1 (by decide)).trans (W11_main_arg1 m c),
     (h c main_arg2 (by decide)).trans (W11_main_arg2 m c), (h c main_arg3 (by decide)).trans (W11_main_arg3 m c),
     (h c main_arg4 (by decide)).trans (W11_main_arg4 m c), (h c main_arg5 (by decide)).trans (W11_main_arg5 m c),
     (h c main_arg6 (by decide)).trans (W11_main_arg6 m c), (h c main_arg7 (by decide)).trans (W11_main_arg7 m c),
     (h c main_arg8 (by decide)).trans (W11_main_arg8 m c)⟩) (run m ρ)

/-- The run with the result buffer named: it ends at the last boundary's contents, beside the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v62) = W11 m c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c main_v62 (by decide),
     (h c main_arg0 (by decide)).trans (W11_main_arg0 m c), (h c main_arg1 (by decide)).trans (W11_main_arg1 m c),
     (h c main_arg2 (by decide)).trans (W11_main_arg2 m c), (h c main_arg3 (by decide)).trans (W11_main_arg3 m c),
     (h c main_arg4 (by decide)).trans (W11_main_arg4 m c), (h c main_arg5 (by decide)).trans (W11_main_arg5 m c),
     (h c main_arg6 (by decide)).trans (W11_main_arg6 m c), (h c main_arg7 (by decide)).trans (W11_main_arg7 m c),
     (h c main_arg8 (by decide)).trans (W11_main_arg8 m c)⟩) (run m ρ)

end Cert.Kernel.Run

end
-- ==== Proof.RunKernelIdeal.Edge0.lean ====
/-
  The first edge-scaling region, at the contents `V` the core's buffers hold when the region is entered.

  The region walks the 3200000 edges in 500 blocks of 6400 rows. At a point the body reads the block of gathered source
  rows (6400 × 64) and the block of edge weights (6400 × 1), and stores their row-wise product over the whole output
  block. Stated here: what the output block holds after the body, as the one store's value over the two input blocks;
  the body's triple; the pipeline's proof data (arrays as entered, the inputs' blocks kept, the output's block as
  computed, nothing kept between points, nothing owed); and the obligation the launch asks of the body at every point.
-/
import proofs.«430620_j47536698032634_3_alg».proof.Proof.Gen.KernelIdeal.Launch
import proofs.«430620_j47536698032634_3_alg».proof.Proof.Gen.KernelIdeal.Skeleton
import proofs.«430620_j47536698032634_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 6400 × 64 block and the whole 6400 × 1 block, as rectangles. -/
abbrev r0_x : Rect S6400x64 := Rect.unit (s := S6400x64) ![0, 0] S6400x64.size inb_S6400x64_S6400x64_0_0
abbrev r0_v : Rect S6400x1 := Rect.unit (s := S6400x1) ![0, 0] S6400x1.size inb_S6400x1_S6400x1_0_0

/-- The output block after the body: its one store, of the product of the two blocks read. -/
def out0_2 (x0 : Vec F S6400x64 .f32) (x1 : Vec F S6400x1 .f32) : Vec F S6400x64 .f32 :=
  View.canon [⟨r0_x, k0_pay1 (View.ld x0 r0_x) (View.ld x1 r0_v)⟩]

/-- The one store covers the block. -/
theorem cover0_2 (p0 : Vec F S6400x64 .f32) (y : S6400x64.Idx) :
    ∃ pc ∈ ([⟨r0_x, p0⟩] : List (View.Piece (Elt F) S6400x64 .f32)), y ∈ pc.1.set :=
  View.cover_of_tiled [⟨r0_x, p0⟩] S6400x64.size (by rfl) y

set_option maxHeartbeats 1000000 in
/-- The body on whole staging buffers, the inputs' at `x0`, `x1` and the output's at anything, ends with the inputs'
    unchanged and the output's at `out0_2 x0 x1`. -/
theorem sound_kernel0 (c : Dev nD) (E : Set ℕ) (i : grid0.Coords) (arg0 : Memref sig .tc .vmem S6400x64 .f32) (harg0 : arg0.IsWhole)
    (arg1 : Memref sig .tc .vmem S6400x1 .f32) (harg1 : arg1.IsWhole) (arg2 : Memref sig .tc .vmem S6400x64 .f32) (harg2 : arg2.IsWhole)
    (x0 : Vec F S6400x64 .f32) (x1 : Vec F S6400x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__edge_scale_kernel i arg0 harg0 arg1 harg1 arg2 harg2) K := by
  simp only [cc0__edge_scale_kernel_eq_skeleton]; unfold cc0__edge_scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.RunKernelIdeal.Edge1.lean ====
/-
  The second edge-scaling region, at the contents `V` the core's buffers hold when the region is entered.

  The region walks the 3200000 edges in 500 blocks of 6400 rows. At a point the body reads the block of gathered source
  rows (6400 × 64) and the block of edge weights (6400 × 1), and stores their row-wise product over the whole output
  block. Stated here: what the output block holds after the body, as the one store's value over the two input blocks;
  the body's triple; the pipeline's proof data (arrays as entered, the inputs' blocks kept, the output's block as
  computed, nothing kept between points, nothing owed); and the obligation the launch asks of the body at every point.
-/
import proofs.«430620_j47536698032634_3_alg».proof.Proof.Gen.KernelIdeal.Launch
import proofs.«430620_j47536698032634_3_alg».proof.Proof.Gen.KernelIdeal.Skeleton
import proofs.«430620_j47536698032634_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 6400 × 64 block and the whole 6400 × 1 block, as rectangles. -/
abbrev r1_x : Rect S6400x64 := Rect.unit (s := S6400x64) ![0, 0] S6400x64.size inb_S6400x64_S6400x64_0_0
abbrev r1_v : Rect S6400x1 := Rect.unit (s := S6400x1) ![0, 0] S6400x1.size inb_S6400x1_S6400x1_0_0

/-- The output block after the body: its one store, of the product of the two blocks read. -/
def out1_2 (x0 : Vec F S6400x64 .f32) (x1 : Vec F S6400x1 .f32) : Vec F S6400x64 .f32 :=
  View.canon [⟨r1_x, k1_pay1 (View.ld x0 r1_x) (View.ld x1 r1_v)⟩]

/-- The one store covers the block. -/
theorem cover1_2 (p0 : Vec F S6400x64 .f32) (y : S6400x64.Idx) :
    ∃ pc ∈ ([⟨r1_x, p0⟩] : List (View.Piece (Elt F) S6400x64 .f32)), y ∈ pc.1.set :=
  View.cover_of_tiled [⟨r1_x, p0⟩] S6400x64.size (by rfl) y

set_option maxHeartbeats 1000000 in
/-- The body on whole staging buffers, the inputs' at `x0`, `x1` and the output's at anything, ends with the inputs'
    unchanged and the output's at `out1_2 x0 x1`. -/
theorem sound_kernel1 (c : Dev nD) (E : Set ℕ) (i : grid1.Coords) (arg0 : Memref sig .tc .vmem S6400x64 .f32) (harg0 : arg0.IsWhole)
    (arg1 : Memref sig .tc .vmem S6400x1 .f32) (harg1 : arg1.IsWhole) (arg2 : Memref sig .tc .vmem S6400x64 .f32) (harg2 : arg2.IsWhole)
    (x0 : Vec F S6400x64 .f32) (x1 : Vec F S6400x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__edge_scale_kernel i arg0 harg0 arg1 harg1 arg2 harg2) K := by
  simp only [cc1__edge_scale_kernel_eq_skeleton]; unfold cc1__edge_scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.RunKernelIdeal.Edge2.lean ====
/-
  The third edge-scaling region, at the contents `V` the core's buffers hold when the region is entered.

  The region walks the 3200000 edges in 500 blocks of 6400 rows. At a point the body reads the block of gathered source
  rows (6400 × 64) and the block of edge weights (6400 × 1), and stores their row-wise product over the whole output
  block. Stated here: what the output block holds after the body, as the one store's value over the two input blocks;
  the body's triple; the pipeline's proof data (arrays as entered, the inputs' blocks kept, the output's block as
  computed, nothing kept between points, nothing owed); and the obligation the launch asks of the body at every point.
-/
import proofs.«430620_j47536698032634_3_alg».proof.Proof.Gen.KernelIdeal.Launch
import proofs.«430620_j47536698032634_3_alg».proof.Proof.Gen.KernelIdeal.Skeleton
import proofs.«430620_j47536698032634_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 6400 × 64 block and the whole 6400 × 1 block, as rectangles. -/
abbrev r2_x : Rect S6400x64 := Rect.unit (s := S6400x64) ![0, 0] S6400x64.size inb_S6400x64_S6400x64_0_0
abbrev r2_v : Rect S6400x1 := Rect.unit (s := S6400x1) ![0, 0] S6400x1.size inb_S6400x1_S6400x1_0_0

/-- The output block after the body: its one store, of the product of the two blocks read. -/
def out2_2 (x0 : Vec F S6400x64 .f32) (x1 : Vec F S6400x1 .f32) : Vec F S6400x64 .f32 :=
  View.canon [⟨r2_x, k2_pay1 (View.ld x0 r2_x) (View.ld x1 r2_v)⟩]

/-- The one store covers the block. -/
theorem cover2_2 (p0 : Vec F S6400x64 .f32) (y : S6400x64.Idx) :
    ∃ pc ∈ ([⟨r2_x, p0⟩] : List (View.Piece (Elt F) S6400x64 .f32)), y ∈ pc.1.set :=
  View.cover_of_tiled [⟨r2_x, p0⟩] S6400x64.size (by rfl) y

set_option maxHeartbeats 1000000 in
/-- The body on whole staging buffers, the inputs' at `x0`, `x1` and the output's at anything, ends with the inputs'
    unchanged and the output's at `out2_2 x0 x1`. -/
theorem sound_kernel2 (c : Dev nD) (E : Set ℕ) (i : grid2.Coords) (arg0 : Memref sig .tc .vmem S6400x64 .f32) (harg0 : arg0.IsWhole)
    (arg1 : Memref sig .tc .vmem S6400x1 .f32) (harg1 : arg1.IsWhole) (arg2 : Memref sig .tc .vmem S6400x64 .f32) (harg2 : arg2.IsWhole)
    (x0 : Vec F S6400x64 .f32) (x1 : Vec F S6400x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__edge_scale_kernel i arg0 harg0 arg1 harg1 arg2 harg2) K := by
  simp only [cc2__edge_scale_kernel_eq_skeleton]; unfold cc2__edge_scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.RunKernelIdeal.Combine.lean ====
/-
  The linear-combine region, at the contents `V` the core's buffers hold when the region is entered.

  The region walks the 50000 item rows in 25 blocks of 2000 rows. At a point the body reads the block of the four
  stacked feature arrays (4 × 2000 × 64), the whole matrix (64 × 64) and the whole offset (64), and stores, over the
  whole output block (2000 × 64), the mean of the four arrays sent through the affine map. The matrix and the offset
  are brought in at the first point only: their block never moves, so their buffers hold them at every point.
  Stated here: what the output block holds after the body, as the one store's value over the three input blocks; the
  body's triple; the pipeline's proof data (arrays as entered, the inputs' blocks kept, the output's block as
  computed, nothing kept between points, nothing owed); and the obligation the launch asks of the body at every point.
-/
import proofs.«430620_j47536698032634_3_alg».proof.Proof.Gen.KernelIdeal.Launch
import proofs.«430620_j47536698032634_3_alg».proof.Proof.Gen.KernelIdeal.Skeleton
import proofs.«430620_j47536698032634_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, for any proof data whose array is `V`'s
    and whose body leaves the block in place — brought in at that point or, the block not having moved, earlier. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 4 × 2000 × 64 block, the whole 64 × 64 matrix, the whole offset, the whole 2000 × 64 block, as rectangles. -/
abbrev r3_s : Rect S4x2000x64 := Rect.unit (s := S4x2000x64) ![0, 0, 0] S4x2000x64.size inb_S4x2000x64_S4x2000x64_0_0_0
abbrev r3_w : Rect S64x64 := Rect.unit (s := S64x64) ![0, 0] S64x64.size inb_S64x64_S64x64_0_0
abbrev r3_b : Rect S64 := Rect.unit (s := S64) ![0] S64.size inb_S64_S64_0
abbrev r3_o : Rect S2000x64 := Rect.unit (s := S2000x64) ![0, 0] S2000x64.size inb_S2000x64_S2000x64_0_0

/-- The output block after the body: its one store, of the affine image of the mean of the blocks read. -/
def out3_3 (x0 : Vec F S4x2000x64 .f32) (x1 : Vec F S64x64 .f32) (x2 : Vec F S64 .f32) : Vec F S2000x64 .f32 :=
  View.canon [⟨r3_o, k3_pay1 (View.ld x0 r3_s) (View.ld x1 r3_w) (View.ld x2 r3_b)⟩]

/-- The one store covers the block. -/
theorem cover3_3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

set_option maxHeartbeats 1000000 in
/-- The body on whole staging buffers, the inputs' at `x0`, `x1`, `x2` and the output's at anything, ends with the
    inputs' unchanged and the output's at `out3_3 x0 x1 x2`. -/
theorem sound_kernel3 (c : Dev nD) (E : Set ℕ) (i : grid3.Coords) (arg0 : Memref sig .tc .vmem S4x2000x64 .f32) (harg0 : arg0.IsWhole)
    (arg1 : Memref sig .tc .vmem S64x64 .f32) (harg1 : arg1.IsWhole) (arg2 : Memref sig .tc .vmem S64 .f32) (harg2 : arg2.IsWhole)
    (arg3 : Memref sig .tc .vmem S2000x64 .f32) (harg3 : arg3.IsWhole)
    (x0 : Vec F S4x2000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__linear_combine_kernel i arg0 harg0 arg1 harg1 arg2 harg2 arg3 harg3) K := by
  simp only [cc3__linear_combine_kernel_eq_skeleton]; unfold cc3__linear_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.RunKernelIdeal.Score.lean ====
/-
  The scoring region, at the contents `V` the core's buffers hold when the region is entered.

  The region has a single point. Its body reads the whole array of gathered user rows (8192 × 64) and the whole array
  of gathered item rows (8192 × 64), and stores over the whole output column (8192 × 1) the row-wise sums of their
  entrywise products. Stated here: what the output holds after the body, as the one store's value over the two arrays
  read; the body's triple; the pipeline's proof data (arrays as entered, the inputs' blocks kept, the output's block as
  computed, nothing kept between points, nothing owed); and the obligation the launch asks of the body at its point.
-/
import proofs.«430620_j47536698032634_3_alg».proof.Proof.Gen.KernelIdeal.Launch
import proofs.«430620_j47536698032634_3_alg».proof.Proof.Gen.KernelIdeal.Skeleton
import proofs.«430620_j47536698032634_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at the point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole 8192 × 64 array and the whole 8192 × 1 column, as rectangles. -/
abbrev r4_x : Rect S8192x64 := Rect.unit (s := S8192x64) ![0, 0] S8192x64.size inb_S8192x64_S8192x64_0_0
abbrev r4_o : Rect S8192x1 := Rect.unit (s := S8192x1) ![0, 0] S8192x1.size inb_S8192x1_S8192x1_0_0

/-- The output column after the body: its one store, of the row sums of the products of the two arrays read. -/
def out4_2 (x0 : Vec F S8192x64 .f32) (x1 : Vec F S8192x64 .f32) : Vec F S8192x1 .f32 :=
  View.canon [⟨r4_o, k4_pay1 (View.ld x0 r4_x) (View.ld x1 r4_x)⟩]

/-- The one store covers the column. -/
theorem cover4_2 (p0 : Vec F S8192x1 .f32) (y : S8192x1.Idx) :
    ∃ pc ∈ ([⟨r4_o, p0⟩] : List (View.Piece (Elt F) S8192x1 .f32)), y ∈ pc.1.set :=
  View.cover_of_tiled [⟨r4_o, p0⟩] S8192x1.size (by rfl) y

set_option maxHeartbeats 1000000 in
/-- The body on whole staging buffers, the inputs' at `x0`, `x1` and the output's at anything, ends with the inputs'
    unchanged and the output's at `out4_2 x0 x1`. -/
theorem sound_kernel4 (c : Dev nD) (E : Set ℕ) (i : grid4.Coords) (arg0 : Memref sig .tc .vmem S8192x64 .f32) (harg0 : arg0.IsWhole)
    (arg1 : Memref sig .tc .vmem S8192x64 .f32) (harg1 : arg1.IsWhole) (arg2 : Memref sig .tc .vmem S8192x1 .f32) (harg2 : arg2.IsWhole)
    (x0 : Vec F S8192x64 .f32) (x1 : Vec F S8192x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__score_kernel i arg0 harg0 arg1 harg1 arg2 harg2) K := by
  simp only [cc4__score_kernel_eq_skeleton]; unfold cc4__score_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at the point: the inputs' buffers hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at its point. -/
theorem body_obligation4 (c : Dev nD) : BodyObligation (dat4 (F := F) V c) (defs₀ (F := F)) Variants.none () Set.univ := fun t => by
  rw [bigSep_W4, bigSep_W4]
  exact sound_body4 V c t

end Cert.KernelIdeal.Run

end
-- ==== Proof.RunKernelIdeal.Fold.lean ====
/-
  The contents of the core's buffers at every boundary of the program: launch, then alternately after a stretch of host
  operations (the stretch's operations applied in order) and after a kernel region (the region's arrays at what its
  blocks' write-backs leave, every other buffer as it was). Every argument array comes through all of it unchanged: no host
  operation writes one, and a region only reads those it is handed.
-/
import proofs.«430620_j47536698032634_3_alg».proof.Proof.RunKernelIdeal.Edge0
import proofs.«430620_j47536698032634_3_alg».proof.Proof.RunKernelIdeal.Edge1
import proofs.«430620_j47536698032634_3_alg».proof.Proof.RunKernelIdeal.Edge2
import proofs.«430620_j47536698032634_3_alg».proof.Proof.RunKernelIdeal.Combine
import proofs.«430620_j47536698032634_3_alg».proof.Proof.RunKernelIdeal.Score
import proofs.«430620_j47536698032634_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m ((c : Dev nD), b)

/-- After host stretch 0 (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array is as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- After host stretch 1 (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- An input window's array is as entered. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-- After host stretch 2 (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- An input window's array is as entered. -/
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-- After host stretch 3 (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- An input window's array is as entered. -/
theorem W8_in (c : Dev nD) (w : Fin cfg3.W) (hin : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hin _).trans (A_eq3 (V7 m) c w))

/-- After host stretch 4 (region 4's entry). -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- After region 4: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- An input window's array is as entered. -/
theorem W10_in (c : Dev nD) (w : Fin cfg4.W) (hin : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hin _).trans (A_eq4 (V9 m) c w))

/-- After the last host stretch. -/
abbrev W11 : Dev nD → Valuation τ sig (Elt F) := fun c => StableHlo.after hostOps5 (W10 m c)

/-! ## What a host stretch does not write is as before it -/
theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h
theorem W9_keep (c : Dev nD) (r : Ref sig .tc) (h : r ∉ hostOps4_W) : W9 m c r = W8 m c r :=
  StableHlo.after_of_writes_sub hostOps4 _ hostOps4_writes h
theorem W11_keep (c : Dev nD) (r : Ref sig .tc) (h : r ∉ hostOps5_W) : W11 m c r = W10 m c r :=
  StableHlo.after_of_writes_sub hostOps5 _ hostOps5_writes h

/-! ## The arguments are as launched at every boundary -/
theorem W0_main_arg0 (c : Dev nD) : W0 m c main_arg0 = m ((c : Thread nD τ).loc main_arg0) := rfl
theorem W1_main_arg0 (c : Dev nD) : W1 m c main_arg0 = m ((c : Thread nD τ).loc main_arg0) := (W1_keep m c main_arg0 (by decide)).trans (W0_main_arg0 m c)
theorem W2_main_arg0 (c : Dev nD) : W2 m c main_arg0 = m ((c : Thread nD τ).loc main_arg0) := (W2_of_ne m c main_arg0 (by decide)).trans (W1_main_arg0 m c)
theorem W3_main_arg0 (c : Dev nD) : W3 m c main_arg0 = m ((c : Thread nD τ).loc main_arg0) := (W3_keep m c main_arg0 (by decide)).trans (W2_main_arg0 m c)
theorem W4_main_arg0 (c : Dev nD) : W4 m c main_arg0 = m ((c : Thread nD τ).loc main_arg0) := (W4_of_ne m c main_arg0 (by decide)).trans (W3_main_arg0 m c)
theorem W5_main_arg0 (c : Dev nD) : W5 m c main_arg0 = m ((c : Thread nD τ).loc main_arg0) := (W5_keep m c main_arg0 (by decide)).trans (W4_main_arg0 m c)
theorem W6_main_arg0 (c : Dev nD) : W6 m c main_arg0 = m ((c : Thread nD τ).loc main_arg0) := (W6_of_ne m c main_arg0 (by decide)).trans (W5_main_arg0 m c)
theorem W7_main_arg0 (c : Dev nD) : W7 m c main_arg0 = m ((c : Thread nD τ).loc main_arg0) := (W7_keep m c main_arg0 (by decide)).trans (W6_main_arg0 m c)
theorem W8_main_arg0 (c : Dev nD) : W8 m c main_arg0 = m ((c : Thread nD τ).loc main_arg0) := (W8_of_ne m c main_arg0 (by decide)).trans (W7_main_arg0 m c)
theorem W9_main_arg0 (c : Dev nD) : W9 m c main_arg0 = m ((c : Thread nD τ).loc main_arg0) := (W9_keep m c main_arg0 (by decide)).trans (W8_main_arg0 m c)
theorem W10_main_arg0 (c : Dev nD) : W10 m c main_arg0 = m ((c : Thread nD τ).loc main_arg0) := (W10_of_ne m c main_arg0 (by decide)).trans (W9_main_arg0 m c)
theorem W11_main_arg0 (c : Dev nD) : W11 m c main_arg0 = m ((c : Thread nD τ).loc main_arg0) := (W11_keep m c main_arg0 (by decide)).trans (W10_main_arg0 m c)
theorem W0_main_arg1 (c : Dev nD) : W0 m c main_arg1 = m ((c : Thread nD τ).loc main_arg1) := rfl
theorem W1_main_arg1 (c : Dev nD) : W1 m c main_arg1 = m ((c : Thread nD τ).loc main_arg1) := (W1_keep m c main_arg1 (by decide)).trans (W0_main_arg1 m c)
theorem W2_main_arg1 (c : Dev nD) : W2 m c main_arg1 = m ((c : Thread nD τ).loc main_arg1) := (W2_of_ne m c main_arg1 (by decide)).trans (W1_main_arg1 m c)
theorem W3_main_arg1 (c : Dev nD) : W3 m c main_arg1 = m ((c : Thread nD τ).loc main_arg1) := (W3_keep m c main_arg1 (by decide)).trans (W2_main_arg1 m c)
theorem W4_main_arg1 (c : Dev nD) : W4 m c main_arg1 = m ((c : Thread nD τ).loc main_arg1) := (W4_of_ne m c main_arg1 (by decide)).trans (W3_main_arg1 m c)
theorem W5_main_arg1 (c : Dev nD) : W5 m c main_arg1 = m ((c : Thread nD τ).loc main_arg1) := (W5_keep m c main_arg1 (by decide)).trans (W4_main_arg1 m c)
theorem W6_main_arg1 (c : Dev nD) : W6 m c main_arg1 = m ((c : Thread nD τ).loc main_arg1) := (W6_of_ne m c main_arg1 (by decide)).trans (W5_main_arg1 m c)
theorem W7_main_arg1 (c : Dev nD) : W7 m c main_arg1 = m ((c : Thread nD τ).loc main_arg1) := (W7_keep m c main_arg1 (by decide)).trans (W6_main_arg1 m c)
theorem W8_main_arg1 (c : Dev nD) : W8 m c main_arg1 = m ((c : Thread nD τ).loc main_arg1) := (W8_of_ne m c main_arg1 (by decide)).trans (W7_main_arg1 m c)
theorem W9_main_arg1 (c : Dev nD) : W9 m c main_arg1 = m ((c : Thread nD τ).loc main_arg1) := (W9_keep m c main_arg1 (by decide)).trans (W8_main_arg1 m c)
theorem W10_main_arg1 (c : Dev nD) : W10 m c main_arg1 = m ((c : Thread nD τ).loc main_arg1) := (W10_of_ne m c main_arg1 (by decide)).trans (W9_main_arg1 m c)
theorem W11_main_arg1 (c : Dev nD) : W11 m c main_arg1 = m ((c : Thread nD τ).loc main_arg1) := (W11_keep m c main_arg1 (by decide)).trans (W10_main_arg1 m c)
theorem W0_main_arg2 (c : Dev nD) : W0 m c main_arg2 = m ((c : Thread nD τ).loc main_arg2) := rfl
theorem W1_main_arg2 (c : Dev nD) : W1 m c main_arg2 = m ((c : Thread nD τ).loc main_arg2) := (W1_keep m c main_arg2 (by decide)).trans (W0_main_arg2 m c)
theorem W2_main_arg2 (c : Dev nD) : W2 m c main_arg2 = m ((c : Thread nD τ).loc main_arg2) := (W2_of_ne m c main_arg2 (by decide)).trans (W1_main_arg2 m c)
theorem W3_main_arg2 (c : Dev nD) : W3 m c main_arg2 = m ((c : Thread nD τ).loc main_arg2) := (W3_keep m c main_arg2 (by decide)).trans (W2_main_arg2 m c)
theorem W4_main_arg2 (c : Dev nD) : W4 m c main_arg2 = m ((c : Thread nD τ).loc main_arg2) := (W4_of_ne m c main_arg2 (by decide)).trans (W3_main_arg2 m c)
theorem W5_main_arg2 (c : Dev nD) : W5 m c main_arg2 = m ((c : Thread nD τ).loc main_arg2) := (W5_keep m c main_arg2 (by decide)).trans (W4_main_arg2 m c)
theorem W6_main_arg2 (c : Dev nD) : W6 m c main_arg2 = m ((c : Thread nD τ).loc main_arg2) := (W6_of_ne m c main_arg2 (by decide)).trans (W5_main_arg2 m c)
theorem W7_main_arg2 (c : Dev nD) : W7 m c main_arg2 = m ((c : Thread nD τ).loc main_arg2) := (W7_keep m c main_arg2 (by decide)).trans (W6_main_arg2 m c)
theorem W8_main_arg2 (c : Dev nD) : W8 m c main_arg2 = m ((c : Thread nD τ).loc main_arg2) := (W8_of_ne m c main_arg2 (by decide)).trans (W7_main_arg2 m c)
theorem W9_main_arg2 (c : Dev nD) : W9 m c main_arg2 = m ((c : Thread nD τ).loc main_arg2) := (W9_keep m c main_arg2 (by decide)).trans (W8_main_arg2 m c)
theorem W10_main_arg2 (c : Dev nD) : W10 m c main_arg2 = m ((c : Thread nD τ).loc main_arg2) := (W10_of_ne m c main_arg2 (by decide)).trans (W9_main_arg2 m c)
theorem W11_main_arg2 (c : Dev nD) : W11 m c main_arg2 = m ((c : Thread nD τ).loc main_arg2) := (W11_keep m c main_arg2 (by decide)).trans (W10_main_arg2 m c)
theorem W0_main_arg3 (c : Dev nD) : W0 m c main_arg3 = m ((c : Thread nD τ).loc main_arg3) := rfl
theorem W1_main_arg3 (c : Dev nD) : W1 m c main_arg3 = m ((c : Thread nD τ).loc main_arg3) := (W1_keep m c main_arg3 (by decide)).trans (W0_main_arg3 m c)
theorem W2_main_arg3 (c : Dev nD) : W2 m c main_arg3 = m ((c : Thread nD τ).loc main_arg3) := (W2_of_ne m c main_arg3 (by decide)).trans (W1_main_arg3 m c)
theorem W3_main_arg3 (c : Dev nD) : W3 m c main_arg3 = m ((c : Thread nD τ).loc main_arg3) := (W3_keep m c main_arg3 (by decide)).trans (W2_main_arg3 m c)
theorem W4_main_arg3 (c : Dev nD) : W4 m c main_arg3 = m ((c : Thread nD τ).loc main_arg3) := (W4_of_ne m c main_arg3 (by decide)).trans (W3_main_arg3 m c)
theorem W5_main_arg3 (c : Dev nD) : W5 m c main_arg3 = m ((c : Thread nD τ).loc main_arg3) := (W5_keep m c main_arg3 (by decide)).trans (W4_main_arg3 m c)
theorem W6_main_arg3 (c : Dev nD) : W6 m c main_arg3 = m ((c : Thread nD τ).loc main_arg3) := (W6_of_ne m c main_arg3 (by decide)).trans (W5_main_arg3 m c)
theorem W7_main_arg3 (c : Dev nD) : W7 m c main_arg3 = m ((c : Thread nD τ).loc main_arg3) := (W7_keep m c main_arg3 (by decide)).trans (W6_main_arg3 m c)
theorem W8_main_arg3 (c : Dev nD) : W8 m c main_arg3 = m ((c : Thread nD τ).loc main_arg3) := (W8_in m c 1 rfl).trans (W7_main_arg3 m c)
theorem W9_main_arg3 (c : Dev nD) : W9 m c main_arg3 = m ((c : Thread nD τ).loc main_arg3) := (W9_keep m c main_arg3 (by decide)).trans (W8_main_arg3 m c)
theorem W10_main_arg3 (c : Dev nD) : W10 m c main_arg3 = m ((c : Thread nD τ).loc main_arg3) := (W10_of_ne m c main_arg3 (by decide)).trans (W9_main_arg3 m c)
theorem W11_main_arg3 (c : Dev nD) : W11 m c main_arg3 = m ((c : Thread nD τ).loc main_arg3) := (W11_keep m c main_arg3 (by decide)).trans (W10_main_arg3 m c)
theorem W0_main_arg4 (c : Dev nD) : W0 m c main_arg4 = m ((c : Thread nD τ).loc main_arg4) := rfl
theorem W1_main_arg4 (c : Dev nD) : W1 m c main_arg4 = m ((c : Thread nD τ).loc main_arg4) := (W1_keep m c main_arg4 (by decide)).trans (W0_main_arg4 m c)
theorem W2_main_arg4 (c : Dev nD) : W2 m c main_arg4 = m ((c : Thread nD τ).loc main_arg4) := (W2_of_ne m c main_arg4 (by decide)).trans (W1_main_arg4 m c)
theorem W3_main_arg4 (c : Dev nD) : W3 m c main_arg4 = m ((c : Thread nD τ).loc main_arg4) := (W3_keep m c main_arg4 (by decide)).trans (W2_main_arg4 m c)
theorem W4_main_arg4 (c : Dev nD) : W4 m c main_arg4 = m ((c : Thread nD τ).loc main_arg4) := (W4_of_ne m c main_arg4 (by decide)).trans (W3_main_arg4 m c)
theorem W5_main_arg4 (c : Dev nD) : W5 m c main_arg4 = m ((c : Thread nD τ).loc main_arg4) := (W5_keep m c main_arg4 (by decide)).trans (W4_main_arg4 m c)
theorem W6_main_arg4 (c : Dev nD) : W6 m c main_arg4 = m ((c : Thread nD τ).loc main_arg4) := (W6_of_ne m c main_arg4 (by decide)).trans (W5_main_arg4 m c)
theorem W7_main_arg4 (c : Dev nD) : W7 m c main_arg4 = m ((c : Thread nD τ).loc main_arg4) := (W7_keep m c main_arg4 (by decide)).trans (W6_main_arg4 m c)
theorem W8_main_arg4 (c : Dev nD) : W8 m c main_arg4 = m ((c : Thread nD τ).loc main_arg4) := (W8_in m c 2 rfl).trans (W7_main_arg4 m c)
theorem W9_main_arg4 (c : Dev nD) : W9 m c main_arg4 = m ((c : Thread nD τ).loc main_arg4) := (W9_keep m c main_arg4 (by decide)).trans (W8_main_arg4 m c)
theorem W10_main_arg4 (c : Dev nD) : W10 m c main_arg4 = m ((c : Thread nD τ).loc main_arg4) := (W10_of_ne m c main_arg4 (by decide)).trans (W9_main_arg4 m c)
theorem W11_main_arg4 (c : Dev nD) : W11 m c main_arg4 = m ((c : Thread nD τ).loc main_arg4) := (W11_keep m c main_arg4 (by decide)).trans (W10_main_arg4 m c)
theorem W0_main_arg5 (c : Dev nD) : W0 m c main_arg5 = m ((c : Thread nD τ).loc main_arg5) := rfl
theorem W1_main_arg5 (c : Dev nD) : W1 m c main_arg5 = m ((c : Thread nD τ).loc main_arg5) := (W1_keep m c main_arg5 (by decide)).trans (W0_main_arg5 m c)
theorem W2_main_arg5 (c : Dev nD) : W2 m c main_arg5 = m ((c : Thread nD τ).loc main_arg5) := (W2_of_ne m c main_arg5 (by decide)).trans (W1_main_arg5 m c)
theorem W3_main_arg5 (c : Dev nD) : W3 m c main_arg5 = m ((c : Thread nD τ).loc main_arg5) := (W3_keep m c main_arg5 (by decide)).trans (W2_main_arg5 m c)
theorem W4_main_arg5 (c : Dev nD) : W4 m c main_arg5 = m ((c : Thread nD τ).loc main_arg5) := (W4_of_ne m c main_arg5 (by decide)).trans (W3_main_arg5 m c)
theorem W5_main_arg5 (c : Dev nD) : W5 m c main_arg5 = m ((c : Thread nD τ).loc main_arg5) := (W5_keep m c main_arg5 (by decide)).trans (W4_main_arg5 m c)
theorem W6_main_arg5 (c : Dev nD) : W6 m c main_arg5 = m ((c : Thread nD τ).loc main_arg5) := (W6_of_ne m c main_arg5 (by decide)).trans (W5_main_arg5 m c)
theorem W7_main_arg5 (c : Dev nD) : W7 m c main_arg5 = m ((c : Thread nD τ).loc main_arg5) := (W7_keep m c main_arg5 (by decide)).trans (W6_main_arg5 m c)
theorem W8_main_arg5 (c : Dev nD) : W8 m c main_arg5 = m ((c : Thread nD τ).loc main_arg5) := (W8_of_ne m c main_arg5 (by decide)).trans (W7_main_arg5 m c)
theorem W9_main_arg5 (c : Dev nD) : W9 m c main_arg5 = m ((c : Thread nD τ).loc main_arg5) := (W9_keep m c main_arg5 (by decide)).trans (W8_main_arg5 m c)
theorem W10_main_arg5 (c : Dev nD) : W10 m c main_arg5 = m ((c : Thread nD τ).loc main_arg5) := (W10_of_ne m c main_arg5 (by decide)).trans (W9_main_arg5 m c)
theorem W11_main_arg5 (c : Dev nD) : W11 m c main_arg5 = m ((c : Thread nD τ).loc main_arg5) := (W11_keep m c main_arg5 (by decide)).trans (W10_main_arg5 m c)
theorem W0_main_arg6 (c : Dev nD) : W0 m c main_arg6 = m ((c : Thread nD τ).loc main_arg6) := rfl
theorem W1_main_arg6 (c : Dev nD) : W1 m c main_arg6 = m ((c : Thread nD τ).loc main_arg6) := (W1_keep m c main_arg6 (by decide)).trans (W0_main_arg6 m c)
theorem W2_main_arg6 (c : Dev nD) : W2 m c main_arg6 = m ((c : Thread nD τ).loc main_arg6) := (W2_of_ne m c main_arg6 (by decide)).trans (W1_main_arg6 m c)
theorem W3_main_arg6 (c : Dev nD) : W3 m c main_arg6 = m ((c : Thread nD τ).loc main_arg6) := (W3_keep m c main_arg6 (by decide)).trans (W2_main_arg6 m c)
theorem W4_main_arg6 (c : Dev nD) : W4 m c main_arg6 = m ((c : Thread nD τ).loc main_arg6) := (W4_of_ne m c main_arg6 (by decide)).trans (W3_main_arg6 m c)
theorem W5_main_arg6 (c : Dev nD) : W5 m c main_arg6 = m ((c : Thread nD τ).loc main_arg6) := (W5_keep m c main_arg6 (by decide)).trans (W4_main_arg6 m c)
theorem W6_main_arg6 (c : Dev nD) : W6 m c main_arg6 = m ((c : Thread nD τ).loc main_arg6) := (W6_of_ne m c main_arg6 (by decide)).trans (W5_main_arg6 m c)
theorem W7_main_arg6 (c : Dev nD) : W7 m c main_arg6 = m ((c : Thread nD τ).loc main_arg6) := (W7_keep m c main_arg6 (by decide)).trans (W6_main_arg6 m c)
theorem W8_main_arg6 (c : Dev nD) : W8 m c main_arg6 = m ((c : Thread nD τ).loc main_arg6) := (W8_of_ne m c main_arg6 (by decide)).trans (W7_main_arg6 m c)
theorem W9_main_arg6 (c : Dev nD) : W9 m c main_arg6 = m ((c : Thread nD τ).loc main_arg6) := (W9_keep m c main_arg6 (by decide)).trans (W8_main_arg6 m c)
theorem W10_main_arg6 (c : Dev nD) : W10 m c main_arg6 = m ((c : Thread nD τ).loc main_arg6) := (W10_of_ne m c main_arg6 (by decide)).trans (W9_main_arg6 m c)
theorem W11_main_arg6 (c : Dev nD) : W11 m c main_arg6 = m ((c : Thread nD τ).loc main_arg6) := (W11_keep m c main_arg6 (by decide)).trans (W10_main_arg6 m c)
theorem W0_main_arg7 (c : Dev nD) : W0 m c main_arg7 = m ((c : Thread nD τ).loc main_arg7) := rfl
theorem W1_main_arg7 (c : Dev nD) : W1 m c main_arg7 = m ((c : Thread nD τ).loc main_arg7) := (W1_keep m c main_arg7 (by decide)).trans (W0_main_arg7 m c)
theorem W2_main_arg7 (c : Dev nD) : W2 m c main_arg7 = m ((c : Thread nD τ).loc main_arg7) := (W2_of_ne m c main_arg7 (by decide)).trans (W1_main_arg7 m c)
theorem W3_main_arg7 (c : Dev nD) : W3 m c main_arg7 = m ((c : Thread nD τ).loc main_arg7) := (W3_keep m c main_arg7 (by decide)).trans (W2_main_arg7 m c)
theorem W4_main_arg7 (c : Dev nD) : W4 m c main_arg7 = m ((c : Thread nD τ).loc main_arg7) := (W4_of_ne m c main_arg7 (by decide)).trans (W3_main_arg7 m c)
theorem W5_main_arg7 (c : Dev nD) : W5 m c main_arg7 = m ((c : Thread nD τ).loc main_arg7) := (W5_keep m c main_arg7 (by decide)).trans (W4_main_arg7 m c)
theorem W6_main_arg7 (c : Dev nD) : W6 m c main_arg7 = m ((c : Thread nD τ).loc main_arg7) := (W6_of_ne m c main_arg7 (by decide)).trans (W5_main_arg7 m c)
theorem W7_main_arg7 (c : Dev nD) : W7 m c main_arg7 = m ((c : Thread nD τ).loc main_arg7) := (W7_keep m c main_arg7 (by decide)).trans (W6_main_arg7 m c)
theorem W8_main_arg7 (c : Dev nD) : W8 m c main_arg7 = m ((c : Thread nD τ).loc main_arg7) := (W8_of_ne m c main_arg7 (by decide)).trans (W7_main_arg7 m c)
theorem W9_main_arg7 (c : Dev nD) : W9 m c main_arg7 = m ((c : Thread nD τ).loc main_arg7) := (W9_keep m c main_arg7 (by decide)).trans (W8_main_arg7 m c)
theorem W10_main_arg7 (c : Dev nD) : W10 m c main_arg7 = m ((c : Thread nD τ).loc main_arg7) := (W10_of_ne m c main_arg7 (by decide)).trans (W9_main_arg7 m c)
theorem W11_main_arg7 (c : Dev nD) : W11 m c main_arg7 = m ((c : Thread nD τ).loc main_arg7) := (W11_keep m c main_arg7 (by decide)).trans (W10_main_arg7 m c)
theorem W0_main_arg8 (c : Dev nD) : W0 m c main_arg8 = m ((c : Thread nD τ).loc main_arg8) := rfl
theorem W1_main_arg8 (c : Dev nD) : W1 m c main_arg8 = m ((c : Thread nD τ).loc main_arg8) := (W1_keep m c main_arg8 (by decide)).trans (W0_main_arg8 m c)
theorem W2_main_arg8 (c : Dev nD) : W2 m c main_arg8 = m ((c : Thread nD τ).loc main_arg8) := (W2_of_ne m c main_arg8 (by decide)).trans (W1_main_arg8 m c)
theorem W3_main_arg8 (c : Dev nD) : W3 m c main_arg8 = m ((c : Thread nD τ).loc main_arg8) := (W3_keep m c main_arg8 (by decide)).trans (W2_main_arg8 m c)
theorem W4_main_arg8 (c : Dev nD) : W4 m c main_arg8 = m ((c : Thread nD τ).loc main_arg8) := (W4_of_ne m c main_arg8 (by decide)).trans (W3_main_arg8 m c)
theorem W5_main_arg8 (c : Dev nD) : W5 m c main_arg8 = m ((c : Thread nD τ).loc main_arg8) := (W5_keep m c main_arg8 (by decide)).trans (W4_main_arg8 m c)
theorem W6_main_arg8 (c : Dev nD) : W6 m c main_arg8 = m ((c : Thread nD τ).loc main_arg8) := (W6_of_ne m c main_arg8 (by decide)).trans (W5_main_arg8 m c)
theorem W7_main_arg8 (c : Dev nD) : W7 m c main_arg8 = m ((c : Thread nD τ).loc main_arg8) := (W7_keep m c main_arg8 (by decide)).trans (W6_main_arg8 m c)
theorem W8_main_arg8 (c : Dev nD) : W8 m c main_arg8 = m ((c : Thread nD τ).loc main_arg8) := (W8_of_ne m c main_arg8 (by decide)).trans (W7_main_arg8 m c)
theorem W9_main_arg8 (c : Dev nD) : W9 m c main_arg8 = m ((c : Thread nD τ).loc main_arg8) := (W9_keep m c main_arg8 (by decide)).trans (W8_main_arg8 m c)
theorem W10_main_arg8 (c : Dev nD) : W10 m c main_arg8 = m ((c : Thread nD τ).loc main_arg8) := (W10_of_ne m c main_arg8 (by decide)).trans (W9_main_arg8 m c)
theorem W11_main_arg8 (c : Dev nD) : W11 m c main_arg8 = m ((c : Thread nD τ).loc main_arg8) := (W11_keep m c main_arg8 (by decide)).trans (W10_main_arg8 m c)

end Cert.KernelIdeal.Run

end
-- ==== Proof.RunKernelIdeal.Run.lean ====
/-
  The program's run. Its @main is eleven items: six stretches of host operations alternating with the five kernel regions.
  Each item is a segment over one thread state — every unscoped buffer of the core held whole at the boundary's contents,
  beside the generator register at some state and the core owing nothing — and the segments chain from the launch to the
  return. Every weakly fair execution then terminates, and in the final memory every unscoped buffer holds the last
  boundary's contents; in particular the arguments are as launched.
-/
import proofs.«430620_j47536698032634_3_alg».proof.Proof.RunKernelIdeal.Fold
import proofs.«430620_j47536698032634_3_alg».proof.Proof.LibRegion
import Idealize.ShloMosaic.Lib.Pipeline.Kit
import Idealize.ShloMosaic.Lib.Ring

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := Cert.LibRegion.R (nD := nD) (τ := τ) (sig := sig) (Val := Elt F) (U := UR sig nD τ) c
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W11 m c) ∗ ∃ r, prngReg c r)

set_option backward.isDefEq.respectTransparency.types false in
/-- Region 0 as a segment: entered with every unscoped buffer at `W1`, left with them at `W2`. Its arrays are distinct
    whole buffers, each window at the full share. -/
def reg0 : Pipeline.RegionSeg (pcfgs (F := F)) adm (pdats m) () defs₀ 𝒱₀ L lv 0 :=
  Cert.LibRegion.regionSegHeldA (pcfgs (F := F)) adm (pdats m) defs₀ 𝒱₀ L lv 0 launch0.win.to₀ launch0.block_pos launch0.stage_whole rfl
    (fun c => (body_obligation0 (V1 m) c).loose) (fun c => rfl) (fun c => rfl) (fun c t => rfl) (fun c => rfl)
    (W1 m) (W2 m)
    (fun c => Cert.LibRegion.arrBufs_split_distinct cfg0 c (pdats m 0 c) launch0.win.arr_inj launch0.arr_whole
      ((pdats m 0 c).share_full fun _ => rfl) (fun b => W1 m c b) _ (fun _ => rfl))
    (fun c => Cert.LibRegion.arrBufs_join_distinct cfg0 c (pdats m 0 c) launch0.win.arr_inj launch0.arr_whole
      ((pdats m 0 c).share_full fun _ => rfl) (fun b => W2 m c b) _ (hF0 m c))
    (hrest0 m)

set_option backward.isDefEq.respectTransparency.types false in
/-- Region 1 as a segment: entered with every unscoped buffer at `W3`, left with them at `W4`. Its arrays are distinct
    whole buffers, each window at the full share. -/
def reg1 : Pipeline.RegionSeg (pcfgs (F := F)) adm (pdats m) () defs₀ 𝒱₀ L lv 1 :=
  Cert.LibRegion.regionSegHeldA (pcfgs (F := F)) adm (pdats m) defs₀ 𝒱₀ L lv 1 launch1.win.to₀ launch1.block_pos launch1.stage_whole rfl
    (fun c => (body_obligation1 (V3 m) c).loose) (fun c => rfl) (fun c => rfl) (fun c t => rfl) (fun c => rfl)
    (W3 m) (W4 m)
    (fun c => Cert.LibRegion.arrBufs_split_distinct cfg1 c (pdats m 1 c) launch1.win.arr_inj launch1.arr_whole
      ((pdats m 1 c).share_full fun _ => rfl) (fun b => W3 m c b) _ (fun _ => rfl))
    (fun c => Cert.LibRegion.arrBufs_join_distinct cfg1 c (pdats m 1 c) launch1.win.arr_inj launch1.arr_whole
      ((pdats m 1 c).share_full fun _ => rfl) (fun b => W4 m c b) _ (hF1 m c))
    (hrest1 m)

set_option backward.isDefEq.respectTransparency.types false in
/-- Region 2 as a segment: entered with every unscoped buffer at `W5`, left with them at `W6`. Its arrays are distinct
    whole buffers, each window at the full share. -/
def reg2 : Pipeline.RegionSeg (pcfgs (F := F)) adm (pdats m) () defs₀ 𝒱₀ L lv 2 :=
  Cert.LibRegion.regionSegHeldA (pcfgs (F := F)) adm (pdats m) defs₀ 𝒱₀ L lv 2 launch2.win.to₀ launch2.block_pos launch2.stage_whole rfl
    (fun c => (body_obligation2 (V5 m) c).loose) (fun c => rfl) (fun c => rfl) (fun c t => rfl) (fun c => rfl)
    (W5 m) (W6 m)
    (fun c => Cert.LibRegion.arrBufs_split_distinct cfg2 c (pdats m 2 c) launch2.win.arr_inj launch2.arr_whole
      ((pdats m 2 c).share_full fun _ => rfl) (fun b => W5 m c b) _ (fun _ => rfl))
    (fun c => Cert.LibRegion.arrBufs_join_distinct cfg2 c (pdats m 2 c) launch2.win.arr_inj launch2.arr_whole
      ((pdats m 2 c).share_full fun _ => rfl) (fun b => W6 m c b) _ (hF2 m c))
    (hrest2 m)

set_option backward.isDefEq.respectTransparency.types false in
/-- Region 3 as a segment: entered with every unscoped buffer at `W7`, left with them at `W8`. Its arrays are distinct
    whole buffers, each window at the full share. -/
def reg3 : Pipeline.RegionSeg (pcfgs (F := F)) adm (pdats m) () defs₀ 𝒱₀ L lv 3 :=
  Cert.LibRegion.regionSegHeldA (pcfgs (F := F)) adm (pdats m) defs₀ 𝒱₀ L lv 3 launch3.win.to₀ launch3.block_pos launch3.stage_whole rfl
    (fun c => (body_obligation3 (V7 m) c).loose) (fun c => rfl) (fun c => rfl) (fun c t => rfl) (fun c => rfl)
    (W7 m) (W8 m)
    (fun c => Cert.LibRegion.arrBufs_split_distinct cfg3 c (pdats m 3 c) launch3.win.arr_inj launch3.arr_whole
      ((pdats m 3 c).share_full fun _ => rfl) (fun b => W7 m c b) _ (fun _ => rfl))
    (fun c => Cert.LibRegion.arrBufs_join_distinct cfg3 c (pdats m 3 c) launch3.win.arr_inj launch3.arr_whole
      ((pdats m 3 c).share_full fun _ => rfl) (fun b => W8 m c b) _ (hF3 m c))
    (hrest3 m)

set_option backward.isDefEq.respectTransparency.types false in
/-- Region 4 as a segment: entered with every unscoped buffer at `W9`, left with them at `W10`. Its arrays are distinct
    whole buffers, each window at the full share. -/
def reg4 : Pipeline.RegionSeg (pcfgs (F := F)) adm (pdats m) () defs₀ 𝒱₀ L lv 4 :=
  Cert.LibRegion.regionSegHeldA (pcfgs (F := F)) adm (pdats m) defs₀ 𝒱₀ L lv 4 launch4.win.to₀ launch4.block_pos launch4.stage_whole rfl
    (fun c => (body_obligation4 (V9 m) c).loose) (fun c => rfl) (fun c => rfl) (fun c t => rfl) (fun c => rfl)
    (W9 m) (W10 m)
    (fun c => Cert.LibRegion.arrBufs_split_distinct cfg4 c (pdats m 4 c) launch4.win.arr_inj launch4.arr_whole
      ((pdats m 4 c).share_full fun _ => rfl) (fun b => W9 m c b) _ (fun _ => rfl))
    (fun c => Cert.LibRegion.arrBufs_join_distinct cfg4 c (pdats m 4 c) launch4.win.arr_inj launch4.arr_whole
      ((pdats m 4 c).share_full fun _ => rfl) (fun b => W10 m c b) _ (hF4 m c))
    (hrest4 m)

/-- @main's eleven segments in order. -/
abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m),
    .host (hseg hostOps5 hostOps5_sub hostOps5_fresh (W10 m)) ]

/-- @main is the run of the segments. -/
theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of @main terminates, nothing faulting, and in
    the final memory every unscoped buffer of every core holds the last boundary's contents. -/
theorem run (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W11 m c) ∗ ∃ r, prngReg c r)
            ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c b hb => h c _ (mem_uc b hb))

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_arg0 (by decide)).trans (W11_main_arg0 m c), (h c main_arg1 (by decide)).trans (W11_main_arg1 m c),
     (h c main_arg2 (by decide)).trans (W11_main_arg2 m c), (h c main_arg3 (by decide)).trans (W11_main_arg3 m c),
     (h c main_arg4 (by decide)).trans (W11_main_arg4 m c), (h c main_arg5 (by decide)).trans (W11_main_arg5 m c),
     (h c main_arg6 (by decide)).trans (W11_main_arg6 m c), (h c main_arg7 (by decide)).trans (W11_main_arg7 m c),
     (h c main_arg8 (by decide)).trans (W11_main_arg8 m c)⟩) (run m ρ)

/-- The run with the result buffer named: it ends at the last boundary's contents, beside the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v62) = W11 m c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c main_v62 (by decide),
     (h c main_arg0 (by decide)).trans (W11_main_arg0 m c), (h c main_arg1 (by decide)).trans (W11_main_arg1 m c),
     (h c main_arg2 (by decide)).trans (W11_main_arg2 m c), (h c main_arg3 (by decide)).trans (W11_main_arg3 m c),
     (h c main_arg4 (by decide)).trans (W11_main_arg4 m c), (h c main_arg5 (by decide)).trans (W11_main_arg5 m c),
     (h c main_arg6 (by decide)).trans (W11_main_arg6 m c), (h c main_arg7 (by decide)).trans (W11_main_arg7 m c),
     (h c main_arg8 (by decide)).trans (W11_main_arg8 m c)⟩) (run m ρ)

end Cert.KernelIdeal.Run

end
-- ==== Proof.Spec.lean ====
/-
  What the program computes, as functions of arrays over the extended reals, with no program imported.

  A graph propagation: node features E (150000 rows: 100000 users, then 50000 items; 64 columns) are sent along
  3200000 weighted edges — the message of edge e is row src(e) of E scaled by the edge's weight, and the new
  features of a node are the sum of the messages whose edge ends there (`layer`). Three layers are applied; the item
  rows of the four feature arrays are averaged and sent through one affine map (`combineI`), and the score of a
  (user, item) query is the inner product of the user's row and the transformed item's row (`score`).
-/
import Idealize.ShloMosaic.PureOps.Ideal
import Idealize.ShloMosaic.PureOps.Contract
import Idealize.ShloMosaic.Lib.ValueIdx

noncomputable section

open scoped BigOperators

namespace Cert.Spec

open Idealize.ShloMosaic Idealize.ShloMosaic.ValueIdx

/-- users × features, items × features, nodes × features. -/
abbrev SU : Shape := ⟨2, ![100000, 64]⟩
abbrev SI : Shape := ⟨2, ![50000, 64]⟩
abbrev SN : Shape := ⟨2, ![150000, 64]⟩
/-- edges; edges as a column; edges × features. -/
abbrev SE : Shape := ⟨1, ![3200000]⟩
abbrev SE1 : Shape := ⟨2, ![3200000, 1]⟩
abbrev SM : Shape := ⟨2, ![3200000, 64]⟩
/-- the affine map's matrix and offset. -/
abbrev SW : Shape := ⟨2, ![64, 64]⟩
abbrev SB : Shape := ⟨1, ![64]⟩
/-- queries; queries as a column; queries × features. -/
abbrev SQ : Shape := ⟨1, ![8192]⟩
abbrev SQ1 : Shape := ⟨2, ![8192, 1]⟩
abbrev SQ64 : Shape := ⟨2, ![8192, 64]⟩
/-- the four layers' item rows stacked. -/
abbrev SS : Shape := ⟨3, ![4, 50000, 64]⟩

/-- The f32 zero and the f32 four, as extended reals. -/
def zero32 : EReal := Ideal.ofBits .f32 0x00000000#32
def four32 : EReal := Ideal.ofBits .f32 0x40800000#32

/-- An array every entry of which is a real number. -/
def RealArr {s : Shape} (x : s.Idx → EReal) : Prop := ∀ i, ∃ r : ℝ, x i = (r : EReal)

/-- The edges' messages: row e of the gathered source features times edge e's weight (a column). -/
def edgeScale (x : SM.Idx → EReal) (v : SE1.Idx → EReal) : SM.Idx → EReal :=
  fun y => x y * v (ix2 (y 0) (0 : Fin 1))

/-- A vector over the edges as a column. -/
def col (val : SE.Idx → EReal) : SE1.Idx → EReal := fun y => val (ix1 (y 0))

/-- One propagation step: gather the source rows, scale each by its edge's weight, add each message into the row
    its edge ends at, starting from zero. -/
def layer (gS : GatherDims SN SE1 SM) (sc : ScatterDims SN SE1 SM) (sidx didx : IVec SE1 32) (val : SE.Idx → EReal)
    (E : SN.Idx → EReal) : SN.Idx → EReal :=
  Host.scatterAdd (F := Ideal) (φ := .f32) sc (fun _ => zero32) didx (edgeScale (Host.gather gS E sidx) (col val))

/-- The feature arrays after 0, 1, 2, 3 steps. -/
def layers (gS : GatherDims SN SE1 SM) (sc : ScatterDims SN SE1 SM) (sidx didx : IVec SE1 32) (val : SE.Idx → EReal)
    (E0 : SN.Idx → EReal) : Fin 4 → SN.Idx → EReal
  | 0 => E0
  | 1 => layer gS sc sidx didx val E0
  | 2 => layer gS sc sidx didx val (layer gS sc sidx didx val E0)
  | 3 => layer gS sc sidx didx val (layer gS sc sidx didx val (layer gS sc sidx didx val E0))

/-- The item rows of a node array: rows 100000 … 149999. -/
def items (E : SN.Idx → EReal) : SI.Idx → EReal :=
  fun y => E (ix2 (⟨(y 0).val + 100000, by have := (y 0).isLt; simp only [Matrix.cons_val_zero] at this; omega⟩ : Fin 150000) (y 1))

/-- The mean of four item arrays sent through the affine map x ↦ x · Wᵀ + b: entry (i, j) is
    Σ_k (Σ_l I_l[i, k]) / 4 · W[j, k]  +  b[j]. -/
def combineI (I : Fin 4 → SI.Idx → EReal) (W : SW.Idx → EReal) (b : SB.Idx → EReal) : SI.Idx → EReal :=
  fun y => (∑ k : Fin 64, Ideal.div (∑ l : Fin 4, I l (ix2 (y 0) k)) four32 * W (ix2 (y 1) k)) + b (ix1 (y 1))

/-- The same over the four arrays stacked along a leading axis. -/
def combine (S : SS.Idx → EReal) (W : SW.Idx → EReal) (b : SB.Idx → EReal) : SI.Idx → EReal :=
  combineI (fun l y => S (ix3 l (y 0) (y 1))) W b

/-- Row-wise inner products, kept as a column. -/
def score (u a : SQ64.Idx → EReal) : SQ1.Idx → EReal :=
  fun y => ∑ k : Fin 64, u (ix2 (y 0) k) * a (ix2 (y 0) k)

/-- The program's result from the feature array `E0` the propagation starts at (users' rows then items' rows), the
    users' features, the edge weights, the affine map, and the four index arrays as columns. -/
def result (gS : GatherDims SN SE1 SM) (sc : ScatterDims SN SE1 SM) (gU : GatherDims SU SQ1 SQ64) (gI : GatherDims SI SQ1 SQ64)
    (sidx didx : IVec SE1 32) (uidx iidx : IVec SQ1 32)
    (U : SU.Idx → EReal) (val : SE.Idx → EReal) (W : SW.Idx → EReal) (b : SB.Idx → EReal) (E0 : SN.Idx → EReal) : SQ.Idx → EReal :=
  fun y => score (Host.gather gU U uidx)
    (Host.gather gI (combineI (fun l => items (layers gS sc sidx didx val E0 l)) W b) iidx) (ix2 (y 0) (0 : Fin 1))

end Cert.Spec

end
-- ==== Proof.RunKernelIdeal.EdgeVal0.lean ====
/-
  What the first edge-scaling region leaves in its output array, at the extended reals: the messages of all 3200000
  edges, row e being row e of the gathered source rows times edge e's weight.

  Three steps. The body's product read at one entry of a block: entry (p, q) of the rows' block times entry (p, 0) of the
  weights' block (the column is spread over the 64 features). The block a point writes back is that point's block of the
  whole-array product, because the three windows move together: at point t each begins at row 6400·t. And every row r lies
  in the block of point r / 6400, so the blocks written back fill the array.
-/
import proofs.«430620_j47536698032634_3_alg».proof.Proof.RunKernelIdeal.Edge0
import proofs.«430620_j47536698032634_3_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-block rectangle, as a constant function. -/
theorem zero_off0 : (![0, 0] : Fin 2 → Nat) = fun _ => 0 := funext fun a => by fin_cases a <;> rfl

/-- A column of 6400 entries spread over 64 features reads, at (p, q), the column's entry p. -/
theorem spread0_apply (v : Vec Ideal S6400x1 .f32) (h : S6400x1.Broadcasts S6400x64) (p : Fin 6400) (q : Fin 64) :
    broadcastTo S6400x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's product at entry (p, q): the rows' block there times the weights' block at (p, 0). -/
theorem pay0_apply (x0 : Vec Ideal S6400x64 .f32) (x1 : Vec Ideal S6400x1 .f32) (p : Fin 6400) (q : Fin 64) :
    k0_pay1 x0 x1 (ix2 p q) = x0 (ix2 p q) * x1 (ix2 p (0 : Fin 1)) := by
  unfold k0_pay1
  simp only [shapeCast_self]
  rw [mulf_apply, spread0_apply]

/-- Where the three windows' blocks begin at point t, decided over the 500 points: block t on the rows' axis, block 0 on
    the other. -/
theorem starts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The gathered source rows and the edge weights (a column) as the region finds them, and the messages of all edges. -/
abbrev rows0 (c : Dev nD) : S3200000x64.Idx → EReal := V c main_v7
abbrev weights0 (c : Dev nD) : S3200000x1.Idx → EReal := V c main_v8
abbrev messages0 (c : Dev nD) : S3200000x64.Idx → EReal := Cert.Spec.edgeScale (rows0 V c) (weights0 V c)

/-- What point t writes back is block t of the messages. -/
theorem flushed0_eq (c : Dev nD) (t : Fin cfg0.N) :
    (dat0 V c).flushed 2 t = ((cfg0.win 2).blk t).view.read (Elt Ideal) (messages0 V c) := by
  show (cfg0.win 2).cut (grid0.coords t) ((dat0 V c).after 2 t) = _
  rw [after0_2]
  unfold out0_2
  rw [View.canon_unit_zero zero_off0]
  simp only [View.ld_unit_zero (S := S6400x64) zero_off0, View.ld_unit_zero (S := S6400x1) zero_off0]
  obtain ⟨e00, e01, e10, e11, e20, e21⟩ := starts0 t
  funext j
  obtain ⟨p, q, rfl⟩ : ∃ (p : Fin 6400) (q : Fin 64), j = ix2 p q := ⟨j 0, j 1, eq_ix2 j⟩
  refine (pay0_apply (iblk0 V c 0 t) (iblk0 V c 1 t) p q).trans ?_
  show rows0 V c (((cfg0.win 0).blk t).view.emb (ix2 p q)) * weights0 V c (((cfg0.win 1).blk t).view.emb (ix2 p (0 : Fin 1)))
    = rows0 V c (((cfg0.win 2).blk t).view.emb (ix2 p q)) * weights0 V c (ix2 ((((cfg0.win 2).blk t).view.emb (ix2 p q)) 0) (0 : Fin 1))
  have h0 : ((cfg0.win 0).blk t).view.emb (ix2 p q) = ((cfg0.win 2).blk t).view.emb (ix2 p q) := by
    funext a; apply Fin.ext
    match a with
    | ⟨0, _⟩ => show win0_0.index t (0 : Fin 2) * 6400 + 1 * p.val = win0_2.index t (0 : Fin 2) * 6400 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1)) = ix2 ((((cfg0.win 2).blk t).view.emb (ix2 p q)) 0) (0 : Fin 1) := by
    funext a; apply Fin.ext
    match a with
    | ⟨0, _⟩ => show win0_1.index t (0 : Fin 2) * 6400 + 1 * p.val = win0_2.index t (0 : Fin 2) * 6400 + 1 * p.val; omega
    | ⟨1, _⟩ => show win0_1.index t (1 : Fin 2) * 1 + 1 * 0 = 0; omega
  rw [h0, h1]
  rfl

/-- An entry of the array is in point t's block when each coordinate is within the block's range on its axis. -/
theorem mem_block0 (t : Fin cfg0.N) (i : S3200000x64.Idx) :
    i ∈ ((cfg0.win 2).blk t).view.set ↔ ∀ a : Fin 2, win0_2.index t a * S6400x64.size a ≤ (i a).val ∧ (i a).val < win0_2.index t a * S6400x64.size a + S6400x64.size a := by
  show i ∈ ((View.whole main_v9).slice (win0_2.rect t)).set ↔ _
  rw [View.set_slice_whole, Rect.mem_set_unit]
  exact Iff.rfl

/-- Row r lies in the block of point r / 6400: the blocks written back fill the array. -/
theorem filled0 (i : S3200000x64.Idx) : ∃ t : Fin cfg0.N, (cfg0.win 2).flush t = true ∧ i ∈ ((cfg0.win 2).blk t).view.set := by
  have hi0 : (i 0).val < 3200000 := (i 0).isLt
  have hi1 : (i 1).val < 64 := (i 1).isLt
  have hN : cfg0.N = 500 := N_0
  let t : Fin cfg0.N := ⟨(i 0).val / 6400, by rw [hN]; omega⟩
  obtain ⟨_, _, _, _, e20, e21⟩ := starts0 t
  have ht : t.val = (i 0).val / 6400 := rfl
  refine ⟨t, flush0_2 t, ?_⟩
  rw [mem_block0]
  intro a
  match a with
  | ⟨0, _⟩ => show win0_2.index t (0 : Fin 2) * 6400 ≤ (i 0).val ∧ (i 0).val < win0_2.index t (0 : Fin 2) * 6400 + 6400; omega
  | ⟨1, _⟩ => show win0_2.index t (1 : Fin 2) * 64 ≤ (i 1).val ∧ (i 1).val < win0_2.index t (1 : Fin 2) * 64 + 64; omega

/-- The output array after the region: the messages of all edges. -/
theorem edge_final0 (c : Dev nD) :
    (dat0 V c).arrAt 2 cfg0.N = Cert.Spec.edgeScale (V c main_v7) (V c main_v8) :=
  (dat0 V c).arrAt_eq_of_cover 2 (messages0 V c) (fun t _ => flushed0_eq V c t) filled0

end Cert.KernelIdeal.Run

end
-- ==== Proof.RunKernelIdeal.EdgeVal1.lean ====
/-
  What the second edge-scaling region leaves in its output array, at the extended reals: the messages of all 3200000
  edges, row e being row e of the gathered source rows times edge e's weight.

  Three steps. The body's product read at one entry of a block: entry (p, q) of the rows' block times entry (p, 0) of the
  weights' block (the column is spread over the 64 features). The block a point writes back is that point's block of the
  whole-array product, because the three windows move together: at point t each begins at row 6400·t. And every row r lies
  in the block of point r / 6400, so the blocks written back fill the array.
-/
import proofs.«430620_j47536698032634_3_alg».proof.Proof.RunKernelIdeal.Edge1
import proofs.«430620_j47536698032634_3_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-block rectangle, as a constant function. -/
theorem zero_off1 : (![0, 0] : Fin 2 → Nat) = fun _ => 0 := funext fun a => by fin_cases a <;> rfl

/-- A column of 6400 entries spread over 64 features reads, at (p, q), the column's entry p. -/
theorem spread1_apply (v : Vec Ideal S6400x1 .f32) (h : S6400x1.Broadcasts S6400x64) (p : Fin 6400) (q : Fin 64) :
    broadcastTo S6400x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's product at entry (p, q): the rows' block there times the weights' block at (p, 0). -/
theorem pay1_apply (x0 : Vec Ideal S6400x64 .f32) (x1 : Vec Ideal S6400x1 .f32) (p : Fin 6400) (q : Fin 64) :
    k1_pay1 x0 x1 (ix2 p q) = x0 (ix2 p q) * x1 (ix2 p (0 : Fin 1)) := by
  unfold k1_pay1
  simp only [shapeCast_self]
  rw [mulf_apply, spread1_apply]

/-- Where the three windows' blocks begin at point t, decided over the 500 points: block t on the rows' axis, block 0 on
    the other. -/
theorem starts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The gathered source rows and the edge weights (a column) as the region finds them, and the messages of all edges. -/
abbrev rows1 (c : Dev nD) : S3200000x64.Idx → EReal := V c main_v19
abbrev weights1 (c : Dev nD) : S3200000x1.Idx → EReal := V c main_v20
abbrev messages1 (c : Dev nD) : S3200000x64.Idx → EReal := Cert.Spec.edgeScale (rows1 V c) (weights1 V c)

/-- What point t writes back is block t of the messages. -/
theorem flushed1_eq (c : Dev nD) (t : Fin cfg1.N) :
    (dat1 V c).flushed 2 t = ((cfg1.win 2).blk t).view.read (Elt Ideal) (messages1 V c) := by
  show (cfg1.win 2).cut (grid1.coords t) ((dat1 V c).after 2 t) = _
  rw [after1_2]
  unfold out1_2
  rw [View.canon_unit_zero zero_off1]
  simp only [View.ld_unit_zero (S := S6400x64) zero_off1, View.ld_unit_zero (S := S6400x1) zero_off1]
  obtain ⟨e00, e01, e10, e11, e20, e21⟩ := starts1 t
  funext j
  obtain ⟨p, q, rfl⟩ : ∃ (p : Fin 6400) (q : Fin 64), j = ix2 p q := ⟨j 0, j 1, eq_ix2 j⟩
  refine (pay1_apply (iblk1 V c 0 t) (iblk1 V c 1 t) p q).trans ?_
  show rows1 V c (((cfg1.win 0).blk t).view.emb (ix2 p q)) * weights1 V c (((cfg1.win 1).blk t).view.emb (ix2 p (0 : Fin 1)))
    = rows1 V c (((cfg1.win 2).blk t).view.emb (ix2 p q)) * weights1 V c (ix2 ((((cfg1.win 2).blk t).view.emb (ix2 p q)) 0) (0 : Fin 1))
  have h0 : ((cfg1.win 0).blk t).view.emb (ix2 p q) = ((cfg1.win 2).blk t).view.emb (ix2 p q) := by
    funext a; apply Fin.ext
    match a with
    | ⟨0, _⟩ => show win1_0.index t (0 : Fin 2) * 6400 + 1 * p.val = win1_2.index t (0 : Fin 2) * 6400 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 6400 + 1 * p.val = win1_2.index t (0 : Fin 2) * 6400 + 1 * p.val; omega
    | ⟨1, _⟩ => show win1_1.index t (1 : Fin 2) * 1 + 1 * 0 = 0; omega
  rw [h0, h1]
  rfl

/-- An entry of the array is in point t's block when each coordinate is within the block's range on its axis. -/
theorem mem_block1 (t : Fin cfg1.N) (i : S3200000x64.Idx) :
    i ∈ ((cfg1.win 2).blk t).view.set ↔ ∀ a : Fin 2, win1_2.index t a * S6400x64.size a ≤ (i a).val ∧ (i a).val < win1_2.index t a * S6400x64.size a + S6400x64.size a := by
  show i ∈ ((View.whole main_v21).slice (win1_2.rect t)).set ↔ _
  rw [View.set_slice_whole, Rect.mem_set_unit]
  exact Iff.rfl

/-- Row r lies in the block of point r / 6400: the blocks written back fill the array. -/
theorem filled1 (i : S3200000x64.Idx) : ∃ t : Fin cfg1.N, (cfg1.win 2).flush t = true ∧ i ∈ ((cfg1.win 2).blk t).view.set := by
  have hi0 : (i 0).val < 3200000 := (i 0).isLt
  have hi1 : (i 1).val < 64 := (i 1).isLt
  have hN : cfg1.N = 500 := N_1
  let t : Fin cfg1.N := ⟨(i 0).val / 6400, by rw [hN]; omega⟩
  obtain ⟨_, _, _, _, e20, e21⟩ := starts1 t
  have ht : t.val = (i 0).val / 6400 := rfl
  refine ⟨t, flush1_2 t, ?_⟩
  rw [mem_block1]
  intro a
  match a with
  | ⟨0, _⟩ => show win1_2.index t (0 : Fin 2) * 6400 ≤ (i 0).val ∧ (i 0).val < win1_2.index t (0 : Fin 2) * 6400 + 6400; omega
  | ⟨1, _⟩ => show win1_2.index t (1 : Fin 2) * 64 ≤ (i 1).val ∧ (i 1).val < win1_2.index t (1 : Fin 2) * 64 + 64; omega

/-- The output array after the region: the messages of all edges. -/
theorem edge_final1 (c : Dev nD) :
    (dat1 V c).arrAt 2 cfg1.N = Cert.Spec.edgeScale (V c main_v19) (V c main_v20) :=
  (dat1 V c).arrAt_eq_of_cover 2 (messages1 V c) (fun t _ => flushed1_eq V c t) filled1

end Cert.KernelIdeal.Run

end
-- ==== Proof.RunKernelIdeal.EdgeVal2.lean ====
/-
  What the third edge-scaling region leaves in its output array, at the extended reals: the messages of all 3200000
  edges, row e being row e of the gathered source rows times edge e's weight.

  Three steps. The body's product read at one entry of a block: entry (p, q) of the rows' block times entry (p, 0) of the
  weights' block (the column is spread over the 64 features). The block a point writes back is that point's block of the
  whole-array product, because the three windows move together: at point t each begins at row 6400·t. And every row r lies
  in the block of point r / 6400, so the blocks written back fill the array.
-/
import proofs.«430620_j47536698032634_3_alg».proof.Proof.RunKernelIdeal.Edge2
import proofs.«430620_j47536698032634_3_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-block rectangle, as a constant function. -/
theorem zero_off2 : (![0, 0] : Fin 2 → Nat) = fun _ => 0 := funext fun a => by fin_cases a <;> rfl

/-- A column of 6400 entries spread over 64 features reads, at (p, q), the column's entry p. -/
theorem spread2_apply (v : Vec Ideal S6400x1 .f32) (h : S6400x1.Broadcasts S6400x64) (p : Fin 6400) (q : Fin 64) :
    broadcastTo S6400x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's product at entry (p, q): the rows' block there times the weights' block at (p, 0). -/
theorem pay2_apply (x0 : Vec Ideal S6400x64 .f32) (x1 : Vec Ideal S6400x1 .f32) (p : Fin 6400) (q : Fin 64) :
    k2_pay1 x0 x1 (ix2 p q) = x0 (ix2 p q) * x1 (ix2 p (0 : Fin 1)) := by
  unfold k2_pay1
  simp only [shapeCast_self]
  rw [mulf_apply, spread2_apply]

/-- Where the three windows' blocks begin at point t, decided over the 500 points: block t on the rows' axis, block 0 on
    the other. -/
theorem starts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The gathered source rows and the edge weights (a column) as the region finds them, and the messages of all edges. -/
abbrev rows2 (c : Dev nD) : S3200000x64.Idx → EReal := V c main_v31
abbrev weights2 (c : Dev nD) : S3200000x1.Idx → EReal := V c main_v32
abbrev messages2 (c : Dev nD) : S3200000x64.Idx → EReal := Cert.Spec.edgeScale (rows2 V c) (weights2 V c)

/-- What point t writes back is block t of the messages. -/
theorem flushed2_eq (c : Dev nD) (t : Fin cfg2.N) :
    (dat2 V c).flushed 2 t = ((cfg2.win 2).blk t).view.read (Elt Ideal) (messages2 V c) := by
  show (cfg2.win 2).cut (grid2.coords t) ((dat2 V c).after 2 t) = _
  rw [after2_2]
  unfold out2_2
  rw [View.canon_unit_zero zero_off2]
  simp only [View.ld_unit_zero (S := S6400x64) zero_off2, View.ld_unit_zero (S := S6400x1) zero_off2]
  obtain ⟨e00, e01, e10, e11, e20, e21⟩ := starts2 t
  funext j
  obtain ⟨p, q, rfl⟩ : ∃ (p : Fin 6400) (q : Fin 64), j = ix2 p q := ⟨j 0, j 1, eq_ix2 j⟩
  refine (pay2_apply (iblk2 V c 0 t) (iblk2 V c 1 t) p q).trans ?_
  show rows2 V c (((cfg2.win 0).blk t).view.emb (ix2 p q)) * weights2 V c (((cfg2.win 1).blk t).view.emb (ix2 p (0 : Fin 1)))
    = rows2 V c (((cfg2.win 2).blk t).view.emb (ix2 p q)) * weights2 V c (ix2 ((((cfg2.win 2).blk t).view.emb (ix2 p q)) 0) (0 : Fin 1))
  have h0 : ((cfg2.win 0).blk t).view.emb (ix2 p q) = ((cfg2.win 2).blk t).view.emb (ix2 p q) := by
    funext a; apply Fin.ext
    match a with
    | ⟨0, _⟩ => show win2_0.index t (0 : Fin 2) * 6400 + 1 * p.val = win2_2.index t (0 : Fin 2) * 6400 + 1 * p.val; omega
    | ⟨1, _⟩ => show win2_0.index t (1 : Fin 2) * 64 + 1 * q.val = win2_2.index t (1 : Fin 2) * 64 + 1 * q.val; omega
  have h1 : ((cfg2.win 1).blk t).view.emb (ix2 p (0 : Fin 1)) = ix2 ((((cfg2.win 2).blk t).view.emb (ix2 p q)) 0) (0 : Fin 1) := by
    funext a; apply Fin.ext
    match a with
    | ⟨0, _⟩ => show win2_1.index t (0 : Fin 2) * 6400 + 1 * p.val = win2_2.index t (0 : Fin 2) * 6400 + 1 * p.val; omega
    | ⟨1, _⟩ => show win2_1.index t (1 : Fin 2) * 1 + 1 * 0 = 0; omega
  rw [h0, h1]
  rfl

/-- An entry of the array is in point t's block when each coordinate is within the block's range on its axis. -/
theorem mem_block2 (t : Fin cfg2.N) (i : S3200000x64.Idx) :
    i ∈ ((cfg2.win 2).blk t).view.set ↔ ∀ a : Fin 2, win2_2.index t a * S6400x64.size a ≤ (i a).val ∧ (i a).val < win2_2.index t a * S6400x64.size a + S6400x64.size a := by
  show i ∈ ((View.whole main_v33).slice (win2_2.rect t)).set ↔ _
  rw [View.set_slice_whole, Rect.mem_set_unit]
  exact Iff.rfl

/-- Row r lies in the block of point r / 6400: the blocks written back fill the array. -/
theorem filled2 (i : S3200000x64.Idx) : ∃ t : Fin cfg2.N, (cfg2.win 2).flush t = true ∧ i ∈ ((cfg2.win 2).blk t).view.set := by
  have hi0 : (i 0).val < 3200000 := (i 0).isLt
  have hi1 : (i 1).val < 64 := (i 1).isLt
  have hN : cfg2.N = 500 := N_2
  let t : Fin cfg2.N := ⟨(i 0).val / 6400, by rw [hN]; omega⟩
  obtain ⟨_, _, _, _, e20, e21⟩ := starts2 t
  have ht : t.val = (i 0).val / 6400 := rfl
  refine ⟨t, flush2_2 t, ?_⟩
  rw [mem_block2]
  intro a
  match a with
  | ⟨0, _⟩ => show win2_2.index t (0 : Fin 2) * 6400 ≤ (i 0).val ∧ (i 0).val < win2_2.index t (0 : Fin 2) * 6400 + 6400; omega
  | ⟨1, _⟩ => show win2_2.index t (1 : Fin 2) * 64 ≤ (i 1).val ∧ (i 1).val < win2_2.index t (1 : Fin 2) * 64 + 64; omega

/-- The output array after the region: the messages of all edges. -/
theorem edge_final2 (c : Dev nD) :
    (dat2 V c).arrAt 2 cfg2.N = Cert.Spec.edgeScale (V c main_v31) (V c main_v32) :=
  (dat2 V c).arrAt_eq_of_cover 2 (messages2 V c) (fun t _ => flushed2_eq V c t) filled2

end Cert.KernelIdeal.Run

end
-- ==== Proof.RunKernelIdeal.CombineVal.lean ====
/-
  What the linear-combine region leaves in its output array, at the extended reals.

  At an index (p, q) of a 2000 × 64 block the body's value is  Σ_k (Σ_l x[l, p, k]) / 4 · W[q, k] + b[q]:  the sum over
  the leading axis of the stacked block, divided by four, contracted with the matrix transposed, plus the offset's
  row repeated down the block. The block of the stacked array at point t is rows 2000·t … 2000·t + 1999 of every
  leading index, the matrix and the offset are whole, and the output block is rows 2000·t … of the output array: so
  what point t writes back is block t of ONE function of the three arrays, the specification's `combine`. Row r of
  the output is in the block of point r / 2000, so the 25 blocks cover the array, and the array ends holding `combine`.
-/
import proofs.«430620_j47536698032634_3_alg».proof.Proof.RunKernelIdeal.Combine
import proofs.«430620_j47536698032634_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's value at an index of the block -/

/-- The product's operand indices: the left operand is read at (row, contracted), the right at (contracted, column). -/
theorem lhs3_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs3_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs3_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs3_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product into the zero accumulator, at an index: the sum over the one contracted axis. -/
theorem matmul3_apply (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ k : Fin 64, A (ix2 p k) * B (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-- The sum over the leading axis, at an index: the four stacked entries over that index added. -/
theorem sum4_apply (X : FVec Ideal S4x2000x64 .f32) (h : S4x2000x64.Reduces [0] S2000x64) (hφ : FKind.Formats .f32)
    (hacc : (0x00000000#32 : BitVec 32) = 0x00000000#32) (p : Fin 2000) (k : Fin 64) :
    multiReduction (F := Ideal) .add [0] S2000x64 X 0x00000000#32 h hφ hacc (ix2 p k) = ∑ l : Fin 4, X (ix3 l p k) := by
  refine (Ideal.multiReduction_add_single X 0x00000000#32 h hφ hacc (ix2 p k)).trans ?_
  refine Finset.sum_congr rfl fun l _ => congrArg X ?_
  funext c; apply Fin.ext
  match c with
  | ⟨0, _⟩ => rfl
  | ⟨1, _⟩ => rfl
  | ⟨2, _⟩ => rfl

/-- The body's value at (p, q): the mean over the leading axis, contracted with the matrix's row q, plus the offset at q. -/
theorem k3_pay1_apply (x0 : Vec Ideal S4x2000x64 .f32) (x1 : Vec Ideal S64x64 .f32) (x2 : Vec Ideal S64 .f32) (p : Fin 2000) (q : Fin 64) :
    k3_pay1 (F := Ideal) x0 x1 x2 (ix2 p q)
      = (∑ k : Fin 64, Ideal.div (∑ l : Fin 4, x0 (ix3 l p k)) Cert.Spec.four32 * x1 (ix2 q k)) + x2 (ix1 q) := by
  unfold k3_pay1
  rw [addf_apply, matmul3_apply, broadcastTo_1b_ab_apply, shapeCast_a_1a_apply]
  refine congrArg (· + x2 (ix1 q)) (Finset.sum_congr rfl fun k _ => ?_)
  rw [truncf_apply, divf_apply, broadcast_apply, transpose_ix2_apply, truncf_apply, sum4_apply, shapeCast_self]
  rfl

/-! ## From the blocks to the array -/

/-- A block of the three inputs that is rows r0 … r0 + 1999 of the stacked array, the whole matrix and the whole offset
    gives, at (p, q), the specification's value at row r0 + p. -/
theorem k3_pay1_eq_combine (S : Cert.Spec.SS.Idx → EReal) (W : Cert.Spec.SW.Idx → EReal) (b : Cert.Spec.SB.Idx → EReal)
    (x0 : Vec Ideal S4x2000x64 .f32) (x1 : Vec Ideal S64x64 .f32) (x2 : Vec Ideal S64 .f32)
    (p : Fin 2000) (q : Fin 64) (r : Fin 50000)
    (h0 : ∀ (l : Fin 4) (k : Fin 64), x0 (ix3 l p k) = S (ix3 l r k))
    (h1 : ∀ k : Fin 64, x1 (ix2 q k) = W (ix2 q k)) (h2 : x2 (ix1 q) = b (ix1 q)) :
    k3_pay1 (F := Ideal) x0 x1 x2 (ix2 p q) = Cert.Spec.combine S W b (ix2 r q) := by
  rw [k3_pay1_apply, h2]
  unfold Cert.Spec.combine Cert.Spec.combineI
  refine congrArg (· + b (ix1 q)) (Finset.sum_congr rfl fun k _ => ?_)
  rw [h1 k]
  refine congrArg (fun s => Ideal.div s Cert.Spec.four32 * W (ix2 q k)) (Finset.sum_congr rfl fun l _ => ?_)
  exact h0 l k

theorem hz3_3 : (![0, 0] : Fin 2 → Nat) = fun _ => 0 := funext fun a => by fin_cases a <;> rfl
theorem hz3_2 : (![0] : Fin 1 → Nat) = fun _ => 0 := funext fun a => by fin_cases a <;> rfl
theorem hz3_0 : (![0, 0, 0] : Fin 3 → Nat) = fun _ => 0 := funext fun a => by fin_cases a <;> rfl

/-- The block indices, decided over the 25 points: the stacked array's block moves along its rows with the output's,
    the matrix's and the offset's never move, and the output's is the point's number. -/
theorem idx_facts3 : ∀ t : Fin cfg3.N, win3_0.index t (0 : Fin 3) = 0
    ∧ win3_0.index t (1 : Fin 3) = win3_3.index t (0 : Fin 2)
    ∧ win3_0.index t (2 : Fin 3) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 ∧ t.val < 25 :=
  (by decide +kernel : ∀ t : Fin grid3.N, _)

variable (V : (c : Dev nD) → (b : Ref sig .tc) → Buf (Elt Ideal) ((c : Thread nD τ).loc b))

/-- What point `t` writes back is block `t` of the specification's function of the three arrays as the region finds them. -/
theorem flushed3_eq (c : Dev nD) (t : Fin cfg3.N) :
    (dat3 V c).flushed 3 t
      = ((cfg3.win 3).blk t).view.read (Elt Ideal) (Cert.Spec.combine (V c main_v45) (V c main_arg3) (V c main_arg4)) := by
  show (cfg3.win 3).cut (grid3.coords t) ((dat3 V c).after 3 t) = _
  rw [after3_3]
  unfold out3_3
  rw [View.canon_unit_zero hz3_3]
  simp only [View.ld_unit_zero (S := S4x2000x64) hz3_0, View.ld_unit_zero (S := S64x64) hz3_3, View.ld_unit_zero (S := S64) hz3_2]
  obtain ⟨e0, e1, e2, e3, e4, e5, e6, e7, e8⟩ := idx_facts3 t
  funext j
  obtain ⟨p, q, rfl⟩ : ∃ (p : Fin 2000) (q : Fin 64), j = ix2 p q := ⟨j 0, j 1, eq_ix2 j⟩
  have hp : p.val < 2000 := p.isLt
  have hq : q.val < 64 := q.isLt
  show k3_pay1 (F := Ideal) (iblk3 V c 0 t) (iblk3 V c 1 t) (iblk3 V c 2 t) (ix2 p q)
    = Cert.Spec.combine (V c main_v45) (V c main_arg3) (V c main_arg4) (((cfg3.win 3).blk t).view.emb (ix2 p q))
  have hemb : ((cfg3.win 3).blk t).view.emb (ix2 p q) = ix2 (⟨t.val * 2000 + p.val, by omega⟩ : Fin 50000) q := by
    funext a; apply Fin.ext
    match a with
    | ⟨0, _⟩ => show win3_3.index t (0 : Fin 2) * 2000 + 1 * p.val = t.val * 2000 + p.val; omega
    | ⟨1, _⟩ => show win3_3.index t (1 : Fin 2) * 64 + 1 * q.val = q.val; omega
  rw [hemb]
  refine k3_pay1_eq_combine _ _ _ _ _ _ p q _ (fun l k => ?_) (fun k => ?_) ?_
  · show V c main_v45 (((cfg3.win 0).blk t).view.emb (ix3 l p k)) = V c main_v45 (ix3 l (⟨t.val * 2000 + p.val, by omega⟩ : Fin 50000) k)
    refine congrArg (V c main_v45) ?_
    funext a; apply Fin.ext
    have hl : l.val < 4 := l.isLt
    have hk : k.val < 64 := k.isLt
    match a with
    | ⟨0, _⟩ => show win3_0.index t (0 : Fin 3) * 4 + 1 * l.val = l.val; omega
    | ⟨1, _⟩ => show win3_0.index t (1 : Fin 3) * 2000 + 1 * p.val = t.val * 2000 + p.val; omega
    | ⟨2, _⟩ => show win3_0.index t (2 : Fin 3) * 64 + 1 * k.val = k.val; omega
  · show V c main_arg3 (((cfg3.win 1).blk t).view.emb (ix2 q k)) = V c main_arg3 (ix2 q k)
    refine congrArg (V c main_arg3) ?_
    funext a; apply Fin.ext
    have hk : k.val < 64 := k.isLt
    match a with
    | ⟨0, _⟩ => show win3_1.index t (0 : Fin 2) * 64 + 1 * q.val = q.val; omega
    | ⟨1, _⟩ => show win3_1.index t (1 : Fin 2) * 64 + 1 * k.val = k.val; omega
  · show V c main_arg4 (((cfg3.win 2).blk t).view.emb (ix1 q)) = V c main_arg4 (ix1 q)
    refine congrArg (V c main_arg4) ?_
    funext a; apply Fin.ext
    match a with
    | ⟨0, _⟩ => show win3_2.index t (0 : Fin 1) * 64 + 1 * q.val = q.val; omega

/-- An index of the output array is in point `t`'s block iff each coordinate is in the block's range on its axis. -/
theorem mem_blk3 (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v46).slice (win3_3.rect t)).set ↔ _
  rw [View.set_slice_whole, Rect.mem_set_unit]
  exact Iff.rfl

/-- Every index of the output array is in some point's block: row r in the block of point r / 2000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 25 := N_3
  let t : Fin cfg3.N := ⟨(i 0).val / 2000, by show (i 0).val / 2000 < grid3.N; omega⟩
  obtain ⟨e0, e1, e2, e3, e4, e5, e6, e7, e8⟩ := idx_facts3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- The output array after the region: the specification's function of the stacked array, the matrix and the offset. -/
theorem combine_final (c : Dev nD) :
    (dat3 V c).arrAt 3 cfg3.N = Cert.Spec.combine (V c main_v45) (V c main_arg3) (V c main_arg4) :=
  (dat3 V c).arrAt_eq_of_cover 3 (Cert.Spec.combine (V c main_v45) (V c main_arg3) (V c main_arg4))
    (fun t _ => flushed3_eq V c t) cover3

end Cert.KernelIdeal.Run

end
-- ==== Proof.RunKernelIdeal.ScoreVal.lean ====
/-
  The scoring region's result as a function of the two arrays it reads, over the extended reals.

  The body's stored value at (r, 0) is the sum over the 64 columns k of (user row r)[k] · (item row r)[k]: the two
  same-shape casts are the identity, the product is entrywise, the sum runs along the columns, and the final cast of
  the length-8192 vector to a column keeps row r at (r, 0). The region has one point and each window's block there is
  its whole array (block index 0 on both axes), so what the point writes back is the specification's `score` of the
  two arrays as the region finds them, read through the output's one block; that block covers the output array, so
  the array ends holding `score` of the two arrays.
-/
import proofs.«430620_j47536698032634_3_alg».proof.Proof.RunKernelIdeal.Score
import proofs.«430620_j47536698032634_3_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The stored value at an index -/

/-- A vector over the rows cast to a column reads, at (r, z), the vector at r. -/
theorem cast_col_apply {a : ℕ} {α : Type} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- The sum along the columns of an 8192 × 64 array, at row r: the sum over k of its entry (r, k). -/
theorem rowsum_apply (src : FVec Ideal S8192x64 .f32) (h : S8192x64.Reduces [1] S8192) (hφ : FKind.Formats .f32)
    (hacc : (0x00000000#32 : BitVec 32) = 0x00000000#32) (r : Fin 8192) :
    multiReduction .add [1] S8192 src 0x00000000#32 h hφ hacc (ix1 r) = ∑ k : Fin 64, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

/-- The stored value at (r, z): the inner product of row r of the one array with row r of the other. -/
theorem pay4_apply (x0 x1 : Vec Ideal S8192x64 .f32) (r : Fin 8192) (z : Fin 1) :
    k4_pay1 x0 x1 (ix2 r z) = ∑ k : Fin 64, x0 (ix2 r k) * x1 (ix2 r k) := by
  unfold k4_pay1
  refine (cast_col_apply _ _ r z).trans ?_
  refine (rowsum_apply _ _ _ _ r).trans ?_
  simp only [shapeCast_self, mulf_apply]

/-- So the stored value is the specification's `score` of the two arrays read. -/
theorem pay4_eq_score (x0 x1 : Vec Ideal S8192x64 .f32) : k4_pay1 x0 x1 = Cert.Spec.score x0 x1 := by
  funext y
  obtain ⟨r, z, rfl⟩ : ∃ (r : Fin 8192) (z : Fin 1), y = ix2 r z := ⟨y 0, y 1, eq_ix2 y⟩
  exact pay4_apply x0 x1 r z

/-- Both offsets of a whole-array rectangle are zero. -/
theorem hz4 : (![0, 0] : Fin 2 → Nat) = fun _ => 0 :=
  funext fun a => match a with | ⟨0, _⟩ => rfl | ⟨1, _⟩ => rfl

/-- What the body leaves in the output's buffer: the one store covers it, and the two loads read whole buffers. -/
theorem out4_2_eq_score (x0 x1 : Vec Ideal S8192x64 .f32) : out4_2 x0 x1 = Cert.Spec.score x0 x1 := by
  unfold out4_2 r4_o r4_x
  rw [View.canon_unit_zero hz4]
  simp only [View.ld_unit_zero (S := S8192x64) hz4]
  exact pay4_eq_score x0 x1

/-! ## From the one block to the array -/

variable (V : (c : Dev nD) → (b : Ref sig .tc) → Buf (Elt Ideal) ((c : Thread nD τ).loc b))

/-- At the region's point every window's block index is 0 on both axes. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The block of gathered user rows is the whole array of them, -/
theorem iblk4_0_eq (c : Dev nD) (t : Fin cfg4.N) : iblk4 V c 0 t = V c main_v53 := by
  obtain ⟨e0, e1, -⟩ := idx_facts4 t
  funext j
  show V c main_v53 (((cfg4.win 0).blk t).view.emb j) = V c main_v53 j
  refine congrArg _ (funext fun a => Fin.ext ?_)
  match a with
  | ⟨0, _⟩ => show win4_0.index t (0 : Fin 2) * 8192 + 1 * (j 0).val = (j 0).val; omega
  | ⟨1, _⟩ => show win4_0.index t (1 : Fin 2) * 64 + 1 * (j 1).val = (j 1).val; omega

/-- and the block of gathered item rows the whole array of those. -/
theorem iblk4_1_eq (c : Dev nD) (t : Fin cfg4.N) : iblk4 V c 1 t = V c main_v60 := by
  obtain ⟨-, -, e0, e1, -⟩ := idx_facts4 t
  funext j
  show V c main_v60 (((cfg4.win 1).blk t).view.emb j) = V c main_v60 j
  refine congrArg _ (funext fun a => Fin.ext ?_)
  match a with
  | ⟨0, _⟩ => show win4_1.index t (0 : Fin 2) * 8192 + 1 * (j 0).val = (j 0).val; omega
  | ⟨1, _⟩ => show win4_1.index t (1 : Fin 2) * 64 + 1 * (j 1).val = (j 1).val; omega

/-- What the point writes back is `score` of the two arrays, read through the output's block. -/
theorem flushed4_2_eq (c : Dev nD) (t : Fin cfg4.N) :
    (dat4 V c).flushed 2 t
      = ((cfg4.win 2).blk t).view.read (Elt Ideal) (Cert.Spec.score (V c main_v53) (V c main_v60)) := by
  show (cfg4.win 2).cut (grid4.coords t) ((dat4 V c).after 2 t) = _
  rw [after4_2]
  have e : out4_2 (iblk4 V c 0 t) (iblk4 V c 1 t) = Cert.Spec.score (V c main_v53) (V c main_v60) :=
    (out4_2_eq_score (iblk4 V c 0 t) (iblk4 V c 1 t)).trans
      (congrArg₂ Cert.Spec.score (iblk4_0_eq V c t) (iblk4_1_eq V c t))
  obtain ⟨-, -, -, -, e0, e1⟩ := idx_facts4 t
  funext j
  show out4_2 (iblk4 V c 0 t) (iblk4 V c 1 t) ((cfg4.win 2).xinj (grid4.coords t) j)
    = Cert.Spec.score (V c main_v53) (V c main_v60) (((cfg4.win 2).blk t).view.emb j)
  refine (congrFun e _).trans (congrArg _ (funext fun a => Fin.ext ?_))
  match a with
  | ⟨0, _⟩ => show (j 0).val = win4_2.index t (0 : Fin 2) * 8192 + 1 * (j 0).val; omega
  | ⟨1, _⟩ => show (j 1).val = win4_2.index t (1 : Fin 2) * 1 + 1 * (j 1).val; omega

/-- An index of the output array is in the point's block iff each coordinate is in the block's range on its axis. -/
theorem mem_blk4_2 (t : Fin cfg4.N) (i : S8192x1.Idx) :
    i ∈ ((cfg4.win 2).blk t).view.set ↔ ∀ a : Fin 2, win4_2.index t a * S8192x1.size a ≤ (i a).val ∧ (i a).val < win4_2.index t a * S8192x1.size a + S8192x1.size a := by
  show i ∈ ((View.whole main_v61).slice (win4_2.rect t)).set ↔ _
  rw [View.set_slice_whole, Rect.mem_set_unit]
  exact Iff.rfl

/-- THE OUTPUT ARRAY after the region: the specification's `score` of the gathered user rows and the gathered item rows. -/
theorem score_final (V : (c : Dev nD) → (b : Ref sig .tc) → Buf (Elt Ideal) ((c : Thread nD τ).loc b)) (c : Dev nD) :
    (dat4 V c).arrAt 2 cfg4.N = Cert.Spec.score (V c main_v53) (V c main_v60) :=
  (dat4 V c).arrAt_eq_of_cover 2 (Cert.Spec.score (V c main_v53) (V c main_v60)) (fun t _ => flushed4_2_eq V c t) fun i => by
    obtain ⟨-, -, -, -, e0, e1⟩ := idx_facts4 t4_0
    refine ⟨t4_0, flush4_2 t4_0, ?_⟩
    rw [mem_blk4_2]
    intro a
    match a with
    | ⟨0, _⟩ =>
      show win4_2.index t4_0 (0 : Fin 2) * 8192 ≤ (i 0).val ∧ (i 0).val < win4_2.index t4_0 (0 : Fin 2) * 8192 + 8192
      have hi : (i 0).val < 8192 := (i 0).isLt
      omega
    | ⟨1, _⟩ =>
      show win4_2.index t4_0 (1 : Fin 2) * 1 ≤ (i 1).val ∧ (i 1).val < win4_2.index t4_0 (1 : Fin 2) * 1 + 1
      have hi : (i 1).val < 1 := (i 1).isLt
      omega

end Cert.KernelIdeal.Run

end
-- ==== Proof.RunKernelIdeal.KernelVal.lean ====
/-
  What the idealized kernel's program leaves in its result buffer, as the specification's function of the arguments.

  The program's buffers are followed boundary by boundary: a stretch of host operations computes each of its results from
  the contents before it (the operations applied in order); a kernel region leaves in its output array the whole-array
  function of its input arrays; whatever a stretch or a region does not write is as before. Along the way: the feature
  array after each propagation step is the specification's step applied to the one before; the stacked item rows read
  at (l, i, k) are the item rows of the l-th feature array; the last region's column of inner products, read as a
  vector, is the specification's result.
-/
import proofs.«430620_j47536698032634_3_alg».proof.Proof.RunKernelIdeal.Run
import proofs.«430620_j47536698032634_3_alg».proof.Proof.RunKernelIdeal.EdgeVal0
import proofs.«430620_j47536698032634_3_alg».proof.Proof.RunKernelIdeal.EdgeVal1
import proofs.«430620_j47536698032634_3_alg».proof.Proof.RunKernelIdeal.EdgeVal2
import proofs.«430620_j47536698032634_3_alg».proof.Proof.RunKernelIdeal.CombineVal
import proofs.«430620_j47536698032634_3_alg».proof.Proof.RunKernelIdeal.ScoreVal
import proofs.«430620_j47536698032634_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.ValueIdx Idealize.SL.Sem Idealize.ShloMosaic.StableHlo

/-! ## Each stretch of host operations, read over any contents before it and any float instance -/

section Stretches

variable {F : FTy → Type} [FloatOps F] (V : Valuation τ sig (Elt F))

/-- The index columns @main computes from the index arguments: a negative index is counted from the end, then the
    vector is laid out as a column. -/
abbrev srcCol (src : IVec S3200000 32) : IVec S3200000x1 32 :=
  broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 150000#32))) src)
abbrev dstCol (dst : IVec S3200000 32) : IVec S3200000x1 32 := broadcastInDim S3200000x1 ![0] bcast_S3200000_S3200000x1_0 dst
abbrev userCol (users : IVec S8192 32) : IVec S8192x1 32 :=
  broadcastInDim S8192x1 ![0] bcast_S8192_S8192x1_0 (select (cmpi .slt users (broadcastInDim S8192 ![] bcast_S_S8192 (constantI S_ 32 0#32))) (addi users (broadcastInDim S8192 ![] bcast_S_S8192 (constantI S_ 32 100000#32))) users)
abbrev itemCol (items : IVec S8192 32) : IVec S8192x1 32 :=
  broadcastInDim S8192x1 ![0] bcast_S8192_S8192x1_0 (select (cmpi .slt items (broadcastInDim S8192 ![] bcast_S_S8192 (constantI S_ 32 0#32))) (addi items (broadcastInDim S8192 ![] bcast_S_S8192 (constantI S_ 32 50000#32))) items)

abbrev gS := gather_S150000x64_S3200000x1_S3200000x64_1_0_n_n_0_1_164
abbrev sc := scatter_S150000x64_S3200000x1_S3200000x64_1_0_0_1
abbrev gU := gather_S100000x64_S8192x1_S8192x64_1_0_n_n_0_1_164
abbrev gI := gather_S50000x64_S8192x1_S8192x64_1_0_n_n_0_1_164

/-- The zero feature array a step starts from, and the step's scatter of messages into it. -/
abbrev zerosG : FVec F S150000x64 .f32 := broadcastInDim S150000x64 ![] bcast_S_S150000x64 (constant (F := F) S_ .f32 0x00000000#32)
abbrev scatG (dst : IVec S3200000 32) (msgs : FVec F S3200000x64 .f32) : FVec F S150000x64 .f32 :=
  Host.scatterAdd sc (zerosG (F := F)) (dstCol dst) msgs
/-- The item rows of a feature array as a one-member stack, and four of them stacked. -/
abbrev pieceG (E : FVec F S150000x64 .f32) : FVec F S1x50000x64 .f32 :=
  broadcastInDim S1x50000x64 ![1, 2] bcast_S50000x64_S1x50000x64_1_2 (extractStridedSlice S50000x64 ![100000, 0] E slices_S150000x64_S50000x64_100000_0)
abbrev stackG (A0 A1 A2 A3 : FVec F S150000x64 .f32) : FVec F S4x50000x64 .f32 :=
  concatenate S4x50000x64 0 [⟨S1x50000x64, pieceG A0⟩, ⟨S1x50000x64, pieceG A1⟩, ⟨S1x50000x64, pieceG A2⟩, ⟨S1x50000x64, pieceG A3⟩]
    concatenates_S1x50000x64_S1x50000x64_S1x50000x64_S1x50000x64_S4x50000x64_d0

set_option maxHeartbeats 2000000 in
theorem s0_v0 : StableHlo.after hostOps0 V (Proc.devRef .tc main_v0)
    = concatenate S150000x64 0 [⟨S100000x64, V (Proc.devRef .tc main_arg0)⟩, ⟨S50000x64, V (Proc.devRef .tc main_arg1)⟩] concatenates_S100000x64_S50000x64_S150000x64_d0 := by
  after_results <;> rfl
set_option maxHeartbeats 2000000 in
theorem s0_v7 : StableHlo.after hostOps0 V (Proc.devRef .tc main_v7)
    = Host.gather gS (concatenate S150000x64 0 [⟨S100000x64, V (Proc.devRef .tc main_arg0)⟩, ⟨S50000x64, V (Proc.devRef .tc main_arg1)⟩] concatenates_S100000x64_S50000x64_S150000x64_d0)
        (srcCol (V (Proc.devRef .tc main_arg5))) := by
  after_results <;> rfl
set_option maxHeartbeats 2000000 in
theorem s0_v8 : StableHlo.after hostOps0 V (Proc.devRef .tc main_v8)
    = shapeCast S3200000x1 (V (Proc.devRef .tc main_arg2)) shapeCasts_S3200000_S3200000x1 := by
  after_results <;> rfl

set_option maxHeartbeats 2000000 in
theorem s1_v12 : StableHlo.after hostOps1 V (Proc.devRef .tc main_v12) = scatG (V (Proc.devRef .tc main_arg6)) (V (Proc.devRef .tc main_v9)) := by
  after_results <;> rfl
set_option maxHeartbeats 2000000 in
theorem s1_v19 : StableHlo.after hostOps1 V (Proc.devRef .tc main_v19)
    = Host.gather gS (scatG (V (Proc.devRef .tc main_arg6)) (V (Proc.devRef .tc main_v9))) (srcCol (V (Proc.devRef .tc main_arg5))) := by
  after_results <;> rfl
set_option maxHeartbeats 2000000 in
theorem s1_v20 : StableHlo.after hostOps1 V (Proc.devRef .tc main_v20)
    = shapeCast S3200000x1 (V (Proc.devRef .tc main_arg2)) shapeCasts_S3200000_S3200000x1 := by
  after_results <;> rfl

set_option maxHeartbeats 2000000 in
theorem s2_v24 : StableHlo.after hostOps2 V (Proc.devRef .tc main_v24) = scatG (V (Proc.devRef .tc main_arg6)) (V (Proc.devRef .tc main_v21)) := by
  after_results <;> rfl
set_option maxHeartbeats 2000000 in
theorem s2_v31 : StableHlo.after hostOps2 V (Proc.devRef .tc main_v31)
    = Host.gather gS (scatG (V (Proc.devRef .tc main_arg6)) (V (Proc.devRef .tc main_v21))) (srcCol (V (Proc.devRef .tc main_arg5))) := by
  after_results <;> rfl
set_option maxHeartbeats 2000000 in
theorem s2_v32 : StableHlo.after hostOps2 V (Proc.devRef .tc main_v32)
    = shapeCast S3200000x1 (V (Proc.devRef .tc main_arg2)) shapeCasts_S3200000_S3200000x1 := by
  after_results <;> rfl

set_option maxHeartbeats 2000000 in
theorem s3_v45 : StableHlo.after hostOps3 V (Proc.devRef .tc main_v45)
    = stackG (V (Proc.devRef .tc main_v0)) (V (Proc.devRef .tc main_v12)) (V (Proc.devRef .tc main_v24))
        (scatG (V (Proc.devRef .tc main_arg6)) (V (Proc.devRef .tc main_v33))) := by
  after_results <;> rfl

set_option maxHeartbeats 2000000 in
theorem s4_v53 : StableHlo.after hostOps4 V (Proc.devRef .tc main_v53)
    = Host.gather gU (V (Proc.devRef .tc main_arg0)) (userCol (V (Proc.devRef .tc main_arg7))) := by
  after_results <;> rfl
set_option maxHeartbeats 2000000 in
theorem s4_v60 : StableHlo.after hostOps4 V (Proc.devRef .tc main_v60)
    = Host.gather gI (V (Proc.devRef .tc main_v46)) (itemCol (V (Proc.devRef .tc main_arg8))) := by
  after_results <;> rfl

set_option maxHeartbeats 2000000 in
theorem s5_v62 : StableHlo.after hostOps5 V (Proc.devRef .tc main_v62)
    = shapeCast S8192 (V (Proc.devRef .tc main_v61)) shapeCasts_S8192x1_S8192 := by
  after_results <;> rfl

end Stretches

variable (m : (ℓ : Loc nD τ sig) → Buf (Elt Ideal) ℓ) (c : Dev nD)

/-- The arguments, as arrays. -/
abbrev aU : S100000x64.Idx → EReal := m ((c.tc : Thread nD τ).loc main_arg0)
abbrev aI0 : S50000x64.Idx → EReal := m ((c.tc : Thread nD τ).loc main_arg1)
abbrev aVal : S3200000.Idx → EReal := m ((c.tc : Thread nD τ).loc main_arg2)
abbrev aW : S64x64.Idx → EReal := m ((c.tc : Thread nD τ).loc main_arg3)
abbrev aB : S64.Idx → EReal := m ((c.tc : Thread nD τ).loc main_arg4)
abbrev sI : IVec S3200000x1 32 := srcCol (m ((c.tc : Thread nD τ).loc main_arg5))
abbrev dI : IVec S3200000x1 32 := dstCol (m ((c.tc : Thread nD τ).loc main_arg6))
abbrev uI : IVec S8192x1 32 := userCol (m ((c.tc : Thread nD τ).loc main_arg7))
abbrev iI : IVec S8192x1 32 := itemCol (m ((c.tc : Thread nD τ).loc main_arg8))

/-- The feature array the propagation starts at: the users' rows, then the items' rows. -/
abbrev E0 : S150000x64.Idx → EReal :=
  concatenate S150000x64 0 [⟨S100000x64, aU m c⟩, ⟨S50000x64, aI0 m c⟩] concatenates_S100000x64_S50000x64_S150000x64_d0
/-- The feature arrays after 0 … 3 steps. -/
abbrev El (l : Fin 4) : S150000x64.Idx → EReal := Cert.Spec.layers gS sc (sI m c) (dI m c) (aVal m c) (E0 m c) l

/-! ## Layout facts -/

/-- The edge weights reshaped to a column are the specification's column. -/
theorem reshape_col (val : S3200000.Idx → EReal) :
    shapeCast S3200000x1 val shapeCasts_S3200000_S3200000x1 = Cert.Spec.col val := by
  funext y
  refine shapeCast_apply val _ y (ix1 (y 0)) ?_
  rw [Shape.rowMajor_val_one, Shape.rowMajor_val_two]
  have h1 : (y 1).val < 1 := idx2_lt1 y
  show (y 0).val = (y 0).val * 1 + (y 1).val
  omega

/-- The zero array a propagation step starts from. -/
theorem zeros_eq : (zerosG (F := Ideal) : S150000x64.Idx → EReal) = fun _ => Cert.Spec.zero32 := by
  funext _; rfl

/-- One step of the program is the specification's step. -/
theorem layer_eq (E : S150000x64.Idx → EReal) (src dst : IVec S3200000 32) (val : S3200000.Idx → EReal) :
    scatG (F := Ideal) dst (Cert.Spec.edgeScale (Host.gather gS E (srcCol src)) (Cert.Spec.col val))
      = Cert.Spec.layer gS sc (srcCol src) (dstCol dst) val E := by
  unfold Cert.Spec.layer scatG
  rw [zeros_eq]

/-- The item rows of a feature array, as the program takes them: rows 100000 … as a one-member stack. -/
abbrev piece (E : S150000x64.Idx → EReal) : S1x50000x64.Idx → EReal :=
  broadcastInDim S1x50000x64 ![1, 2] bcast_S50000x64_S1x50000x64_1_2 (extractStridedSlice S50000x64 ![100000, 0] E slices_S150000x64_S50000x64_100000_0)

theorem piece_apply (E : S150000x64.Idx → EReal) (i : Fin 50000) (k : Fin 64) :
    piece E (ix3 (0 : Fin 1) i k) = Cert.Spec.items E (ix2 i k) := by
  unfold piece
  rw [broadcastInDim_apply ![1, 2] bcast_S50000x64_S1x50000x64_1_2 _ (ix3 (0 : Fin 1) i k) (ix2 i k) (fun a => by
    match a with
    | ⟨0, _⟩ => show i.val = if (50000 : Nat) = 1 then 0 else i.val; rw [if_neg (by decide)]
    | ⟨1, _⟩ => show k.val = if (64 : Nat) = 1 then 0 else k.val; rw [if_neg (by decide)])]
  exact extractStridedSlice_apply ![100000, 0] E slices_S150000x64_S50000x64_100000_0 (ix2 i k)
    (ix2 (⟨i.val + 100000, by have := i.isLt; omega⟩ : Fin 150000) k) (fun a => by
      match a with
      | ⟨0, _⟩ => show i.val + 100000 = 100000 + i.val; omega
      | ⟨1, _⟩ => show k.val = 0 + k.val; omega)

/-- The four feature arrays' item rows stacked. -/
abbrev stackOf (A0 A1 A2 A3 : S150000x64.Idx → EReal) : S4x50000x64.Idx → EReal :=
  concatenate S4x50000x64 0 [⟨S1x50000x64, piece A0⟩, ⟨S1x50000x64, piece A1⟩, ⟨S1x50000x64, piece A2⟩, ⟨S1x50000x64, piece A3⟩]
    concatenates_S1x50000x64_S1x50000x64_S1x50000x64_S1x50000x64_S4x50000x64_d0

/-- The stack read at (l, i, k) is row i, column k of the l-th array's item rows. -/
theorem stackOf_apply (A : Fin 4 → S150000x64.Idx → EReal) (l : Fin 4) (i : Fin 50000) (k : Fin 64) :
    stackOf (A 0) (A 1) (A 2) (A 3) (ix3 l i k) = Cert.Spec.items (A l) (ix2 i k) := by
  have hoff : ∀ b : Fin 3, b.cast rfl ≠ (0 : Fin 3) → ((ix3 (0 : Fin 1) i k : S1x50000x64.Idx) b).val = ((ix3 l i k : S4x50000x64.Idx) (b.cast rfl)).val := by
    intro b hb
    match b with
    | ⟨0, _⟩ => exact absurd rfl hb
    | ⟨1, _⟩ => rfl
    | ⟨2, _⟩ => rfl
  unfold stackOf
  match l with
  | ⟨0, _⟩ =>
    exact (concatenate_apply_piece 0 _ _ (ix3 (0 : Fin 4) i k) 0 (by simp) S1x50000x64 (piece (A 0)) rfl rfl 0 rfl
      (ix3 (0 : Fin 1) i k) hoff rfl).trans (piece_apply (A 0) i k)
  | ⟨1, _⟩ =>
    exact (concatenate_apply_piece 0 _ _ (ix3 (1 : Fin 4) i k) 1 (by simp) S1x50000x64 (piece (A 1)) rfl rfl 1 rfl
      (ix3 (0 : Fin 1) i k) hoff rfl).trans (piece_apply (A 1) i k)
  | ⟨2, _⟩ =>
    exact (concatenate_apply_piece 0 _ _ (ix3 (2 : Fin 4) i k) 2 (by simp) S1x50000x64 (piece (A 2)) rfl rfl 2 rfl
      (ix3 (0 : Fin 1) i k) hoff rfl).trans (piece_apply (A 2) i k)
  | ⟨3, _⟩ =>
    exact (concatenate_apply_piece 0 _ _ (ix3 (3 : Fin 4) i k) 3 (by simp) S1x50000x64 (piece (A 3)) rfl rfl 3 rfl
      (ix3 (0 : Fin 1) i k) hoff rfl).trans (piece_apply (A 3) i k)

/-- The affine map over the stack is the affine map over the four arrays' item rows. -/
theorem combine_stackOf (A : Fin 4 → S150000x64.Idx → EReal) (W : S64x64.Idx → EReal) (b : S64.Idx → EReal) :
    Cert.Spec.combine (stackOf (A 0) (A 1) (A 2) (A 3)) W b = Cert.Spec.combineI (fun l => Cert.Spec.items (A l)) W b := by
  unfold Cert.Spec.combine
  congr 1
  funext l y
  exact (stackOf_apply A l (y 0) (y 1)).trans (congrArg (Cert.Spec.items (A l)) (eq_ix2 y).symm)

/-! ## Stretch 0: the starting features, the first gather, the weights as a column -/

theorem v0_at1 : W1 m c main_v0 = E0 m c := s0_v0 (W0 m c)
theorem v7_at1 : W1 m c main_v7 = Host.gather gS (E0 m c) (sI m c) := s0_v7 (W0 m c)
theorem v8_at1 : W1 m c main_v8 = Cert.Spec.col (aVal m c) := (s0_v8 (W0 m c)).trans (reshape_col _)

/-! ## Region 0: the first messages -/

theorem v9_at2 : W2 m c main_v9 = Cert.Spec.edgeScale (Host.gather gS (El m c 0) (sI m c)) (Cert.Spec.col (aVal m c)) := by
  have h := (W2_arr m c 2).trans (edge_final0 (Run.V1 m) c)
  rw [show Run.V1 m c main_v7 = _ from v7_at1 m c, show Run.V1 m c main_v8 = _ from v8_at1 m c] at h
  exact h

/-! ## Stretch 1: the features after one step, the second gather -/

theorem v12_at3 : W3 m c main_v12 = El m c 1 := by
  refine (s1_v12 (W2 m c)).trans ?_
  rw [W2_main_arg6 m c, v9_at2 m c]
  exact layer_eq _ _ _ _
theorem v19_at3 : W3 m c main_v19 = Host.gather gS (El m c 1) (sI m c) := by
  refine (s1_v19 (W2 m c)).trans ?_
  rw [W2_main_arg6 m c, W2_main_arg5 m c, v9_at2 m c, layer_eq]
  rfl
theorem v20_at3 : W3 m c main_v20 = Cert.Spec.col (aVal m c) := by
  refine (s1_v20 (W2 m c)).trans ?_
  rw [W2_main_arg2 m c]; exact reshape_col _

/-! ## Region 1 -/

theorem v21_at4 : W4 m c main_v21 = Cert.Spec.edgeScale (Host.gather gS (El m c 1) (sI m c)) (Cert.Spec.col (aVal m c)) := by
  have h := (W4_arr m c 2).trans (edge_final1 (Run.V3 m) c)
  rw [show Run.V3 m c main_v19 = _ from v19_at3 m c, show Run.V3 m c main_v20 = _ from v20_at3 m c] at h
  exact h

/-! ## Stretch 2 -/

theorem v24_at5 : W5 m c main_v24 = El m c 2 := by
  refine (s2_v24 (W4 m c)).trans ?_
  rw [W4_main_arg6 m c, v21_at4 m c]
  exact layer_eq _ _ _ _
theorem v31_at5 : W5 m c main_v31 = Host.gather gS (El m c 2) (sI m c) := by
  refine (s2_v31 (W4 m c)).trans ?_
  rw [W4_main_arg6 m c, W4_main_arg5 m c, v21_at4 m c, layer_eq]
  rfl
theorem v32_at5 : W5 m c main_v32 = Cert.Spec.col (aVal m c) := by
  refine (s2_v32 (W4 m c)).trans ?_
  rw [W4_main_arg2 m c]; exact reshape_col _

/-! ## Region 2 -/

theorem v33_at6 : W6 m c main_v33 = Cert.Spec.edgeScale (Host.gather gS (El m c 2) (sI m c)) (Cert.Spec.col (aVal m c)) := by
  have h := (W6_arr m c 2).trans (edge_final2 (Run.V5 m) c)
  rw [show Run.V5 m c main_v31 = _ from v31_at5 m c, show Run.V5 m c main_v32 = _ from v32_at5 m c] at h
  exact h

/-! ## What the earlier stretches wrote is still there when the stacking stretch reads it -/

theorem v0_at6 : W6 m c main_v0 = El m c 0 :=
  (W6_of_ne m c main_v0 (by decide)).trans <| (W5_keep m c main_v0 (by decide)).trans <| (W4_of_ne m c main_v0 (by decide)).trans <|
    (W3_keep m c main_v0 (by decide)).trans <| (W2_of_ne m c main_v0 (by decide)).trans (v0_at1 m c)
theorem v12_at6 : W6 m c main_v12 = El m c 1 :=
  (W6_of_ne m c main_v12 (by decide)).trans <| (W5_keep m c main_v12 (by decide)).trans <| (W4_of_ne m c main_v12 (by decide)).trans (v12_at3 m c)
theorem v24_at6 : W6 m c main_v24 = El m c 2 :=
  (W6_of_ne m c main_v24 (by decide)).trans (v24_at5 m c)

/-! ## Stretch 3: the features after three steps, and the four arrays' item rows stacked -/

theorem v45_at7 : W7 m c main_v45 = stackOf (El m c 0) (El m c 1) (El m c 2) (El m c 3) := by
  refine (s3_v45 (W6 m c)).trans ?_
  rw [W6_main_arg6 m c, v33_at6 m c, layer_eq, v0_at6 m c, v12_at6 m c, v24_at6 m c]
  rfl

/-! ## Region 3: the transformed item rows -/

theorem v46_at8 : W8 m c main_v46 = Cert.Spec.combineI (fun l => Cert.Spec.items (El m c l)) (aW m c) (aB m c) := by
  have h := (W8_arr m c 3).trans (combine_final (Run.V7 m) c)
  rw [show Run.V7 m c main_v45 = _ from v45_at7 m c, show Run.V7 m c main_arg3 = _ from W7_main_arg3 m c,
    show Run.V7 m c main_arg4 = _ from W7_main_arg4 m c] at h
  exact h.trans (combine_stackOf (El m c) _ _)

/-! ## Stretch 4: the queried rows -/

theorem v53_at9 : W9 m c main_v53 = Host.gather gU (aU m c) (uI m c) := by
  refine (s4_v53 (W8 m c)).trans ?_
  rw [W8_main_arg7 m c, W8_main_arg0 m c]
theorem v60_at9 : W9 m c main_v60 = Host.gather gI (Cert.Spec.combineI (fun l => Cert.Spec.items (El m c l)) (aW m c) (aB m c)) (iI m c) := by
  refine (s4_v60 (W8 m c)).trans ?_
  rw [W8_main_arg8 m c, v46_at8 m c]

/-! ## Region 4 and the last reshape: the result -/

theorem v61_at10 : W10 m c main_v61 = Cert.Spec.score (Host.gather gU (aU m c) (uI m c))
    (Host.gather gI (Cert.Spec.combineI (fun l => Cert.Spec.items (El m c l)) (aW m c) (aB m c)) (iI m c)) := by
  have h := (W10_arr m c 2).trans (score_final (Run.V9 m) c)
  rw [show Run.V9 m c main_v53 = _ from v53_at9 m c, show Run.V9 m c main_v60 = _ from v60_at9 m c] at h
  exact h

/-- THE KERNEL'S VALUE: the result buffer at the end holds the specification's result of the arguments. -/
theorem kernel_value : W11 m c main_v62
    = Cert.Spec.result gS sc gU gI (sI m c) (dI m c) (uI m c) (iI m c) (aU m c) (aVal m c) (aW m c) (aB m c) (E0 m c) := by
  refine (s5_v62 (W10 m c)).trans ?_
  rw [v61_at10 m c]
  funext y
  refine (shapeCast_apply _ shapeCasts_S8192x1_S8192 y (ix2 (y 0) (0 : Fin 1)) ?_).trans rfl
  rw [Shape.rowMajor_val_one, Shape.rowMajor_val_two]
  show (y 0).val * 1 + 0 = (y 0).val
  omega

end Cert.KernelIdeal.Val

end
-- ==== Proof.RefLink.lean ====
/-
  The reference program's operations, read in order, leave in the last array the staged value of the nine arguments.

  The 110 operations are cut into nine runs: the three propagation steps, the four affine images of the item rows, the
  average of the four arrays, and the scores. An operation writes one array and leaves every other array as it was, so a
  run changes only the arrays its operations write; what a run leaves in its last arrays is a function of the few
  earlier arrays and arguments it reads. Threading the nine runs, each read array already known as a staged value of
  the arguments, gives the result array as the staged value of the arguments.
-/
import proofs.«430620_j47536698032634_3_alg».proof.Proof.RefRun
import proofs.«430620_j47536698032634_3_alg».proof.Proof.RefRead
import Idealize.ShloMosaic.Lib.StableHlo.Run
import Idealize.ShloMosaic.Lib.Pipeline.Frame

noncomputable section

namespace Cert.ReferenceIdeal.RefLink

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The nine runs of operations -/

/-- The first propagation step: the joined node array, the source column, the gathered rows times the edge weights, scattered. -/
abbrev prop1 : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg2 main_v1 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v2 (broadcastInDim S3200000 ![] bcast_S_S3200000 : (⟨S_, .i32⟩ : BufTy).Contents (Elt F) → (⟨S3200000, .i32⟩ : BufTy).Contents (Elt F)),
    binary main_arg5 main_v2 main_v3 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 150000#32),
    unary main_c_0 main_v4 (broadcastInDim S3200000 ![] bcast_S_S3200000 : (⟨S_, .i32⟩ : BufTy).Contents (Elt F) → (⟨S3200000, .i32⟩ : BufTy).Contents (Elt F)),
    binary main_arg5 main_v4 main_v5 (addi : (⟨S3200000, .i32⟩ : BufTy).Contents (Elt F) → (⟨S3200000, .i32⟩ : BufTy).Contents (Elt F) → (⟨S3200000, .i32⟩ : BufTy).Contents (Elt F)),
    ternary main_v3 main_v5 main_arg5 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v6 main_v7 (broadcastInDim S3200000x1 ![0] bcast_S3200000_S3200000x1_0 : (⟨S3200000, .i32⟩ : BufTy).Contents (Elt F) → (⟨S3200000x1, .i32⟩ : BufTy).Contents (Elt F)),
    binary main_v0 main_v7 main_v8 ((fun x i => Host.gather gather_S150000x64_S3200000x1_S3200000x64_1_0_n_n_0_1_164 x i) : (⟨S150000x64, .f32⟩ : BufTy).Contents (Elt F) → (⟨S3200000x1, .i32⟩ : BufTy).Contents (Elt F) → (⟨S3200000x64, .f32⟩ : BufTy).Contents (Elt F)),
    unary main_v1 main_v9 (broadcastInDim S3200000x64 ![0, 1] bcast_S3200000x1_S3200000x64_0_1 : (⟨S3200000x1, .f32⟩ : BufTy).Contents (Elt F) → (⟨S3200000x64, .f32⟩ : BufTy).Contents (Elt F)),
    binary main_v9 main_v8 main_v10 (mulf : (⟨S3200000x64, .f32⟩ : BufTy).Contents (Elt F) → (⟨S3200000x64, .f32⟩ : BufTy).Contents (Elt F) → (⟨S3200000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg6 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S150000x64_S3200000x1_S3200000x64_1_0_0_1 x i u) : (⟨S150000x64, .f32⟩ : BufTy).Contents (Elt F) → (⟨S3200000x1, .i32⟩ : BufTy).Contents (Elt F) → (⟨S3200000x64, .f32⟩ : BufTy).Contents (Elt F) → (⟨S150000x64, .f32⟩ : BufTy).Contents (Elt F)) ]

/-- The second propagation step, from the first step's array. -/
abbrev prop2 : List (HloOp τ sig (Elt F)) :=
  [ unary main_arg2 main_v14 (broadcastInDim S3200000x1 ![0] bcast_S3200000_S3200000x1_0 : (⟨S3200000, .f32⟩ : BufTy).Contents (Elt F) → (⟨S3200000x1, .f32⟩ : BufTy).Contents (Elt F)),
    nullary main_c_1 (constantI S_ 32 0#32),
    unary main_c_1 main_v15 (broadcastInDim S3200000 ![] bcast_S_S3200000 : (⟨S_, .i32⟩ : BufTy).Contents (Elt F) → (⟨S3200000, .i32⟩ : BufTy).Contents (Elt F)),
    binary main_arg5 main_v15 main_v16 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 150000#32),
    unary main_c_2 main_v17 (broadcastInDim S3200000 ![] bcast_S_S3200000 : (⟨S_, .i32⟩ : BufTy).Contents (Elt F) → (⟨S3200000, .i32⟩ : BufTy).Contents (Elt F)),
    binary main_arg5 main_v17 main_v18 (addi : (⟨S3200000, .i32⟩ : BufTy).Contents (Elt F) → (⟨S3200000, .i32⟩ : BufTy).Contents (Elt F) → (⟨S3200000, .i32⟩ : BufTy).Contents (Elt F)),
    ternary main_v16 main_v18 main_arg5 main_v19 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v19 main_v20 (broadcastInDim S3200000x1 ![0] bcast_S3200000_S3200000x1_0 : (⟨S3200000, .i32⟩ : BufTy).Contents (Elt F) → (⟨S3200000x1, .i32⟩ : BufTy).Contents (Elt F)),
    binary main_v13 main_v20 main_v21 ((fun x i => Host.gather gather_S150000x64_S3200000x1_S3200000x64_1_0_n_n_0_1_164 x i) : (⟨S150000x64, .f32⟩ : BufTy).Contents (Elt F) → (⟨S3200000x1, .i32⟩ : BufTy).Contents (Elt F) → (⟨S3200000x64, .f32⟩ : BufTy).Contents (Elt F)),
    unary main_v14 main_v22 (broadcastInDim S3200000x64 ![0, 1] bcast_S3200000x1_S3200000x64_0_1 : (⟨S3200000x1, .f32⟩ : BufTy).Contents (Elt F) → (⟨S3200000x64, .f32⟩ : BufTy).Contents (Elt F)),
    binary main_v22 main_v21 main_v23 (mulf : (⟨S3200000x64, .f32⟩ : BufTy).Contents (Elt F) → (⟨S3200000x64, .f32⟩ : BufTy).Contents (Elt F) → (⟨S3200000x64, .f32⟩ : BufTy).Contents (Elt F)),
    nullary main_cst_3 (constant S_ .f32 0x00000000#32),
    unary main_cst_3 main_v24 (broadcastInDim S150000x64 ![] bcast_S_S150000x64 : (⟨S_, .f32⟩ : BufTy).Contents (Elt F) → (⟨S150000x64, .f32⟩ : BufTy).Contents (Elt F)),
    unary main_arg6 main_v25 (broadcastInDim S3200000x1 ![0] bcast_S3200000_S3200000x1_0 : (⟨S3200000, .i32⟩ : BufTy).Contents (Elt F) → (⟨S3200000x1, .i32⟩ : BufTy).Contents (Elt F)),
    ternary main_v24 main_v25 main_v23 main_v26 ((fun x i u => Host.scatterAdd scatter_S150000x64_S3200000x1_S3200000x64_1_0_0_1 x i u) : (⟨S150000x64, .f32⟩ : BufTy).Contents (Elt F) → (⟨S3200000x1, .i32⟩ : BufTy).Contents (Elt F) → (⟨S3200000x64, .f32⟩ : BufTy).Contents (Elt F) → (⟨S150000x64, .f32⟩ : BufTy).Contents (Elt F)) ]

/-- The third propagation step, from the second step's array. -/
abbrev prop3 : List (HloOp τ sig (Elt F)) :=
  [ unary main_arg2 main_v27 (broadcastInDim S3200000x1 ![0] bcast_S3200000_S3200000x1_0 : (⟨S3200000, .f32⟩ : BufTy).Contents (Elt F) → (⟨S3200000x1, .f32⟩ : BufTy).Contents (Elt F)),
    nullary main_c_4 (constantI S_ 32 0#32),
    unary main_c_4 main_v28 (broadcastInDim S3200000 ![] bcast_S_S3200000 : (⟨S_, .i32⟩ : BufTy).Contents (Elt F) → (⟨S3200000, .i32⟩ : BufTy).Contents (Elt F)),
    binary main_arg5 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 150000#32),
    unary main_c_5 main_v30 (broadcastInDim S3200000 ![] bcast_S_S3200000 : (⟨S_, .i32⟩ : BufTy).Contents (Elt F) → (⟨S3200000, .i32⟩ : BufTy).Contents (Elt F)),
    binary main_arg5 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_arg5 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v26 main_v33 main_v34 ((fun x i => Host.gather gather_S150000x64_S3200000x1_S3200000x64_1_0_n_n_0_1_164 x i) : (⟨S150000x64, .f32⟩ : BufTy).Contents (Elt F) → (⟨S3200000x1, .i32⟩ : BufTy).Contents (Elt F) → (⟨S3200000x64, .f32⟩ : BufTy).Contents (Elt F)),
    unary main_v27 main_v35 (broadcastInDim S3200000x64 ![0, 1] bcast_S3200000x1_S3200000x64_0_1 : (⟨S3200000x1, .f32⟩ : BufTy).Contents (Elt F) → (⟨S3200000x64, .f32⟩ : BufTy).Contents (Elt F)),
    binary main_v35 main_v34 main_v36 (mulf : (⟨S3200000x64, .f32⟩ : BufTy).Contents (Elt F) → (⟨S3200000x64, .f32⟩ : BufTy).Contents (Elt F) → (⟨S3200000x64, .f32⟩ : BufTy).Contents (Elt F)),
    nullary main_cst_6 (constant S_ .f32 0x00000000#32),
    unary main_cst_6 main_v37 (broadcastInDim S150000x64 ![] bcast_S_S150000x64 : (⟨S_, .f32⟩ : BufTy).Contents (Elt F) → (⟨S150000x64, .f32⟩ : BufTy).Contents (Elt F)),
    unary main_arg6 main_v38 (broadcastInDim S3200000x1 ![0] bcast_S3200000_S3200000x1_0 : (⟨S3200000, .i32⟩ : BufTy).Contents (Elt F) → (⟨S3200000x1, .i32⟩ : BufTy).Contents (Elt F)),
    ternary main_v37 main_v38 main_v36 main_v39 ((fun x i u => Host.scatterAdd scatter_S150000x64_S3200000x1_S3200000x64_1_0_0_1 x i u) : (⟨S150000x64, .f32⟩ : BufTy).Contents (Elt F) → (⟨S3200000x1, .i32⟩ : BufTy).Contents (Elt F) → (⟨S3200000x64, .f32⟩ : BufTy).Contents (Elt F) → (⟨S150000x64, .f32⟩ : BufTy).Contents (Elt F)) ]

/-- The affine image of the joined array's item rows, under the users' rows. -/
abbrev aff0 : List (HloOp τ sig (Elt F)) :=
  [ unary main_v0 main_v40 ((extractStridedSlice S50000x64 ![100000, 0] · slices_S150000x64_S50000x64_100000_0) : (⟨S150000x64, .f32⟩ : BufTy).Contents (Elt F) → (⟨S50000x64, .f32⟩ : BufTy).Contents (Elt F)),
    unary main_arg3 main_v41 ((transpose S64x64 [1, 0] · transposes_S64x64_S64x64_1_0) : (⟨S64x64, .f32⟩ : BufTy).Contents (Elt F) → (⟨S64x64, .f32⟩ : BufTy).Contents (Elt F)),
    binary main_v40 main_v41 main_v42 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg4 main_v43 (broadcastInDim S1x64 ![1] bcast_S64_S1x64_1 : (⟨S64, .f32⟩ : BufTy).Contents (Elt F) → (⟨S1x64, .f32⟩ : BufTy).Contents (Elt F)),
    unary main_v43 main_v44 (broadcastInDim S50000x64 ![0, 1] bcast_S1x64_S50000x64_0_1 : (⟨S1x64, .f32⟩ : BufTy).Contents (Elt F) → (⟨S50000x64, .f32⟩ : BufTy).Contents (Elt F)),
    binary main_v42 main_v44 main_v45 (addf : (⟨S50000x64, .f32⟩ : BufTy).Contents (Elt F) → (⟨S50000x64, .f32⟩ : BufTy).Contents (Elt F) → (⟨S50000x64, .f32⟩ : BufTy).Contents (Elt F)),
    binary main_arg0 main_v45 main_v46 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

/-- The affine image of the first step's item rows, under the users' rows. -/
abbrev aff1 : List (HloOp τ sig (Elt F)) :=
  [ unary main_v13 main_v47 ((extractStridedSlice S50000x64 ![100000, 0] · slices_S150000x64_S50000x64_100000_0) : (⟨S150000x64, .f32⟩ : BufTy).Contents (Elt F) → (⟨S50000x64, .f32⟩ : BufTy).Contents (Elt F)),
    unary main_arg3 main_v48 ((transpose S64x64 [1, 0] · transposes_S64x64_S64x64_1_0) : (⟨S64x64, .f32⟩ : BufTy).Contents (Elt F) → (⟨S64x64, .f32⟩ : BufTy).Contents (Elt F)),
    binary main_v47 main_v48 main_v49 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg4 main_v50 (broadcastInDim S1x64 ![1] bcast_S64_S1x64_1 : (⟨S64, .f32⟩ : BufTy).Contents (Elt F) → (⟨S1x64, .f32⟩ : BufTy).Contents (Elt F)),
    unary main_v50 main_v51 (broadcastInDim S50000x64 ![0, 1] bcast_S1x64_S50000x64_0_1 : (⟨S1x64, .f32⟩ : BufTy).Contents (Elt F) → (⟨S50000x64, .f32⟩ : BufTy).Contents (Elt F)),
    binary main_v49 main_v51 main_v52 (addf : (⟨S50000x64, .f32⟩ : BufTy).Contents (Elt F) → (⟨S50000x64, .f32⟩ : BufTy).Contents (Elt F) → (⟨S50000x64, .f32⟩ : BufTy).Contents (Elt F)),
    binary main_arg0 main_v52 main_v53 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

/-- The affine image of the second step's item rows, under the users' rows. -/
abbrev aff2 : List (HloOp τ sig (Elt F)) :=
  [ unary main_v26 main_v54 ((extractStridedSlice S50000x64 ![100000, 0] · slices_S150000x64_S50000x64_100000_0) : (⟨S150000x64, .f32⟩ : BufTy).Contents (Elt F) → (⟨S50000x64, .f32⟩ : BufTy).Contents (Elt F)),
    unary main_arg3 main_v55 ((transpose S64x64 [1, 0] · transposes_S64x64_S64x64_1_0) : (⟨S64x64, .f32⟩ : BufTy).Contents (Elt F) → (⟨S64x64, .f32⟩ : BufTy).Contents (Elt F)),
    binary main_v54 main_v55 main_v56 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg4 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v56 main_v58 main_v59 (addf : (⟨S50000x64, .f32⟩ : BufTy).Contents (Elt F) → (⟨S50000x64, .f32⟩ : BufTy).Contents (Elt F) → (⟨S50000x64, .f32⟩ : BufTy).Contents (Elt F)),
    binary main_arg0 main_v59 main_v60 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

/-- The affine image of the third step's item rows, under the users' rows. -/
abbrev aff3 : List (HloOp τ sig (Elt F)) :=
  [ unary main_v39 main_v61 ((extractStridedSlice S50000x64 ![100000, 0] · slices_S150000x64_S50000x64_100000_0) : (⟨S150000x64, .f32⟩ : BufTy).Contents (Elt F) → (⟨S50000x64, .f32⟩ : BufTy).Contents (Elt F)),
    unary main_arg3 main_v62 ((transpose S64x64 [1, 0] · transposes_S64x64_S64x64_1_0) : (⟨S64x64, .f32⟩ : BufTy).Contents (Elt F) → (⟨S64x64, .f32⟩ : BufTy).Contents (Elt F)),
    binary main_v61 main_v62 main_v63 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg4 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    binary main_arg0 main_v66 main_v67 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

/-- The four arrays stacked, summed over the stacking axis and divided by four; the users' rows and the items' rows of the average. -/
abbrev avg : List (HloOp τ sig (Elt F)) :=
  [ unary main_v46 main_v68 (broadcastInDim S150000x1x64 ![0, 2] bcast_S150000x64_S150000x1x64_0_2 : (⟨S150000x64, .f32⟩ : BufTy).Contents (Elt F) → (⟨S150000x1x64, .f32⟩ : BufTy).Contents (Elt F)),
    unary main_v53 main_v69 (broadcastInDim S150000x1x64 ![0, 2] bcast_S150000x64_S150000x1x64_0_2 : (⟨S150000x64, .f32⟩ : BufTy).Contents (Elt F) → (⟨S150000x1x64, .f32⟩ : BufTy).Contents (Elt F)),
    unary main_v60 main_v70 (broadcastInDim S150000x1x64 ![0, 2] bcast_S150000x64_S150000x1x64_0_2 : (⟨S150000x64, .f32⟩ : BufTy).Contents (Elt F) → (⟨S150000x1x64, .f32⟩ : BufTy).Contents (Elt F)),
    unary main_v67 main_v71 (broadcastInDim S150000x1x64 ![0, 2] bcast_S150000x64_S150000x1x64_0_2 : (⟨S150000x64, .f32⟩ : BufTy).Contents (Elt F) → (⟨S150000x1x64, .f32⟩ : BufTy).Contents (Elt F)),
    nary ![main_v68, main_v69, main_v70, main_v71] main_v72 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1),
    nullary main_cst_7 (constant S_ .f32 0x00000000#32),
    binary main_v72 main_cst_7 main_v73 ((fun x v => Host.reduceAdd x v reducesTo_S150000x4x64_S150000x64_d1 h_S_) : (⟨S150000x4x64, .f32⟩ : BufTy).Contents (Elt F) → (⟨S_, .f32⟩ : BufTy).Contents (Elt F) → (⟨S150000x64, .f32⟩ : BufTy).Contents (Elt F)),
    nullary main_cst_8 (constant S_ .f32 0x40800000#32),
    unary main_cst_8 main_v74 (broadcastInDim S150000x64 ![] bcast_S_S150000x64 : (⟨S_, .f32⟩ : BufTy).Contents (Elt F) → (⟨S150000x64, .f32⟩ : BufTy).Contents (Elt F)),
    binary main_v73 main_v74 main_v75 (Host.divf : (⟨S150000x64, .f32⟩ : BufTy).Contents (Elt F) → (⟨S150000x64, .f32⟩ : BufTy).Contents (Elt F) → (⟨S150000x64, .f32⟩ : BufTy).Contents (Elt F)),
    unary main_v75 main_v76 ((extractStridedSlice S100000x64 ![0, 0] · slices_S150000x64_S100000x64_0_0) : (⟨S150000x64, .f32⟩ : BufTy).Contents (Elt F) → (⟨S100000x64, .f32⟩ : BufTy).Contents (Elt F)),
    unary main_v75 main_v77 ((extractStridedSlice S50000x64 ![100000, 0] · slices_S150000x64_S50000x64_100000_0) : (⟨S150000x64, .f32⟩ : BufTy).Contents (Elt F) → (⟨S50000x64, .f32⟩ : BufTy).Contents (Elt F)) ]

/-- The query columns, the gathered rows of the two averages, their products summed along the features. -/
abbrev scoring : List (HloOp τ sig (Elt F)) :=
  [ nullary main_c_9 (constantI S_ 32 0#32),
    unary main_c_9 main_v78 (broadcastInDim S8192 ![] bcast_S_S8192 : (⟨S_, .i32⟩ : BufTy).Contents (Elt F) → (⟨S8192, .i32⟩ : BufTy).Contents (Elt F)),
    binary main_arg7 main_v78 main_v79 (cmpi .slt : (⟨S8192, .i32⟩ : BufTy).Contents (Elt F) → (⟨S8192, .i32⟩ : BufTy).Contents (Elt F) → (⟨S8192, .i1⟩ : BufTy).Contents (Elt F)),
    nullary main_c_10 (constantI S_ 32 100000#32),
    unary main_c_10 main_v80 (broadcastInDim S8192 ![] bcast_S_S8192 : (⟨S_, .i32⟩ : BufTy).Contents (Elt F) → (⟨S8192, .i32⟩ : BufTy).Contents (Elt F)),
    binary main_arg7 main_v80 main_v81 (addi : (⟨S8192, .i32⟩ : BufTy).Contents (Elt F) → (⟨S8192, .i32⟩ : BufTy).Contents (Elt F) → (⟨S8192, .i32⟩ : BufTy).Contents (Elt F)),
    ternary main_v79 main_v81 main_arg7 main_v82 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v82 main_v83 (broadcastInDim S8192x1 ![0] bcast_S8192_S8192x1_0 : (⟨S8192, .i32⟩ : BufTy).Contents (Elt F) → (⟨S8192x1, .i32⟩ : BufTy).Contents (Elt F)),
    binary main_v76 main_v83 main_v84 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F)),
    nullary main_c_11 (constantI S_ 32 0#32),
    unary main_c_11 main_v85 (broadcastInDim S8192 ![] bcast_S_S8192 : (⟨S_, .i32⟩ : BufTy).Contents (Elt F) → (⟨S8192, .i32⟩ : BufTy).Contents (Elt F)),
    binary main_arg8 main_v85 main_v86 (cmpi .slt : (⟨S8192, .i32⟩ : BufTy).Contents (Elt F) → (⟨S8192, .i32⟩ : BufTy).Contents (Elt F) → (⟨S8192, .i1⟩ : BufTy).Contents (Elt F)),
    nullary main_c_12 (constantI S_ 32 50000#32),
    unary main_c_12 main_v87 (broadcastInDim S8192 ![] bcast_S_S8192 : (⟨S_, .i32⟩ : BufTy).Contents (Elt F) → (⟨S8192, .i32⟩ : BufTy).Contents (Elt F)),
    binary main_arg8 main_v87 main_v88 (addi : (⟨S8192, .i32⟩ : BufTy).Contents (Elt F) → (⟨S8192, .i32⟩ : BufTy).Contents (Elt F) → (⟨S8192, .i32⟩ : BufTy).Contents (Elt F)),
    ternary main_v86 main_v88 main_arg8 main_v89 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v89 main_v90 (broadcastInDim S8192x1 ![0] bcast_S8192_S8192x1_0 : (⟨S8192, .i32⟩ : BufTy).Contents (Elt F) → (⟨S8192x1, .i32⟩ : BufTy).Contents (Elt F)),
    binary main_v77 main_v90 main_v91 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    binary main_v84 main_v91 main_v92 (mulf : (⟨S8192x64, .f32⟩ : BufTy).Contents (Elt F) → (⟨S8192x64, .f32⟩ : BufTy).Contents (Elt F) → (⟨S8192x64, .f32⟩ : BufTy).Contents (Elt F)),
    nullary main_cst_13 (constant S_ .f32 0x00000000#32),
    binary main_v92 main_cst_13 main_v93 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) ]

/-- The program's operations are the nine runs in a row. -/
theorem ops_eq : (Cert.ReferenceIdeal.Value.ops : List (HloOp τ sig (Elt F)))
    = prop1 ++ (prop2 ++ (prop3 ++ (aff0 ++ (aff1 ++ (aff2 ++ (aff3 ++ (avg ++ (scoring)))))))) := rfl

/-! ## What a run writes, and what it leaves -/

/-- The arrays the run `prop1` writes. -/
abbrev prop1_W : List (Ref sig .tc) := [main_v0, main_v1, main_c, main_v2, main_v3, main_c_0, main_v4, main_v5, main_v6, main_v7, main_v8, main_v9, main_v10, main_cst, main_v11, main_v12, main_v13]
theorem prop1_writes : (prop1 : List (HloOp τ sig (Elt F))).Forall fun op => op.writes ⊆ (prop1_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- An array the run `prop1` does not write is after it as before. -/
theorem prop1_keep (W : Valuation τ sig (Elt F)) (r : Ref sig .tc) (h : r ∉ prop1_W) :
    after prop1 W (Proc.devRef .tc r) = W (Proc.devRef .tc r) := after_of_writes_sub prop1 W prop1_writes h

/-- The arrays the run `prop2` writes. -/
abbrev prop2_W : List (Ref sig .tc) := [main_v14, main_c_1, main_v15, main_v16, main_c_2, main_v17, main_v18, main_v19, main_v20, main_v21, main_v22, main_v23, main_cst_3, main_v24, main_v25, main_v26]
theorem prop2_writes : (prop2 : List (HloOp τ sig (Elt F))).Forall fun op => op.writes ⊆ (prop2_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- An array the run `prop2` does not write is after it as before. -/
theorem prop2_keep (W : Valuation τ sig (Elt F)) (r : Ref sig .tc) (h : r ∉ prop2_W) :
    after prop2 W (Proc.devRef .tc r) = W (Proc.devRef .tc r) := after_of_writes_sub prop2 W prop2_writes h

/-- The arrays the run `prop3` writes. -/
abbrev prop3_W : List (Ref sig .tc) := [main_v27, main_c_4, main_v28, main_v29, main_c_5, main_v30, main_v31, main_v32, main_v33, main_v34, main_v35, main_v36, main_cst_6, main_v37, main_v38, main_v39]
theorem prop3_writes : (prop3 : List (HloOp τ sig (Elt F))).Forall fun op => op.writes ⊆ (prop3_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- An array the run `prop3` does not write is after it as before. -/
theorem prop3_keep (W : Valuation τ sig (Elt F)) (r : Ref sig .tc) (h : r ∉ prop3_W) :
    after prop3 W (Proc.devRef .tc r) = W (Proc.devRef .tc r) := after_of_writes_sub prop3 W prop3_writes h

/-- The arrays the run `aff0` writes. -/
abbrev aff0_W : List (Ref sig .tc) := [main_v40, main_v41, main_v42, main_v43, main_v44, main_v45, main_v46]
theorem aff0_writes : (aff0 : List (HloOp τ sig (Elt F))).Forall fun op => op.writes ⊆ (aff0_W.map (Proc.devRef (τ := τ) .tc)).toFinset := by
  simp only [List.Forall]
  refine ⟨?_, ?_, ?_, ?_, ?_, ?_, ?_⟩ <;>
    (simp only [nullary_writes, unary_writes, binary_writes, ternary_writes, nary_writes, Finset.singleton_subset_iff, List.mem_toFinset]; exact List.mem_map_of_mem (by decide))
/-- An array the run `aff0` does not write is after it as before. -/
theorem aff0_keep (W : Valuation τ sig (Elt F)) (r : Ref sig .tc) (h : r ∉ aff0_W) :
    after aff0 W (Proc.devRef .tc r) = W (Proc.devRef .tc r) := after_of_writes_sub aff0 W aff0_writes h

/-- The arrays the run `aff1` writes. -/
abbrev aff1_W : List (Ref sig .tc) := [main_v47, main_v48, main_v49, main_v50, main_v51, main_v52, main_v53]
theorem aff1_writes : (aff1 : List (HloOp τ sig (Elt F))).Forall fun op => op.writes ⊆ (aff1_W.map (Proc.devRef (τ := τ) .tc)).toFinset := by
  simp only [List.Forall]
  refine ⟨?_, ?_, ?_, ?_, ?_, ?_, ?_⟩ <;>
    (simp only [nullary_writes, unary_writes, binary_writes, ternary_writes, nary_writes, Finset.singleton_subset_iff, List.mem_toFinset]; exact List.mem_map_of_mem (by decide))
/-- An array the run `aff1` does not write is after it as before. -/
theorem aff1_keep (W : Valuation τ sig (Elt F)) (r : Ref sig .tc) (h : r ∉ aff1_W) :
    after aff1 W (Proc.devRef .tc r) = W (Proc.devRef .tc r) := after_of_writes_sub aff1 W aff1_writes h

/-- The arrays the run `aff2` writes. -/
abbrev aff2_W : List (Ref sig .tc) := [main_v54, main_v55, main_v56, main_v57, main_v58, main_v59, main_v60]
theorem aff2_writes : (aff2 : List (HloOp τ sig (Elt F))).Forall fun op => op.writes ⊆ (aff2_W.map (Proc.devRef (τ := τ) .tc)).toFinset := by
  simp only [List.Forall]
  refine ⟨?_, ?_, ?_, ?_, ?_, ?_, ?_⟩ <;>
    (simp only [nullary_writes, unary_writes, binary_writes, ternary_writes, nary_writes, Finset.singleton_subset_iff, List.mem_toFinset]; exact List.mem_map_of_mem (by decide))
/-- An array the run `aff2` does not write is after it as before. -/
theorem aff2_keep (W : Valuation τ sig (Elt F)) (r : Ref sig .tc) (h : r ∉ aff2_W) :
    after aff2 W (Proc.devRef .tc r) = W (Proc.devRef .tc r) := after_of_writes_sub aff2 W aff2_writes h

/-- The arrays the run `aff3` writes. -/
abbrev aff3_W : List (Ref sig .tc) := [main_v61, main_v62, main_v63, main_v64, main_v65, main_v66, main_v67]
theorem aff3_writes : (aff3 : List (HloOp τ sig (Elt F))).Forall fun op => op.writes ⊆ (aff3_W.map (Proc.devRef (τ := τ) .tc)).toFinset := by
  simp only [List.Forall]
  refine ⟨?_, ?_, ?_, ?_, ?_, ?_, ?_⟩ <;>
    (simp only [nullary_writes, unary_writes, binary_writes, ternary_writes, nary_writes, Finset.singleton_subset_iff, List.mem_toFinset]; exact List.mem_map_of_mem (by decide))
/-- An array the run `aff3` does not write is after it as before. -/
theorem aff3_keep (W : Valuation τ sig (Elt F)) (r : Ref sig .tc) (h : r ∉ aff3_W) :
    after aff3 W (Proc.devRef .tc r) = W (Proc.devRef .tc r) := after_of_writes_sub aff3 W aff3_writes h

/-- The arrays the run `avg` writes. -/
abbrev avg_W : List (Ref sig .tc) := [main_v68, main_v69, main_v70, main_v71, main_v72, main_cst_7, main_v73, main_cst_8, main_v74, main_v75, main_v76, main_v77]
theorem avg_writes : (avg : List (HloOp τ sig (Elt F))).Forall fun op => op.writes ⊆ (avg_W.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- An array the run `avg` does not write is after it as before. -/
theorem avg_keep (W : Valuation τ sig (Elt F)) (r : Ref sig .tc) (h : r ∉ avg_W) :
    after avg W (Proc.devRef .tc r) = W (Proc.devRef .tc r) := after_of_writes_sub avg W avg_writes h

/-- The arrays the run `scoring` writes. -/
abbrev scoring_W : List (Ref sig .tc) := [main_c_9, main_v78, main_v79, main_c_10, main_v80, main_v81, main_v82, main_v83, main_v84, main_c_11, main_v85, main_v86, main_c_12, main_v87, main_v88, main_v89, main_v90, main_v91, main_v92, main_cst_13, main_v93]
theorem scoring_writes : (scoring : List (HloOp τ sig (Elt F))).Forall fun op => op.writes ⊆ (scoring_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, nary_writes, Finset.singleton_subset_iff, List.mem_toFinset]; exact List.mem_map_of_mem (by decide))
/-- An array the run `scoring` does not write is after it as before. -/
theorem scoring_keep (W : Valuation τ sig (Elt F)) (r : Ref sig .tc) (h : r ∉ scoring_W) :
    after scoring W (Proc.devRef .tc r) = W (Proc.devRef .tc r) := after_of_writes_sub scoring W scoring_writes h

/-! ## What each run leaves in its last arrays, from what it reads -/

set_option maxHeartbeats 1700000 in
theorem prop1_main_v0 (W : Valuation τ sig (Elt F)) : after prop1 W (Proc.devRef .tc main_v0)
    = val_main_v0 (F := F) (W (Proc.devRef .tc main_arg0)) (W (Proc.devRef .tc main_arg1)) := by
  simp only [prop1]; after_results_simp; rfl
set_option maxHeartbeats 1700000 in
theorem prop1_main_v13 (W : Valuation τ sig (Elt F)) : after prop1 W (Proc.devRef .tc main_v13)
    = val_main_v13 (F := F) (W (Proc.devRef .tc main_arg0)) (W (Proc.devRef .tc main_arg1)) (W (Proc.devRef .tc main_arg2)) (W (Proc.devRef .tc main_arg5)) (W (Proc.devRef .tc main_arg6)) := by
  simp only [prop1]; after_results_simp; rfl

set_option maxHeartbeats 1600000 in
theorem prop2_main_v26 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a5 : (⟨S3200000, .i32⟩ : BufTy).Contents (Elt F)) (a6 : (⟨S3200000, .i32⟩ : BufTy).Contents (Elt F))
    (hv13 : W (Proc.devRef .tc main_v13) = val_main_v13 (F := F) a0 a1 a2 a5 a6)
    (h2 : W (Proc.devRef .tc main_arg2) = a2)
    (h5 : W (Proc.devRef .tc main_arg5) = a5)
    (h6 : W (Proc.devRef .tc main_arg6) = a6) :
    after prop2 W (Proc.devRef .tc main_v26) = val_main_v26 (F := F) a0 a1 a2 a5 a6 := by
  simp only [prop2]; after_results_simp; rw [hv13, h2, h5, h6]; rfl

set_option maxHeartbeats 1600000 in
theorem prop3_main_v39 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a5 : (⟨S3200000, .i32⟩ : BufTy).Contents (Elt F)) (a6 : (⟨S3200000, .i32⟩ : BufTy).Contents (Elt F))
    (hv26 : W (Proc.devRef .tc main_v26) = val_main_v26 (F := F) a0 a1 a2 a5 a6)
    (h2 : W (Proc.devRef .tc main_arg2) = a2)
    (h5 : W (Proc.devRef .tc main_arg5) = a5)
    (h6 : W (Proc.devRef .tc main_arg6) = a6) :
    after prop3 W (Proc.devRef .tc main_v39) = val_main_v39 (F := F) a0 a1 a2 a5 a6 := by
  simp only [prop3]; after_results_simp; rw [hv26, h2, h5, h6]; rfl

theorem aff0_main_v46 (W : Valuation τ sig (Elt F)) (a0 : (⟨S100000x64, .f32⟩ : BufTy).Contents (Elt F)) (a1 : (⟨S50000x64, .f32⟩ : BufTy).Contents (Elt F)) (a3 : (⟨S64x64, .f32⟩ : BufTy).Contents (Elt F)) (a4 : (⟨S64, .f32⟩ : BufTy).Contents (Elt F))
    (hv0 : W (Proc.devRef .tc main_v0) = val_main_v0 (F := F) a0 a1)
    (h0 : W (Proc.devRef .tc main_arg0) = a0)
    (h3 : W (Proc.devRef .tc main_arg3) = a3)
    (h4 : W (Proc.devRef .tc main_arg4) = a4) :
    after aff0 W (Proc.devRef .tc main_v46) = val_main_v46 (F := F) a0 a1 a3 a4 := by
  simp only [aff0]; after_results; rw [hv0, h0, h3, h4]; rfl

theorem aff1_main_v53 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a3 : (⟨S64x64, .f32⟩ : BufTy).Contents (Elt F)) (a4 : (⟨S64, .f32⟩ : BufTy).Contents (Elt F)) (a5 : (⟨S3200000, .i32⟩ : BufTy).Contents (Elt F)) (a6 : (⟨S3200000, .i32⟩ : BufTy).Contents (Elt F))
    (hv13 : W (Proc.devRef .tc main_v13) = val_main_v13 (F := F) a0 a1 a2 a5 a6)
    (h0 : W (Proc.devRef .tc main_arg0) = a0)
    (h3 : W (Proc.devRef .tc main_arg3) = a3)
    (h4 : W (Proc.devRef .tc main_arg4) = a4) :
    after aff1 W (Proc.devRef .tc main_v53) = val_main_v53 (F := F) a0 a1 a2 a3 a4 a5 a6 := by
  simp only [aff1]; after_results; rw [hv13, h0, h3, h4]; rfl

theorem aff2_main_v60 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a3 : (⟨S64x64, .f32⟩ : BufTy).Contents (Elt F)) (a4 : (⟨S64, .f32⟩ : BufTy).Contents (Elt F)) (a5 : (⟨S3200000, .i32⟩ : BufTy).Contents (Elt F)) (a6 : (⟨S3200000, .i32⟩ : BufTy).Contents (Elt F))
    (hv26 : W (Proc.devRef .tc main_v26) = val_main_v26 (F := F) a0 a1 a2 a5 a6)
    (h0 : W (Proc.devRef .tc main_arg0) = a0)
    (h3 : W (Proc.devRef .tc main_arg3) = a3)
    (h4 : W (Proc.devRef .tc main_arg4) = a4) :
    after aff2 W (Proc.devRef .tc main_v60) = val_main_v60 (F := F) a0 a1 a2 a3 a4 a5 a6 := by
  simp only [aff2]; after_results; rw [hv26, h0, h3, h4]; rfl

theorem aff3_main_v67 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a3 : (⟨S64x64, .f32⟩ : BufTy).Contents (Elt F)) (a4 : (⟨S64, .f32⟩ : BufTy).Contents (Elt F)) (a5 : (⟨S3200000, .i32⟩ : BufTy).Contents (Elt F)) (a6 : (⟨S3200000, .i32⟩ : BufTy).Contents (Elt F))
    (hv39 : W (Proc.devRef .tc main_v39) = val_main_v39 (F := F) a0 a1 a2 a5 a6)
    (h0 : W (Proc.devRef .tc main_arg0) = a0)
    (h3 : W (Proc.devRef .tc main_arg3) = a3)
    (h4 : W (Proc.devRef .tc main_arg4) = a4) :
    after aff3 W (Proc.devRef .tc main_v67) = val_main_v67 (F := F) a0 a1 a2 a3 a4 a5 a6 := by
  simp only [aff3]; after_results; rw [hv39, h0, h3, h4]; rfl

-- This run joins four arrays in one operation: the joined array is read with each of its four pieces at the piece's
-- own array, and each piece is then one of the four arrays the run reads, spread over a middle axis of extent one.
set_option maxHeartbeats 1200000 in
theorem avg_main_v76 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a3 : (⟨S64x64, .f32⟩ : BufTy).Contents (Elt F)) (a4 : (⟨S64, .f32⟩ : BufTy).Contents (Elt F)) (a5 : (⟨S3200000, .i32⟩ : BufTy).Contents (Elt F)) (a6 : (⟨S3200000, .i32⟩ : BufTy).Contents (Elt F))
    (hv46 : W (Proc.devRef .tc main_v46) = val_main_v46 (F := F) a0 a1 a3 a4)
    (hv53 : W (Proc.devRef .tc main_v53) = val_main_v53 (F := F) a0 a1 a2 a3 a4 a5 a6)
    (hv60 : W (Proc.devRef .tc main_v60) = val_main_v60 (F := F) a0 a1 a2 a3 a4 a5 a6)
    (hv67 : W (Proc.devRef .tc main_v67) = val_main_v67 (F := F) a0 a1 a2 a3 a4 a5 a6) :
    after avg W (Proc.devRef .tc main_v76) = val_main_v76 (F := F) a0 a1 a2 a3 a4 a5 a6 := by
  simp only [avg]
  simp only [after_cons, after_nil]
  repeat (first
    | rw [nullary_result] | rw [unary_result] | rw [binary_result] | rw [nary4_result]
    | (rw [nullary_result_ne]; rotate_left; decide)
    | (rw [unary_result_ne]; rotate_left; decide)
    | (rw [binary_result_ne]; rotate_left; decide)
    | (rw [nary_result_ne]; rotate_left; decide))
  rw [hv46, hv53, hv60, hv67]
  rfl
set_option maxHeartbeats 1200000 in
theorem avg_main_v77 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a3 : (⟨S64x64, .f32⟩ : BufTy).Contents (Elt F)) (a4 : (⟨S64, .f32⟩ : BufTy).Contents (Elt F)) (a5 : (⟨S3200000, .i32⟩ : BufTy).Contents (Elt F)) (a6 : (⟨S3200000, .i32⟩ : BufTy).Contents (Elt F))
    (hv46 : W (Proc.devRef .tc main_v46) = val_main_v46 (F := F) a0 a1 a3 a4)
    (hv53 : W (Proc.devRef .tc main_v53) = val_main_v53 (F := F) a0 a1 a2 a3 a4 a5 a6)
    (hv60 : W (Proc.devRef .tc main_v60) = val_main_v60 (F := F) a0 a1 a2 a3 a4 a5 a6)
    (hv67 : W (Proc.devRef .tc main_v67) = val_main_v67 (F := F) a0 a1 a2 a3 a4 a5 a6) :
    after avg W (Proc.devRef .tc main_v77) = val_main_v77 (F := F) a0 a1 a2 a3 a4 a5 a6 := by
  simp only [avg]
  simp only [after_cons, after_nil]
  repeat (first
    | rw [nullary_result] | rw [unary_result] | rw [binary_result] | rw [nary4_result]
    | (rw [nullary_result_ne]; rotate_left; decide)
    | (rw [unary_result_ne]; rotate_left; decide)
    | (rw [binary_result_ne]; rotate_left; decide)
    | (rw [nary_result_ne]; rotate_left; decide))
  rw [hv46, hv53, hv60, hv67]
  rfl

set_option maxHeartbeats 2100000 in
theorem scoring_main_v93 (W : Valuation τ sig (Elt F)) (a0 : (⟨S100000x64, .f32⟩ : BufTy).Contents (Elt F)) (a1 : (⟨S50000x64, .f32⟩ : BufTy).Contents (Elt F)) (a2 : (⟨S3200000, .f32⟩ : BufTy).Contents (Elt F)) (a3 : (⟨S64x64, .f32⟩ : BufTy).Contents (Elt F)) (a4 : (⟨S64, .f32⟩ : BufTy).Contents (Elt F)) (a5 : (⟨S3200000, .i32⟩ : BufTy).Contents (Elt F)) (a6 : (⟨S3200000, .i32⟩ : BufTy).Contents (Elt F)) (a7 : (⟨S8192, .i32⟩ : BufTy).Contents (Elt F)) (a8 : (⟨S8192, .i32⟩ : BufTy).Contents (Elt F))
    (hv76 : W (Proc.devRef .tc main_v76) = val_main_v76 (F := F) a0 a1 a2 a3 a4 a5 a6)
    (hv77 : W (Proc.devRef .tc main_v77) = val_main_v77 (F := F) a0 a1 a2 a3 a4 a5 a6)
    (h7 : W (Proc.devRef .tc main_arg7) = a7)
    (h8 : W (Proc.devRef .tc main_arg8) = a8) :
    after scoring W (Proc.devRef .tc main_v93) = val_main_v93 (F := F) a0 a1 a2 a3 a4 a5 a6 a7 a8 := by
  simp only [scoring]; after_results_simp; rw [hv76, hv77, h7, h8]; rfl

/-! ## The arrays after one, two, … nine runs -/

/-- The argument arrays of a valuation. -/
abbrev arg0 (V : Valuation τ sig (Elt F)) : (⟨S100000x64, .f32⟩ : BufTy).Contents (Elt F) := V (Proc.devRef .tc main_arg0)
abbrev arg1 (V : Valuation τ sig (Elt F)) : (⟨S50000x64, .f32⟩ : BufTy).Contents (Elt F) := V (Proc.devRef .tc main_arg1)
abbrev arg2 (V : Valuation τ sig (Elt F)) : (⟨S3200000, .f32⟩ : BufTy).Contents (Elt F) := V (Proc.devRef .tc main_arg2)
abbrev arg3 (V : Valuation τ sig (Elt F)) : (⟨S64x64, .f32⟩ : BufTy).Contents (Elt F) := V (Proc.devRef .tc main_arg3)
abbrev arg4 (V : Valuation τ sig (Elt F)) : (⟨S64, .f32⟩ : BufTy).Contents (Elt F) := V (Proc.devRef .tc main_arg4)
abbrev arg5 (V : Valuation τ sig (Elt F)) : (⟨S3200000, .i32⟩ : BufTy).Contents (Elt F) := V (Proc.devRef .tc main_arg5)
abbrev arg6 (V : Valuation τ sig (Elt F)) : (⟨S3200000, .i32⟩ : BufTy).Contents (Elt F) := V (Proc.devRef .tc main_arg6)
abbrev arg7 (V : Valuation τ sig (Elt F)) : (⟨S8192, .i32⟩ : BufTy).Contents (Elt F) := V (Proc.devRef .tc main_arg7)
abbrev arg8 (V : Valuation τ sig (Elt F)) : (⟨S8192, .i32⟩ : BufTy).Contents (Elt F) := V (Proc.devRef .tc main_arg8)

/-- The arrays after the first run. -/
def st1 (V : Valuation τ sig (Elt F)) : Valuation τ sig (Elt F) := after prop1 (V)
/-- The arrays after the first 2 runs. -/
def st2 (V : Valuation τ sig (Elt F)) : Valuation τ sig (Elt F) := after prop2 (st1 V)
/-- The arrays after the first 3 runs. -/
def st3 (V : Valuation τ sig (Elt F)) : Valuation τ sig (Elt F) := after prop3 (st2 V)
/-- The arrays after the first 4 runs. -/
def st4 (V : Valuation τ sig (Elt F)) : Valuation τ sig (Elt F) := after aff0 (st3 V)
/-- The arrays after the first 5 runs. -/
def st5 (V : Valuation τ sig (Elt F)) : Valuation τ sig (Elt F) := after aff1 (st4 V)
/-- The arrays after the first 6 runs. -/
def st6 (V : Valuation τ sig (Elt F)) : Valuation τ sig (Elt F) := after aff2 (st5 V)
/-- The arrays after the first 7 runs. -/
def st7 (V : Valuation τ sig (Elt F)) : Valuation τ sig (Elt F) := after aff3 (st6 V)
/-- The arrays after the first 8 runs. -/
def st8 (V : Valuation τ sig (Elt F)) : Valuation τ sig (Elt F) := after avg (st7 V)
/-- The arrays after the first 9 runs. -/
def st9 (V : Valuation τ sig (Elt F)) : Valuation τ sig (Elt F) := after scoring (st8 V)

theorem st1_v0 (V : Valuation τ sig (Elt F)) : st1 V (Proc.devRef .tc main_v0) = val_main_v0 (F := F) (arg0 V) (arg1 V) :=
  prop1_main_v0 V
theorem st1_v13 (V : Valuation τ sig (Elt F)) : st1 V (Proc.devRef .tc main_v13) = val_main_v13 (F := F) (arg0 V) (arg1 V) (arg2 V) (arg5 V) (arg6 V) :=
  prop1_main_v13 V
theorem st1_arg0 (V : Valuation τ sig (Elt F)) : st1 V (Proc.devRef .tc main_arg0) = arg0 V :=
  prop1_keep V main_arg0 (by decide)
theorem st1_arg2 (V : Valuation τ sig (Elt F)) : st1 V (Proc.devRef .tc main_arg2) = arg2 V :=
  prop1_keep V main_arg2 (by decide)
theorem st1_arg3 (V : Valuation τ sig (Elt F)) : st1 V (Proc.devRef .tc main_arg3) = arg3 V :=
  prop1_keep V main_arg3 (by decide)
theorem st1_arg4 (V : Valuation τ sig (Elt F)) : st1 V (Proc.devRef .tc main_arg4) = arg4 V :=
  prop1_keep V main_arg4 (by decide)
theorem st1_arg5 (V : Valuation τ sig (Elt F)) : st1 V (Proc.devRef .tc main_arg5) = arg5 V :=
  prop1_keep V main_arg5 (by decide)
theorem st1_arg6 (V : Valuation τ sig (Elt F)) : st1 V (Proc.devRef .tc main_arg6) = arg6 V :=
  prop1_keep V main_arg6 (by decide)
theorem st1_arg7 (V : Valuation τ sig (Elt F)) : st1 V (Proc.devRef .tc main_arg7) = arg7 V :=
  prop1_keep V main_arg7 (by decide)
theorem st1_arg8 (V : Valuation τ sig (Elt F)) : st1 V (Proc.devRef .tc main_arg8) = arg8 V :=
  prop1_keep V main_arg8 (by decide)

theorem st2_v0 (V : Valuation τ sig (Elt F)) : st2 V (Proc.devRef .tc main_v0) = val_main_v0 (F := F) (arg0 V) (arg1 V) :=
  (prop2_keep (st1 V) main_v0 (by decide)).trans (st1_v0 V)
theorem st2_v13 (V : Valuation τ sig (Elt F)) : st2 V (Proc.devRef .tc main_v13) = val_main_v13 (F := F) (arg0 V) (arg1 V) (arg2 V) (arg5 V) (arg6 V) :=
  (prop2_keep (st1 V) main_v13 (by decide)).trans (st1_v13 V)
theorem st2_v26 (V : Valuation τ sig (Elt F)) : st2 V (Proc.devRef .tc main_v26) = val_main_v26 (F := F) (arg0 V) (arg1 V) (arg2 V) (arg5 V) (arg6 V) :=
  prop2_main_v26 (st1 V) (arg0 V) (arg1 V) (arg2 V) (arg5 V) (arg6 V) (st1_v13 V) (st1_arg2 V) (st1_arg5 V) (st1_arg6 V)
theorem st2_arg0 (V : Valuation τ sig (Elt F)) : st2 V (Proc.devRef .tc main_arg0) = arg0 V :=
  (prop2_keep (st1 V) main_arg0 (by decide)).trans (st1_arg0 V)
theorem st2_arg2 (V : Valuation τ sig (Elt F)) : st2 V (Proc.devRef .tc main_arg2) = arg2 V :=
  (prop2_keep (st1 V) main_arg2 (by decide)).trans (st1_arg2 V)
theorem st2_arg3 (V : Valuation τ sig (Elt F)) : st2 V (Proc.devRef .tc main_arg3) = arg3 V :=
  (prop2_keep (st1 V) main_arg3 (by decide)).trans (st1_arg3 V)
theorem st2_arg4 (V : Valuation τ sig (Elt F)) : st2 V (Proc.devRef .tc main_arg4) = arg4 V :=
  (prop2_keep (st1 V) main_arg4 (by decide)).trans (st1_arg4 V)
theorem st2_arg5 (V : Valuation τ sig (Elt F)) : st2 V (Proc.devRef .tc main_arg5) = arg5 V :=
  (prop2_keep (st1 V) main_arg5 (by decide)).trans (st1_arg5 V)
theorem st2_arg6 (V : Valuation τ sig (Elt F)) : st2 V (Proc.devRef .tc main_arg6) = arg6 V :=
  (prop2_keep (st1 V) main_arg6 (by decide)).trans (st1_arg6 V)
theorem st2_arg7 (V : Valuation τ sig (Elt F)) : st2 V (Proc.devRef .tc main_arg7) = arg7 V :=
  (prop2_keep (st1 V) main_arg7 (by decide)).trans (st1_arg7 V)
theorem st2_arg8 (V : Valuation τ sig (Elt F)) : st2 V (Proc.devRef .tc main_arg8) = arg8 V :=
  (prop2_keep (st1 V) main_arg8 (by decide)).trans (st1_arg8 V)

theorem st3_v0 (V : Valuation τ sig (Elt F)) : st3 V (Proc.devRef .tc main_v0) = val_main_v0 (F := F) (arg0 V) (arg1 V) :=
  (prop3_keep (st2 V) main_v0 (by decide)).trans (st2_v0 V)
theorem st3_v13 (V : Valuation τ sig (Elt F)) : st3 V (Proc.devRef .tc main_v13) = val_main_v13 (F := F) (arg0 V) (arg1 V) (arg2 V) (arg5 V) (arg6 V) :=
  (prop3_keep (st2 V) main_v13 (by decide)).trans (st2_v13 V)
theorem st3_v26 (V : Valuation τ sig (Elt F)) : st3 V (Proc.devRef .tc main_v26) = val_main_v26 (F := F) (arg0 V) (arg1 V) (arg2 V) (arg5 V) (arg6 V) :=
  (prop3_keep (st2 V) main_v26 (by decide)).trans (st2_v26 V)
theorem st3_v39 (V : Valuation τ sig (Elt F)) : st3 V (Proc.devRef .tc main_v39) = val_main_v39 (F := F) (arg0 V) (arg1 V) (arg2 V) (arg5 V) (arg6 V) :=
  prop3_main_v39 (st2 V) (arg0 V) (arg1 V) (arg2 V) (arg5 V) (arg6 V) (st2_v26 V) (st2_arg2 V) (st2_arg5 V) (st2_arg6 V)
theorem st3_arg0 (V : Valuation τ sig (Elt F)) : st3 V (Proc.devRef .tc main_arg0) = arg0 V :=
  (prop3_keep (st2 V) main_arg0 (by decide)).trans (st2_arg0 V)
theorem st3_arg3 (V : Valuation τ sig (Elt F)) : st3 V (Proc.devRef .tc main_arg3) = arg3 V :=
  (prop3_keep (st2 V) main_arg3 (by decide)).trans (st2_arg3 V)
theorem st3_arg4 (V : Valuation τ sig (Elt F)) : st3 V (Proc.devRef .tc main_arg4) = arg4 V :=
  (prop3_keep (st2 V) main_arg4 (by decide)).trans (st2_arg4 V)
theorem st3_arg7 (V : Valuation τ sig (Elt F)) : st3 V (Proc.devRef .tc main_arg7) = arg7 V :=
  (prop3_keep (st2 V) main_arg7 (by decide)).trans (st2_arg7 V)
theorem st3_arg8 (V : Valuation τ sig (Elt F)) : st3 V (Proc.devRef .tc main_arg8) = arg8 V :=
  (prop3_keep (st2 V) main_arg8 (by decide)).trans (st2_arg8 V)

theorem st4_v13 (V : Valuation τ sig (Elt F)) : st4 V (Proc.devRef .tc main_v13) = val_main_v13 (F := F) (arg0 V) (arg1 V) (arg2 V) (arg5 V) (arg6 V) :=
  (aff0_keep (st3 V) main_v13 (by decide)).trans (st3_v13 V)
theorem st4_v26 (V : Valuation τ sig (Elt F)) : st4 V (Proc.devRef .tc main_v26) = val_main_v26 (F := F) (arg0 V) (arg1 V) (arg2 V) (arg5 V) (arg6 V) :=
  (aff0_keep (st3 V) main_v26 (by decide)).trans (st3_v26 V)
theorem st4_v39 (V : Valuation τ sig (Elt F)) : st4 V (Proc.devRef .tc main_v39) = val_main_v39 (F := F) (arg0 V) (arg1 V) (arg2 V) (arg5 V) (arg6 V) :=
  (aff0_keep (st3 V) main_v39 (by decide)).trans (st3_v39 V)
theorem st4_v46 (V : Valuation τ sig (Elt F)) : st4 V (Proc.devRef .tc main_v46) = val_main_v46 (F := F) (arg0 V) (arg1 V) (arg3 V) (arg4 V) :=
  aff0_main_v46 (st3 V) (arg0 V) (arg1 V) (arg3 V) (arg4 V) (st3_v0 V) (st3_arg0 V) (st3_arg3 V) (st3_arg4 V)
theorem st4_arg0 (V : Valuation τ sig (Elt F)) : st4 V (Proc.devRef .tc main_arg0) = arg0 V :=
  (aff0_keep (st3 V) main_arg0 (by decide)).trans (st3_arg0 V)
theorem st4_arg3 (V : Valuation τ sig (Elt F)) : st4 V (Proc.devRef .tc main_arg3) = arg3 V :=
  (aff0_keep (st3 V) main_arg3 (by decide)).trans (st3_arg3 V)
theorem st4_arg4 (V : Valuation τ sig (Elt F)) : st4 V (Proc.devRef .tc main_arg4) = arg4 V :=
  (aff0_keep (st3 V) main_arg4 (by decide)).trans (st3_arg4 V)
theorem st4_arg7 (V : Valuation τ sig (Elt F)) : st4 V (Proc.devRef .tc main_arg7) = arg7 V :=
  (aff0_keep (st3 V) main_arg7 (by decide)).trans (st3_arg7 V)
theorem st4_arg8 (V : Valuation τ sig (Elt F)) : st4 V (Proc.devRef .tc main_arg8) = arg8 V :=
  (aff0_keep (st3 V) main_arg8 (by decide)).trans (st3_arg8 V)

theorem st5_v26 (V : Valuation τ sig (Elt F)) : st5 V (Proc.devRef .tc main_v26) = val_main_v26 (F := F) (arg0 V) (arg1 V) (arg2 V) (arg5 V) (arg6 V) :=
  (aff1_keep (st4 V) main_v26 (by decide)).trans (st4_v26 V)
theorem st5_v39 (V : Valuation τ sig (Elt F)) : st5 V (Proc.devRef .tc main_v39) = val_main_v39 (F := F) (arg0 V) (arg1 V) (arg2 V) (arg5 V) (arg6 V) :=
  (aff1_keep (st4 V) main_v39 (by decide)).trans (st4_v39 V)
theorem st5_v46 (V : Valuation τ sig (Elt F)) : st5 V (Proc.devRef .tc main_v46) = val_main_v46 (F := F) (arg0 V) (arg1 V) (arg3 V) (arg4 V) :=
  (aff1_keep (st4 V) main_v46 (by decide)).trans (st4_v46 V)
theorem st5_v53 (V : Valuation τ sig (Elt F)) : st5 V (Proc.devRef .tc main_v53) = val_main_v53 (F := F) (arg0 V) (arg1 V) (arg2 V) (arg3 V) (arg4 V) (arg5 V) (arg6 V) :=
  aff1_main_v53 (st4 V) (arg0 V) (arg1 V) (arg2 V) (arg3 V) (arg4 V) (arg5 V) (arg6 V) (st4_v13 V) (st4_arg0 V) (st4_arg3 V) (st4_arg4 V)
theorem st5_arg0 (V : Valuation τ sig (Elt F)) : st5 V (Proc.devRef .tc main_arg0) = arg0 V :=
  (aff1_keep (st4 V) main_arg0 (by decide)).trans (st4_arg0 V)
theorem st5_arg3 (V : Valuation τ sig (Elt F)) : st5 V (Proc.devRef .tc main_arg3) = arg3 V :=
  (aff1_keep (st4 V) main_arg3 (by decide)).trans (st4_arg3 V)
theorem st5_arg4 (V : Valuation τ sig (Elt F)) : st5 V (Proc.devRef .tc main_arg4) = arg4 V :=
  (aff1_keep (st4 V) main_arg4 (by decide)).trans (st4_arg4 V)
theorem st5_arg7 (V : Valuation τ sig (Elt F)) : st5 V (Proc.devRef .tc main_arg7) = arg7 V :=
  (aff1_keep (st4 V) main_arg7 (by decide)).trans (st4_arg7 V)
theorem st5_arg8 (V : Valuation τ sig (Elt F)) : st5 V (Proc.devRef .tc main_arg8) = arg8 V :=
  (aff1_keep (st4 V) main_arg8 (by decide)).trans (st4_arg8 V)

theorem st6_v39 (V : Valuation τ sig (Elt F)) : st6 V (Proc.devRef .tc main_v39) = val_main_v39 (F := F) (arg0 V) (arg1 V) (arg2 V) (arg5 V) (arg6 V) :=
  (aff2_keep (st5 V) main_v39 (by decide)).trans (st5_v39 V)
theorem st6_v46 (V : Valuation τ sig (Elt F)) : st6 V (Proc.devRef .tc main_v46) = val_main_v46 (F := F) (arg0 V) (arg1 V) (arg3 V) (arg4 V) :=
  (aff2_keep (st5 V) main_v46 (by decide)).trans (st5_v46 V)
theorem st6_v53 (V : Valuation τ sig (Elt F)) : st6 V (Proc.devRef .tc main_v53) = val_main_v53 (F := F) (arg0 V) (arg1 V) (arg2 V) (arg3 V) (arg4 V) (arg5 V) (arg6 V) :=
  (aff2_keep (st5 V) main_v53 (by decide)).trans (st5_v53 V)
theorem st6_v60 (V : Valuation τ sig (Elt F)) : st6 V (Proc.devRef .tc main_v60) = val_main_v60 (F := F) (arg0 V) (arg1 V) (arg2 V) (arg3 V) (arg4 V) (arg5 V) (arg6 V) :=
  aff2_main_v60 (st5 V) (arg0 V) (arg1 V) (arg2 V) (arg3 V) (arg4 V) (arg5 V) (arg6 V) (st5_v26 V) (st5_arg0 V) (st5_arg3 V) (st5_arg4 V)
theorem st6_arg0 (V : Valuation τ sig (Elt F)) : st6 V (Proc.devRef .tc main_arg0) = arg0 V :=
  (aff2_keep (st5 V) main_arg0 (by decide)).trans (st5_arg0 V)
theorem st6_arg3 (V : Valuation τ sig (Elt F)) : st6 V (Proc.devRef .tc main_arg3) = arg3 V :=
  (aff2_keep (st5 V) main_arg3 (by decide)).trans (st5_arg3 V)
theorem st6_arg4 (V : Valuation τ sig (Elt F)) : st6 V (Proc.devRef .tc main_arg4) = arg4 V :=
  (aff2_keep (st5 V) main_arg4 (by decide)).trans (st5_arg4 V)
theorem st6_arg7 (V : Valuation τ sig (Elt F)) : st6 V (Proc.devRef .tc main_arg7) = arg7 V :=
  (aff2_keep (st5 V) main_arg7 (by decide)).trans (st5_arg7 V)
theorem st6_arg8 (V : Valuation τ sig (Elt F)) : st6 V (Proc.devRef .tc main_arg8) = arg8 V :=
  (aff2_keep (st5 V) main_arg8 (by decide)).trans (st5_arg8 V)

theorem st7_v46 (V : Valuation τ sig (Elt F)) : st7 V (Proc.devRef .tc main_v46) = val_main_v46 (F := F) (arg0 V) (arg1 V) (arg3 V) (arg4 V) :=
  (aff3_keep (st6 V) main_v46 (by decide)).trans (st6_v46 V)
theorem st7_v53 (V : Valuation τ sig (Elt F)) : st7 V (Proc.devRef .tc main_v53) = val_main_v53 (F := F) (arg0 V) (arg1 V) (arg2 V) (arg3 V) (arg4 V) (arg5 V) (arg6 V) :=
  (aff3_keep (st6 V) main_v53 (by decide)).trans (st6_v53 V)
theorem st7_v60 (V : Valuation τ sig (Elt F)) : st7 V (Proc.devRef .tc main_v60) = val_main_v60 (F := F) (arg0 V) (arg1 V) (arg2 V) (arg3 V) (arg4 V) (arg5 V) (arg6 V) :=
  (aff3_keep (st6 V) main_v60 (by decide)).trans (st6_v60 V)
theorem st7_v67 (V : Valuation τ sig (Elt F)) : st7 V (Proc.devRef .tc main_v67) = val_main_v67 (F := F) (arg0 V) (arg1 V) (arg2 V) (arg3 V) (arg4 V) (arg5 V) (arg6 V) :=
  aff3_main_v67 (st6 V) (arg0 V) (arg1 V) (arg2 V) (arg3 V) (arg4 V) (arg5 V) (arg6 V) (st6_v39 V) (st6_arg0 V) (st6_arg3 V) (st6_arg4 V)
theorem st7_arg7 (V : Valuation τ sig (Elt F)) : st7 V (Proc.devRef .tc main_arg7) = arg7 V :=
  (aff3_keep (st6 V) main_arg7 (by decide)).trans (st6_arg7 V)
theorem st7_arg8 (V : Valuation τ sig (Elt F)) : st7 V (Proc.devRef .tc main_arg8) = arg8 V :=
  (aff3_keep (st6 V) main_arg8 (by decide)).trans (st6_arg8 V)

theorem st8_v76 (V : Valuation τ sig (Elt F)) : st8 V (Proc.devRef .tc main_v76) = val_main_v76 (F := F) (arg0 V) (arg1 V) (arg2 V) (arg3 V) (arg4 V) (arg5 V) (arg6 V) :=
  avg_main_v76 (st7 V) (arg0 V) (arg1 V) (arg2 V) (arg3 V) (arg4 V) (arg5 V) (arg6 V) (st7_v46 V) (st7_v53 V) (st7_v60 V) (st7_v67 V)
theorem st8_v77 (V : Valuation τ sig (Elt F)) : st8 V (Proc.devRef .tc main_v77) = val_main_v77 (F := F) (arg0 V) (arg1 V) (arg2 V) (arg3 V) (arg4 V) (arg5 V) (arg6 V) :=
  avg_main_v77 (st7 V) (arg0 V) (arg1 V) (arg2 V) (arg3 V) (arg4 V) (arg5 V) (arg6 V) (st7_v46 V) (st7_v53 V) (st7_v60 V) (st7_v67 V)
theorem st8_arg7 (V : Valuation τ sig (Elt F)) : st8 V (Proc.devRef .tc main_arg7) = arg7 V :=
  (avg_keep (st7 V) main_arg7 (by decide)).trans (st7_arg7 V)
theorem st8_arg8 (V : Valuation τ sig (Elt F)) : st8 V (Proc.devRef .tc main_arg8) = arg8 V :=
  (avg_keep (st7 V) main_arg8 (by decide)).trans (st7_arg8 V)

theorem st9_v93 (V : Valuation τ sig (Elt F)) : st9 V (Proc.devRef .tc main_v93) = val_main_v93 (F := F) (arg0 V) (arg1 V) (arg2 V) (arg3 V) (arg4 V) (arg5 V) (arg6 V) (arg7 V) (arg8 V) :=
  scoring_main_v93 (st8 V) (arg0 V) (arg1 V) (arg2 V) (arg3 V) (arg4 V) (arg5 V) (arg6 V) (arg7 V) (arg8 V) (st8_v76 V) (st8_v77 V) (st8_arg7 V) (st8_arg8 V)

/-! ## The whole list -/

/-- The nine runs in a row are the ninth stage. -/
theorem after_ops_eq (V : Valuation τ sig (Elt F)) : after (Cert.ReferenceIdeal.Value.ops (F := F)) V = st9 V := by
  rw [ops_eq]
  simp only [StableHlo.after_append]
  rfl

/-- After the program's operations the result array holds the staged value of the argument arrays. -/
theorem after_ops_v93 (V : Valuation τ sig (Elt F)) : StableHlo.after (Cert.ReferenceIdeal.Value.ops (F := F)) V (Proc.devRef .tc main_v93)
    = Cert.ReferenceIdeal.Read.val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops_eq]
  exact st9_v93 V

end Cert.ReferenceIdeal.RefLink

end
-- ==== Proof.Mean.lean ====
/-
  Real-number facts the two programs' agreement rests on, over arrays of extended reals every entry of which is a real.

  The mean of four copies of a real is that real; the mean of four affine images is the affine image of the mean
  (the affine map is x ↦ x · Wᵀ + b, and a finite sum of reals distributes over a real factor); a propagation step maps
  arrays of reals to arrays of reals (a finite sum of products of reals is a real).
-/
import proofs.«430620_j47536698032634_3_alg».proof.Proof.Spec
import Idealize.ShloMosaic.PureOps.Ideal.Laws

noncomputable section

open scoped BigOperators

namespace Cert.Mean

open Idealize.ShloMosaic Idealize.ShloMosaic.ValueIdx Cert.Spec

/-- The f32 zero pattern is the real 0 and the f32 pattern 0x40800000 is the real 4. -/
theorem zero32_eq : zero32 = 0 := by
  unfold zero32
  exact Ideal.ofBits_zero_f32
theorem four32_eq : four32 = ((4 : ℝ) : EReal) := by
  unfold four32
  simp [Ideal.ofBits, Ideal.ieee, -EReal.coe_mul]
  norm_num

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A finite sum of extended reals each of which is a real is a real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- The f32 zero is a real. -/
theorem exists_real_zero32 : ∃ r : ℝ, zero32 = (r : EReal) := ⟨0, by rw [zero32_eq, EReal.coe_zero]⟩

/-- A real plus a finite sum of reals is a real. -/
theorem exists_real_add_sum {ι : Type*} (s : Finset ι) (c : EReal) (f : ι → EReal) (hc : ∃ r : ℝ, c = (r : EReal))
    (hf : ∀ i, ∃ r : ℝ, f i = (r : EReal)) : ∃ r : ℝ, c + ∑ i ∈ s, f i = (r : EReal) := by
  obtain ⟨p, hp⟩ := hc
  obtain ⟨r, hr⟩ := exists_real_sum s f hf
  exact ⟨p + r, by rw [hp, hr, EReal.coe_add]⟩

/-- The mean of four copies of a real entry is the entry. -/
theorem users_mean (U : SU.Idx → EReal) (hU : RealArr U) (y : SU.Idx) :
    Ideal.div (zero32 + ∑ _l : Fin 4, U y) four32 = U y := by
  obtain ⟨r, hr⟩ := hU y
  rw [hr, zero32_eq, four32_eq, zero_add, Ideal.div_coe (by norm_num), Fin.sum_univ_four]
  have h : (r + r + r + r) * (1 / 4 : ℝ) = r := by ring
  exact_mod_cast h

/-- The identity among reals behind `items_mean`: a quarter of the sum of the four affine images is the affine image of
    the quarter of the sum of the four arguments. -/
theorem real_mean (a : Fin 4 → Fin 64 → ℝ) (w : Fin 64 → ℝ) (β : ℝ) :
    (∑ l : Fin 4, ((∑ k : Fin 64, a l k * w k) + β)) * (1 / 4 : ℝ)
      = (∑ k : Fin 64, (∑ l : Fin 4, a l k) * (1 / 4 : ℝ) * w k) + β := by
  have h : ∀ k, (∑ l : Fin 4, a l k) * (1 / 4 : ℝ) * w k = (1 / 4 : ℝ) * ∑ l : Fin 4, a l k * w k := by
    intro k
    rw [Finset.sum_mul, Finset.sum_mul, Finset.mul_sum]
    exact Finset.sum_congr rfl fun l _ => by ring
  simp only [h]
  rw [← Finset.mul_sum, Finset.sum_comm, Finset.sum_add_distrib, Finset.sum_const, Finset.card_univ, Fintype.card_fin]
  simp only [nsmul_eq_mul]
  push_cast
  ring

/-- The mean over four item arrays of their affine images is the affine image of their mean, entry by entry. -/
theorem items_mean (I : Fin 4 → SI.Idx → EReal) (W : SW.Idx → EReal) (b : SB.Idx → EReal)
    (hI : ∀ l, RealArr (I l)) (hW : RealArr W) (hb : RealArr b) (y : SI.Idx) :
    Ideal.div (zero32 + ∑ l : Fin 4, ((∑ k : Fin 64, I l (ix2 (y 0) k) * W (ix2 (y 1) k)) + b (ix1 (y 1)))) four32
      = combineI I W b y := by
  have hI' : ∀ l i, ∃ r : ℝ, I l i = (r : EReal) := hI
  have hW' : ∀ i, ∃ r : ℝ, W i = (r : EReal) := hW
  have hb' : ∀ i, ∃ r : ℝ, b i = (r : EReal) := hb
  choose a ha using hI'
  choose w hw using hW'
  choose β hβ using hb'
  unfold combineI
  simp only [ha, hw, hβ]
  rw [zero32_eq, four32_eq, zero_add, Ideal.div_coe (by norm_num)]
  simp only [Ideal.div_coe (show (4 : ℝ) ≠ 0 by norm_num)]
  simp only [← EReal.coe_mul, ← coe_sum, ← EReal.coe_add]
  exact congrArg _ (real_mean (fun l k => a l (ix2 (y 0) k)) (fun k => w (ix2 (y 1) k)) (β (ix1 (y 1))))

/-- A row-wise inner product started from the f32 zero is the inner product. -/
theorem score_zero (u a : SQ64.Idx → EReal) (q : Fin 8192) :
    zero32 + ∑ k : Fin 64, u (ix2 q k) * a (ix2 q k) = score u a (ix2 q (0 : Fin 1)) := by
  rw [zero32_eq, zero_add]
  rfl

/-- Gathering rows of an array of reals gives an array of reals. -/
theorem realArr_gather {s si t : Shape} {w : Nat} (d : GatherDims s si t) (x : s.Idx → EReal) (idx : IVec si w)
    (hx : RealArr x) : RealArr (Host.gather d x idx) :=
  fun j => hx (d.operandIdx j idx)

/-- Adding real updates into an array of reals gives an array of reals, whatever the shapes and the indices: an entry
    of the result is the operand's entry plus the finite sum of the updates landing there. -/
theorem exists_real_scatterAdd {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Host.scatterAdd (F := Ideal) (φ := .f32) d x idx upd i = (r : EReal) :=
  exists_real_add_sum _ _ _ (hx i) hu

/-- An edge's message is a real when the gathered features and the weights are. -/
theorem exists_real_edgeScale (x : SM.Idx → EReal) (val : SE.Idx → EReal) (hx : RealArr x) (hval : RealArr val) (j : SM.Idx) :
    ∃ r : ℝ, edgeScale x (col val) j = (r : EReal) := by
  obtain ⟨p, hp⟩ := hx j
  obtain ⟨q, hq⟩ := hval (ix1 (j 0))
  exact ⟨p * q, by show x j * val (ix1 (j 0)) = _; rw [hp, hq, EReal.coe_mul]⟩

/-- A propagation step keeps arrays of reals. -/
theorem realArr_layer (gS : GatherDims SN SE1 SM) (sc : ScatterDims SN SE1 SM) (sidx didx : IVec SE1 32) (val : SE.Idx → EReal)
    (E : SN.Idx → EReal) (hval : RealArr val) (hE : RealArr E) : RealArr (layer gS sc sidx didx val E) := by
  intro i
  unfold layer
  exact exists_real_scatterAdd sc _ didx _ (fun _ => exists_real_zero32)
    (exists_real_edgeScale _ val (realArr_gather gS E sidx hE) hval) i

theorem realArr_layers (gS : GatherDims SN SE1 SM) (sc : ScatterDims SN SE1 SM) (sidx didx : IVec SE1 32) (val : SE.Idx → EReal)
    (E0 : SN.Idx → EReal) (hval : RealArr val) (hE : RealArr E0) (l : Fin 4) : RealArr (layers gS sc sidx didx val E0 l) := by
  have h1 := realArr_layer gS sc sidx didx val E0 hval hE
  have h2 := realArr_layer gS sc sidx didx val _ hval h1
  have h3 := realArr_layer gS sc sidx didx val _ hval h2
  match l with
  | 0 => exact hE
  | 1 => exact h1
  | 2 => exact h2
  | 3 => exact h3

/-- The item rows of an array of reals are reals. -/
theorem realArr_items (E : SN.Idx → EReal) (hE : RealArr E) : RealArr (items E) :=
  fun _ => hE _

end Cert.Mean

end
-- ==== Proof.RefVal.lean ====
/-
  The reference program's result, as the specification's function of the arguments.

  The reference joins the users' and the items' features into one node array, applies the propagation step three
  times, and for each of the four node arrays sends the item rows through the affine map x ↦ x · Wᵀ + b and puts the
  users' rows back on top. It then averages the four arrays entry by entry, and scores a (user, item) query by the inner
  product of the user's averaged row and the item's averaged row.

  On the users' rows the four arrays agree with the users' features, so the average gives them back; on the items' rows
  the average of the four affine images is the affine image of the average. Both facts need every entry to be a real
  number, which a propagation step preserves. So the reference's result is the specification's `result`.
-/
import proofs.«430620_j47536698032634_3_alg».proof.Proof.RefRead
import proofs.«430620_j47536698032634_3_alg».proof.Proof.Mean
import proofs.«430620_j47536698032634_3_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-! ## The index columns -/

/-- The index columns the program computes from its index arguments: a negative index counts from the end (the extent
    is added to it), and the vector is made a column. -/
abbrev srcCol (src : IVec S3200000 32) : IVec S3200000x1 32 := broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 150000#32))) src)
abbrev dstCol (dst : IVec S3200000 32) : IVec S3200000x1 32 := broadcastInDim S3200000x1 ![0] bcast_S3200000_S3200000x1_0 dst
abbrev userCol (users : IVec S8192 32) : IVec S8192x1 32 := broadcastInDim S8192x1 ![0] bcast_S8192_S8192x1_0 (select (cmpi .slt users (broadcastInDim S8192 ![] bcast_S_S8192 (constantI S_ 32 0#32))) (addi users (broadcastInDim S8192 ![] bcast_S_S8192 (constantI S_ 32 100000#32))) users)
abbrev itemCol (items : IVec S8192 32) : IVec S8192x1 32 := broadcastInDim S8192x1 ![0] bcast_S8192_S8192x1_0 (select (cmpi .slt items (broadcastInDim S8192 ![] bcast_S_S8192 (constantI S_ 32 0#32))) (addi items (broadcastInDim S8192 ![] bcast_S_S8192 (constantI S_ 32 50000#32))) items)

/-! ## Users' rows on top of items' rows -/
/-- Users' rows on top of items' rows. -/
abbrev join (a : S100000x64.Idx → EReal) (b : S50000x64.Idx → EReal) : S150000x64.Idx → EReal :=
  concatenate S150000x64 0 [⟨S100000x64, a⟩, ⟨S50000x64, b⟩] concatenates_S100000x64_S50000x64_S150000x64_d0

/-- An entry above row 100000 is the first array's. -/
theorem join_lt (a : S100000x64.Idx → EReal) (b : S50000x64.Idx → EReal) (j : S150000x64.Idx) (i : S100000x64.Idx)
    (h0 : (i 0).val = (j 0).val) (h1 : (i 1).val = (j 1).val) : join a b j = a i :=
  concatenate_pair_apply_left (0 : Fin 2) a b concatenates_S100000x64_S50000x64_S150000x64_d0 j rfl i
    (fun d => match d with | ⟨0, _⟩ => h0 | ⟨1, _⟩ => h1)

/-- An entry from row 100000 on is the second array's, 100000 rows up. -/
theorem join_ge (a : S100000x64.Idx → EReal) (b : S50000x64.Idx → EReal) (j : S150000x64.Idx) (i : S50000x64.Idx)
    (h0 : (i 0).val + 100000 = (j 0).val) (h1 : (i 1).val = (j 1).val) : join a b j = b i :=
  concatenate_pair_apply_right (0 : Fin 2) a b concatenates_S100000x64_S50000x64_S150000x64_d0 j rfl rfl i
    (fun d => match d with | ⟨0, _⟩ => fun h => absurd rfl h | ⟨1, _⟩ => fun _ => h1) h0

/-- Two arrays of reals joined are an array of reals. -/
theorem realArr_join (a : S100000x64.Idx → EReal) (b : S50000x64.Idx → EReal) (ha : RealArr a) (hb : RealArr b) :
    RealArr (join a b) := by
  intro j
  have hj := idx2_lt0 j
  by_cases h : (j 0).val < 100000
  · rw [join_lt a b j (ix2 (⟨(j 0).val, h⟩ : Fin 100000) (j 1)) rfl rfl]; exact ha _
  · rw [join_ge a b j (ix2 (⟨(j 0).val - 100000, by omega⟩ : Fin 50000) (j 1)) (by show (j 0).val - 100000 + 100000 = (j 0).val; omega) rfl]
    exact hb _

/-- The item rows of a joined array are the second array. -/
theorem items_join (a : S100000x64.Idx → EReal) (b : S50000x64.Idx → EReal) : items (join a b) = b := by
  funext y
  exact join_ge a b _ y rfl rfl

/-- One propagation step as the program computes it — the zero array `Z`, the weights spread over the columns `B`
    multiplied into the gathered rows, scattered — is the specification's step (the product commutes). -/
theorem layer_of_ref (val : S3200000.Idx → EReal) (Z : S150000x64.Idx → EReal) (hZ : ∀ j, Z j = zero32)
    (B : S3200000x64.Idx → EReal) (hB : ∀ y, B y = col val (ix2 (y 0) (0 : Fin 1)))
    (s d : IVec S3200000x1 32) (E : S150000x64.Idx → EReal) :
    Host.scatterAdd (F := Ideal) (φ := .f32) scatter_S150000x64_S3200000x1_S3200000x64_1_0_0_1 Z d
        (mulf (F := Ideal) (φ := .f32) B (Host.gather gather_S150000x64_S3200000x1_S3200000x64_1_0_n_n_0_1_164 E s))
      = layer gather_S150000x64_S3200000x1_S3200000x64_1_0_n_n_0_1_164 scatter_S150000x64_S3200000x1_S3200000x64_1_0_0_1 s d val E := by
  have eZ : Z = fun _ => zero32 := funext hZ
  subst eZ
  unfold layer
  congr 1
  funext y
  rw [mulf_apply, hB y]
  exact mul_comm _ _

/-! ## Four node arrays stacked along a middle axis -/

/-- A node array given a middle axis of extent one. -/
abbrev lift3 (N : S150000x64.Idx → EReal) : S150000x1x64.Idx → EReal :=
  broadcastInDim S150000x1x64 ![0, 2] bcast_S150000x64_S150000x1x64_0_2 N

/-- Entry (r, 0, c) of it is entry (r, c). -/
theorem lift3_apply (N : S150000x64.Idx → EReal) (j : S150000x1x64.Idx) (i : S150000x64.Idx)
    (h0 : (i 0).val = (j 0).val) (h1 : (i 1).val = (j 2).val) : lift3 N j = N i :=
  broadcastInDim_apply _ bcast_S150000x64_S150000x1x64_0_2 N j i (fun a => match a with
    | ⟨0, _⟩ => by show (i 0).val = if (150000 : Nat) = 1 then 0 else (j 0).val; rw [if_neg (by decide)]; exact h0
    | ⟨1, _⟩ => by show (i 1).val = if (64 : Nat) = 1 then 0 else (j 2).val; rw [if_neg (by decide)]; exact h1)

/-- Four node arrays stacked along a middle axis. -/
abbrev stack4 (N0 N1 N2 N3 : S150000x64.Idx → EReal) : S150000x4x64.Idx → EReal :=
  concatenate S150000x4x64 1 [⟨S150000x1x64, lift3 N0⟩, ⟨S150000x1x64, lift3 N1⟩, ⟨S150000x1x64, lift3 N2⟩, ⟨S150000x1x64, lift3 N3⟩]
    concatenates_S150000x1x64_S150000x1x64_S150000x1x64_S150000x1x64_S150000x4x64_d1

/-- The l-th of four arrays. -/
def pick4 (N0 N1 N2 N3 : S150000x64.Idx → EReal) : Fin 4 → S150000x64.Idx → EReal
  | 0 => N0
  | 1 => N1
  | 2 => N2
  | 3 => N3

/-- Entry (r, l, c) of the stack is entry (r, c) of the l-th array. -/
theorem stack4_apply (N0 N1 N2 N3 : S150000x64.Idx → EReal) (j : S150000x4x64.Idx) (l : Fin 4) (i : S150000x64.Idx)
    (h0 : (i 0).val = (j 0).val) (h1 : l.val = (j 1).val) (h2 : (i 1).val = (j 2).val) :
    stack4 N0 N1 N2 N3 j = pick4 N0 N1 N2 N3 l i := by
  have key : ∀ (k : Nat) (hk : k < 4) (N : S150000x64.Idx → EReal),
      ([⟨S150000x1x64, lift3 N0⟩, ⟨S150000x1x64, lift3 N1⟩, ⟨S150000x1x64, lift3 N2⟩, ⟨S150000x1x64, lift3 N3⟩] :
        List ((s : Shape) × (s.Idx → EReal)))[k]'hk = ⟨S150000x1x64, lift3 N⟩ →
      k = (j 1).val → stack4 N0 N1 N2 N3 j = N i := by
    intro k hk N hN hkj
    refine (concatenate_apply_piece (t := S150000x4x64) (1 : Fin 3)
      ([⟨S150000x1x64, lift3 N0⟩, ⟨S150000x1x64, lift3 N1⟩, ⟨S150000x1x64, lift3 N2⟩, ⟨S150000x1x64, lift3 N3⟩] :
        List ((s : Shape) × (s.Idx → EReal)))
      concatenates_S150000x1x64_S150000x1x64_S150000x1x64_S150000x1x64_S150000x4x64_d1 j
      k hk S150000x1x64 (lift3 N) hN rfl k ?_ (ix3 (j 0) (0 : Fin 1) (j 2)) (fun b => match b with
        | ⟨0, _⟩ => fun _ => rfl
        | ⟨1, _⟩ => fun h => absurd rfl h
        | ⟨2, _⟩ => fun _ => rfl) (by show k + 0 = (j 1).val; omega)).trans ?_
    · match k, hk with
      | 0, _ => rfl
      | 1, _ => rfl
      | 2, _ => rfl
      | 3, _ => rfl
    · exact lift3_apply N _ i h0 h2
  match l, h1 with
  | 0, h1 => exact key 0 (by decide) N0 rfl h1
  | 1, h1 => exact key 1 (by decide) N1 rfl h1
  | 2, h1 => exact key 2 (by decide) N2 rfl h1
  | 3, h1 => exact key 3 (by decide) N3 rfl h1

/-! ## The affine map on item rows -/

/-- The item rows of a node array sent through x ↦ x · Wᵀ + b, entry by entry, from the pieces the program computes it in:
    the slice `A`, the transposed matrix `Wt`, the product `D`, the offset spread over the rows `Bb`. -/
theorem affine_apply (E : S150000x64.Idx → EReal) (W : S64x64.Idx → EReal) (b : S64.Idx → EReal)
    (A : S50000x64.Idx → EReal) (Wt : S64x64.Idx → EReal) (Bb D T : S50000x64.Idx → EReal)
    (hA : ∀ j, A j = items E j) (hWt : ∀ p q : Fin 64, Wt (ix2 p q) = W (ix2 q p)) (hBb : ∀ j, Bb j = b (ix1 (j 1)))
    (hD : ∀ i, D i = ∑ k : Fin 64, A (ix2 (i 0) k) * Wt (ix2 k (i 1))) (hT : ∀ i, T i = D i + Bb i) (y : S50000x64.Idx) :
    T y = (∑ k : Fin 64, items E (ix2 (y 0) k) * W (ix2 (y 1) k)) + b (ix1 (y 1)) := by
  rw [hT, hD, hBb]
  refine congrArg (· + _) (Finset.sum_congr rfl fun k _ => ?_)
  exact congrArg₂ (· * ·) (hA _) (hWt k (y 1))

/-! ## The reference's stages, over array variables -/

/-- A row of a node array, 100000 rows down, is a row of its item rows. -/
theorem slice_items (E : S150000x64.Idx → EReal) (j : S50000x64.Idx) (i : S150000x64.Idx)
    (h0 : (i 0).val = 100000 + (j 0).val) (h1 : (i 1).val = (j 1).val) : E i = items E j :=
  congrArg E (funext fun a => Fin.ext (by
    match a with
    | ⟨0, _⟩ => show (i 0).val = (j 0).val + 100000; omega
    | ⟨1, _⟩ => exact h1))

section Stages

variable (U : S100000x64.Idx → EReal) (I0 : S50000x64.Idx → EReal) (val : S3200000.Idx → EReal)
  (W : S64x64.Idx → EReal) (b : S64.Idx → EReal) (src dst : IVec S3200000 32) (qu qi : IVec S8192 32)

/-- The node features after `l` propagation steps, from the program's arguments. -/
abbrev feat (l : Fin 4) : S150000x64.Idx → EReal :=
  layers gather_S150000x64_S3200000x1_S3200000x64_1_0_n_n_0_1_164 scatter_S150000x64_S3200000x1_S3200000x64_1_0_0_1 (srcCol src) (dstCol dst) val (join U I0) l

/-- The edge weights spread over the feature columns: entry (e, k) is the weight of edge e (three copies in the program). -/
theorem weight1_apply (y : S3200000x64.Idx) : val_main_v9 (F := Ideal) val y = col val (ix2 (y 0) (0 : Fin 1)) := by
  rw [val_main_v9_apply, val_main_v1_apply]
  exact congrArg val (funext fun a => by match a with | ⟨0, _⟩ => rfl)
theorem weight2_apply (y : S3200000x64.Idx) : val_main_v22 (F := Ideal) val y = col val (ix2 (y 0) (0 : Fin 1)) := by
  rw [val_main_v22_apply, val_main_v14_apply]
  exact congrArg val (funext fun a => by match a with | ⟨0, _⟩ => rfl)
theorem weight3_apply (y : S3200000x64.Idx) : val_main_v35 (F := Ideal) val y = col val (ix2 (y 0) (0 : Fin 1)) := by
  rw [val_main_v35_apply, val_main_v27_apply]
  exact congrArg val (funext fun a => by match a with | ⟨0, _⟩ => rfl)

/-- The three propagation steps of the program are the specification's. -/
theorem feat1_eq : val_main_v13 (F := Ideal) U I0 val src dst = feat U I0 val src dst 1 :=
  layer_of_ref val (val_main_v11 (F := Ideal)) (fun j => (val_main_v11_apply (F := Ideal) j).trans rfl)
    (val_main_v9 (F := Ideal) val) (weight1_apply val) (srcCol src) (dstCol dst) (join U I0)
theorem feat2_eq : val_main_v26 (F := Ideal) U I0 val src dst = feat U I0 val src dst 2 :=
  (layer_of_ref val (val_main_v24 (F := Ideal)) (fun j => (val_main_v24_apply (F := Ideal) j).trans rfl)
    (val_main_v22 (F := Ideal) val) (weight2_apply val) (srcCol src) (dstCol dst) (val_main_v13 (F := Ideal) U I0 val src dst)).trans
    (congrArg (layer gather_S150000x64_S3200000x1_S3200000x64_1_0_n_n_0_1_164 scatter_S150000x64_S3200000x1_S3200000x64_1_0_0_1 (srcCol src) (dstCol dst) val) (feat1_eq U I0 val src dst))
theorem feat3_eq : val_main_v39 (F := Ideal) U I0 val src dst = feat U I0 val src dst 3 :=
  (layer_of_ref val (val_main_v37 (F := Ideal)) (fun j => (val_main_v37_apply (F := Ideal) j).trans rfl)
    (val_main_v35 (F := Ideal) val) (weight3_apply val) (srcCol src) (dstCol dst) (val_main_v26 (F := Ideal) U I0 val src dst)).trans
    (congrArg (layer gather_S150000x64_S3200000x1_S3200000x64_1_0_n_n_0_1_164 scatter_S150000x64_S3200000x1_S3200000x64_1_0_0_1 (srcCol src) (dstCol dst) val) (feat2_eq U I0 val src dst))

/-- The transposed matrix and the offset spread over the rows, entry by entry. -/
theorem wt_apply (p q : Fin 64) : val_main_v41 (F := Ideal) W (ix2 p q) = W (ix2 q p) :=
  (val_main_v41_apply (F := Ideal) W (ix2 p q)).trans
    (congrArg W (funext fun a => by match a with | ⟨0, _⟩ => rfl | ⟨1, _⟩ => rfl))
theorem bias_apply (j : S50000x64.Idx) : val_main_v44 (F := Ideal) b j = b (ix1 (j 1)) := by
  rw [val_main_v44_apply, val_main_v43_apply]
  exact congrArg b (funext fun a => by match a with | ⟨0, _⟩ => rfl)

/-- What the four affine images share: from the slice `A` of a node array `E`, the product `D` and the sum `T`. -/
theorem affine_of (E : S150000x64.Idx → EReal) (A D T : S50000x64.Idx → EReal) (hA : ∀ j, A j = items E j)
    (hD : ∀ i, D i = ∑ k : Fin 64, A (lidx_main_v42 i k) * val_main_v41 (F := Ideal) W (ridx_main_v42 i k))
    (hT : ∀ i, T i = D i + val_main_v44 (F := Ideal) b i) (y : S50000x64.Idx) :
    T y = (∑ k : Fin 64, items E (ix2 (y 0) k) * W (ix2 (y 1) k)) + b (ix1 (y 1)) :=
  affine_apply E W b A (val_main_v41 (F := Ideal) W) (val_main_v44 (F := Ideal) b) D T hA (wt_apply W) (bias_apply b)
    (fun i => (hD i).trans (Finset.sum_congr rfl fun k _ => congrArg₂ (· * ·)
      (congrArg A (funext fun a => by match a with | ⟨0, _⟩ => rfl | ⟨1, _⟩ => rfl))
      (congrArg (val_main_v41 (F := Ideal) W) (funext fun a => by match a with | ⟨0, _⟩ => rfl | ⟨1, _⟩ => rfl)))) hT y

theorem t0_apply (y : S50000x64.Idx) : val_main_v45 (F := Ideal) U I0 W b y
    = (∑ k : Fin 64, items (feat U I0 val src dst 0) (ix2 (y 0) k) * W (ix2 (y 1) k)) + b (ix1 (y 1)) :=
  affine_of W b (feat U I0 val src dst 0) (val_main_v40 (F := Ideal) U I0) (val_main_v42 (F := Ideal) U I0 W) (val_main_v45 (F := Ideal) U I0 W b)
    (fun j => (val_main_v40_apply (F := Ideal) U I0 j).trans (slice_items (feat U I0 val src dst 0) j (idx_main_v40 j) rfl rfl))
    (fun i => val_main_v42_apply U I0 W i) (fun i => val_main_v45_apply (F := Ideal) U I0 W b i) y
theorem t1_apply (y : S50000x64.Idx) : val_main_v52 (F := Ideal) U I0 val W b src dst y
    = (∑ k : Fin 64, items (feat U I0 val src dst 1) (ix2 (y 0) k) * W (ix2 (y 1) k)) + b (ix1 (y 1)) :=
  affine_of W b (feat U I0 val src dst 1) (val_main_v47 (F := Ideal) U I0 val src dst) (val_main_v49 (F := Ideal) U I0 val W src dst) (val_main_v52 (F := Ideal) U I0 val W b src dst)
    (fun j => (val_main_v47_apply (F := Ideal) U I0 val src dst j).trans ((congrFun (feat1_eq U I0 val src dst) (idx_main_v47 j)).trans
      (slice_items (feat U I0 val src dst 1) j (idx_main_v47 j) rfl rfl)))
    (fun i => val_main_v49_apply U I0 val W src dst i) (fun i => val_main_v52_apply (F := Ideal) U I0 val W b src dst i) y
theorem t2_apply (y : S50000x64.Idx) : val_main_v59 (F := Ideal) U I0 val W b src dst y
    = (∑ k : Fin 64, items (feat U I0 val src dst 2) (ix2 (y 0) k) * W (ix2 (y 1) k)) + b (ix1 (y 1)) :=
  affine_of W b (feat U I0 val src dst 2) (val_main_v54 (F := Ideal) U I0 val src dst) (val_main_v56 (F := Ideal) U I0 val W src dst) (val_main_v59 (F := Ideal) U I0 val W b src dst)
    (fun j => (val_main_v54_apply (F := Ideal) U I0 val src dst j).trans ((congrFun (feat2_eq U I0 val src dst) (idx_main_v54 j)).trans
      (slice_items (feat U I0 val src dst 2) j (idx_main_v54 j) rfl rfl)))
    (fun i => val_main_v56_apply U I0 val W src dst i) (fun i => val_main_v59_apply (F := Ideal) U I0 val W b src dst i) y
theorem t3_apply (y : S50000x64.Idx) : val_main_v66 (F := Ideal) U I0 val W b src dst y
    = (∑ k : Fin 64, items (feat U I0 val src dst 3) (ix2 (y 0) k) * W (ix2 (y 1) k)) + b (ix1 (y 1)) :=
  affine_of W b (feat U I0 val src dst 3) (val_main_v61 (F := Ideal) U I0 val src dst) (val_main_v63 (F := Ideal) U I0 val W src dst) (val_main_v66 (F := Ideal) U I0 val W b src dst)
    (fun j => (val_main_v61_apply (F := Ideal) U I0 val src dst j).trans ((congrFun (feat3_eq U I0 val src dst) (idx_main_v61 j)).trans
      (slice_items (feat U I0 val src dst 3) j (idx_main_v61 j) rfl rfl)))
    (fun i => val_main_v63_apply U I0 val W src dst i) (fun i => val_main_v66_apply (F := Ideal) U I0 val W b src dst i) y

/-- The four node arrays the program averages: the users' rows on top of each layer's affine image. -/
abbrev nodes : Fin 4 → S150000x64.Idx → EReal :=
  pick4 (val_main_v46 (F := Ideal) U I0 W b) (val_main_v53 (F := Ideal) U I0 val W b src dst) (val_main_v60 (F := Ideal) U I0 val W b src dst)
    (val_main_v67 (F := Ideal) U I0 val W b src dst)

/-- The averaged array, entry by entry: the f32 zero plus the four entries, over the f32 four. -/
theorem mean_apply (i : S150000x64.Idx) : val_main_v75 (F := Ideal) U I0 val W b src dst i
    = Ideal.div (zero32 + ∑ l : Fin 4, nodes U I0 val W b src dst l i) four32 := by
  rw [val_main_v75_apply, val_main_v73_apply, val_main_v74_apply]
  exact congrArg₂ Ideal.div (congrArg₂ (· + ·) rfl (Finset.sum_congr rfl fun l _ =>
    stack4_apply (val_main_v46 (F := Ideal) U I0 W b) (val_main_v53 (F := Ideal) U I0 val W b src dst) (val_main_v60 (F := Ideal) U I0 val W b src dst)
      (val_main_v67 (F := Ideal) U I0 val W b src dst) (idx_main_v73 i l) l i rfl rfl rfl)) rfl

/-- The averaged users' rows are the users' features. -/
theorem users_eq (hU : RealArr U) : val_main_v76 (F := Ideal) U I0 val W b src dst = U := by
  funext y
  rw [val_main_v76_apply, mean_apply]
  have h : ∀ l : Fin 4, nodes U I0 val W b src dst l (idx_main_v76 y) = U y := fun l => by
    match l with
    | 0 => exact join_lt U (val_main_v45 (F := Ideal) U I0 W b) (idx_main_v76 y) y rfl rfl
    | 1 => exact join_lt U (val_main_v52 (F := Ideal) U I0 val W b src dst) (idx_main_v76 y) y rfl rfl
    | 2 => exact join_lt U (val_main_v59 (F := Ideal) U I0 val W b src dst) (idx_main_v76 y) y rfl rfl
    | 3 => exact join_lt U (val_main_v66 (F := Ideal) U I0 val W b src dst) (idx_main_v76 y) y rfl rfl
  rw [Finset.sum_congr rfl fun l _ => h l]
  exact Cert.Mean.users_mean U hU y

/-- The averaged items' rows are the affine image of the averaged item rows of the four feature arrays. -/
theorem items_eq (hU : RealArr U) (hI0 : RealArr I0) (hval : RealArr val) (hW : RealArr W) (hb : RealArr b) :
    val_main_v77 (F := Ideal) U I0 val W b src dst = combineI (fun l => items (feat U I0 val src dst l)) W b := by
  funext y
  rw [val_main_v77_apply, mean_apply]
  have h0 : (y 0).val + 100000 = ((idx_main_v77 y) 0).val := by
    show (y 0).val + 100000 = 100000 + (y 0).val; omega
  have h : ∀ l : Fin 4, nodes U I0 val W b src dst l (idx_main_v77 y)
      = (∑ k : Fin 64, items (feat U I0 val src dst l) (ix2 (y 0) k) * W (ix2 (y 1) k)) + b (ix1 (y 1)) := fun l => by
    match l with
    | 0 => exact (join_ge U (val_main_v45 (F := Ideal) U I0 W b) (idx_main_v77 y) y h0 rfl).trans (t0_apply U I0 val W b src dst y)
    | 1 => exact (join_ge U (val_main_v52 (F := Ideal) U I0 val W b src dst) (idx_main_v77 y) y h0 rfl).trans (t1_apply U I0 val W b src dst y)
    | 2 => exact (join_ge U (val_main_v59 (F := Ideal) U I0 val W b src dst) (idx_main_v77 y) y h0 rfl).trans (t2_apply U I0 val W b src dst y)
    | 3 => exact (join_ge U (val_main_v66 (F := Ideal) U I0 val W b src dst) (idx_main_v77 y) y h0 rfl).trans (t3_apply U I0 val W b src dst y)
  rw [Finset.sum_congr rfl fun l _ => h l]
  exact Cert.Mean.items_mean (fun l => items (feat U I0 val src dst l)) W b
    (fun l => Cert.Mean.realArr_items _ (Cert.Mean.realArr_layers gather_S150000x64_S3200000x1_S3200000x64_1_0_n_n_0_1_164 scatter_S150000x64_S3200000x1_S3200000x64_1_0_0_1 (srcCol src) (dstCol dst) val (join U I0)
      hval (realArr_join U I0 hU hI0) l)) hW hb y

/-- The reference's result is the specification's, for real arguments. -/
theorem reference_eq (hU : RealArr U) (hI0 : RealArr I0) (hval : RealArr val) (hW : RealArr W) (hb : RealArr b) :
    val_main_v93 (F := Ideal) U I0 val W b src dst qu qi
      = result gather_S150000x64_S3200000x1_S3200000x64_1_0_n_n_0_1_164 scatter_S150000x64_S3200000x1_S3200000x64_1_0_0_1 gather_S100000x64_S8192x1_S8192x64_1_0_n_n_0_1_164 gather_S50000x64_S8192x1_S8192x64_1_0_n_n_0_1_164 (srcCol src) (dstCol dst) (userCol qu) (itemCol qi) U val W b (join U I0) := by
  funext q
  have e84 : val_main_v84 (F := Ideal) U I0 val W b src dst qu = Host.gather gather_S100000x64_S8192x1_S8192x64_1_0_n_n_0_1_164 U (userCol qu) :=
    congrArg (fun x => Host.gather gather_S100000x64_S8192x1_S8192x64_1_0_n_n_0_1_164 x (userCol qu)) (users_eq U I0 val W b src dst hU)
  have e91 : val_main_v91 (F := Ideal) U I0 val W b src dst qi
      = Host.gather gather_S50000x64_S8192x1_S8192x64_1_0_n_n_0_1_164 (combineI (fun l => items (feat U I0 val src dst l)) W b) (itemCol qi) :=
    congrArg (fun x => Host.gather gather_S50000x64_S8192x1_S8192x64_1_0_n_n_0_1_164 x (itemCol qi)) (items_eq U I0 val W b src dst hU hI0 hval hW hb)
  have h : ∀ k : Fin 64, val_main_v92 (F := Ideal) U I0 val W b src dst qu qi (idx_main_v93 q k)
      = Host.gather gather_S100000x64_S8192x1_S8192x64_1_0_n_n_0_1_164 U (userCol qu) (ix2 (q 0) k)
        * Host.gather gather_S50000x64_S8192x1_S8192x64_1_0_n_n_0_1_164 (combineI (fun l => items (feat U I0 val src dst l)) W b) (itemCol qi) (ix2 (q 0) k) := fun k =>
    (val_main_v92_apply (F := Ideal) U I0 val W b src dst qu qi (idx_main_v93 q k)).trans (congrArg₂ (· * ·)
      ((congrFun e84 _).trans (congrArg _ (funext fun a => by match a with | ⟨0, _⟩ => rfl | ⟨1, _⟩ => rfl)))
      ((congrFun e91 _).trans (congrArg _ (funext fun a => by match a with | ⟨0, _⟩ => rfl | ⟨1, _⟩ => rfl))))
  refine (val_main_v93_apply U I0 val W b src dst qu qi q).trans ?_
  rw [Finset.sum_congr rfl fun k _ => h k]
  exact Cert.Mean.score_zero _ _ (q 0)

end Stages

end Cert.ReferenceIdeal.RefValue

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.PreReal.lean ====
/-
  The finiteness precondition read back: where "every float input is finite" evaluates to 1, each of the five float
  arguments is an array of real numbers. The predicate is the conjunction of five tests, each an and-reduction to a
  scalar of |x| < +∞ over one argument; a conjunction of bits is 1 only if each is.
-/
import proofs.«430620_j47536698032634_3_alg».proof.Pre_finite_inputs
import proofs.«430620_j47536698032634_3_alg».proof.Proof.LibReal
import proofs.«430620_j47536698032634_3_alg».proof.Proof.Spec
import Idealize.ShloMosaic.Lib.Affine

noncomputable section

namespace Cert.PreReal

open Idealize.ShloMosaic Idealize.ShloMosaic.ValueIdx Cert.Pre_finite_inputs Cert.Pre_finite_inputs.Facts

variable [Facts]

/-- A real entry in the sense of the copied lemma file is a real entry in the specification's sense. -/
theorem realArr_of {s : Shape} (x : s.Idx → EReal) (h : ∀ i, Cert.LibReal.IsReal (x i)) : Cert.Spec.RealArr x := h

theorem reals (a0 : FVec Ideal S100000x64 .f32) (a1 : FVec Ideal S50000x64 .f32) (a2 : FVec Ideal S3200000 .f32)
    (a3 : FVec Ideal S64x64 .f32) (a4 : FVec Ideal S64 .f32) (a5 a6 : IVec S3200000 32) (a7 a8 : IVec S8192 32)
    (h : fn (F := Ideal) a0 a1 a2 a3 a4 a5 a6 a7 a8 = fun _ => 1#1) :
    Cert.Spec.RealArr a0 ∧ Cert.Spec.RealArr a1 ∧ Cert.Spec.RealArr a2 ∧ Cert.Spec.RealArr a3 ∧ Cert.Spec.RealArr a4 := by
  have h0 := congrFun h ix0
  dsimp only [fn, fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨realArr_of _ (Cert.LibReal.isReal_of_all a0 _ _ _ e0), realArr_of _ (Cert.LibReal.isReal_of_all a1 _ _ _ e1),
    realArr_of _ (Cert.LibReal.isReal_of_all a2 _ _ _ e2), realArr_of _ (Cert.LibReal.isReal_of_all a3 _ _ _ e3),
    realArr_of _ (Cert.LibReal.isReal_of_all a4 _ _ _ e4)⟩

end Cert.PreReal

end
-- ==== Proof.lean ====
/-
  The certificate's claim. The kernel computes scores of (user, item) pairs after a three-step graph propagation; the
  reference does the same with the per-layer affine map applied before the layers are averaged, and averages four copies
  of the users' features. Over the extended reals, on finite inputs, every array the programs form is an array of reals
  (finite sums of products of reals), so the mean of four copies of an entry is the entry and the mean of the four affine
  images is the affine image of the mean: both programs end at one function of the arguments. The word-level program and
  its idealization are one text, read at two instances of the float operations: each runs to the end, faulting nowhere,
  with its arguments unchanged, region by region; nothing was rewritten to idealize it.
-/
import proofs.«430620_j47536698032634_3_alg».proof.Defs
import proofs.«430620_j47536698032634_3_alg».proof.Proof.Gen.Kernel
import proofs.«430620_j47536698032634_3_alg».proof.Proof.Gen.KernelIdeal
import proofs.«430620_j47536698032634_3_alg».proof.Proof.Gen.ReferenceIdeal
import proofs.«430620_j47536698032634_3_alg».proof.Proof.Gen.Pre_finite_inputs
import proofs.«430620_j47536698032634_3_alg».proof.Proof.RunKernel.Run
import proofs.«430620_j47536698032634_3_alg».proof.Proof.RunKernelIdeal.Run
import proofs.«430620_j47536698032634_3_alg».proof.Proof.RunKernelIdeal.KernelVal
import proofs.«430620_j47536698032634_3_alg».proof.Proof.RefRun
import proofs.«430620_j47536698032634_3_alg».proof.Proof.RefLink
import proofs.«430620_j47536698032634_3_alg».proof.Proof.RefVal
import proofs.«430620_j47536698032634_3_alg».proof.Proof.PreReal
import Idealize.ShloMosaic.Adequacy
import Idealize.ShloMosaic.Init

noncomputable section

namespace Cert.Proof

open Idealize.ShloMosaic Idealize.ShloMosaic.TcCoe Idealize.SL.Sem

/-- The word-level kernel's frame: the run through its eleven items. -/
theorem frame_k : Cert.frame_Kernel := fun m ρ _ => Cert.Kernel.Run.frame m ρ

/-- The idealized kernel's frame: the same run at the ideal instance. -/
theorem frame_ki : Cert.frame_KernelIdeal := fun m ρ _ => Cert.KernelIdeal.Run.frame m ρ

/-- The reference is host operations only: it runs to the end, and no operation writes an argument. -/
theorem frame_ri : Cert.frame_ReferenceIdeal := fun m ρ _ =>
  (θ_run Cert.ReferenceIdeal.defs _ _).mono (fun _ h c => by
    obtain ⟨k0, k1, k2, k3, k4, k5, k6, k7, k8⟩ := Cert.ReferenceIdeal.Value.after_ops_args (F := Ideal) (StableHlo.launchContents m c)
    exact ⟨(h c _).trans k0, (h c _).trans k1, (h c _).trans k2, (h c _).trans k3, (h c _).trans k4, (h c _).trans k5,
      (h c _).trans k6, (h c _).trans k7, (h c _).trans k8⟩)
    (Cert.ReferenceIdeal.Value.run_raw (F := Ideal) m ρ)

/-- Nothing was rewritten to idealize the kernel. -/
theorem preserves : Cert.preserves_Kernel_KernelIdeal := trivial

/-- Both idealized programs end at the specification's result of the arguments: the kernel by following its buffers
    boundary by boundary, the reference by reading its operations one at a time and the two means over reals. -/
theorem algebraic : Cert.algebraic_KernelIdeal_ReferenceIdeal := by
  intro m ρ m' ρ' hpre hagree
  refine ⟨fun c => Cert.KernelIdeal.Run.W11 m c Cert.KernelIdeal.main_v62, Cert.KernelIdeal.Run.run_result m ρ, ?_⟩
  refine (θ_run Cert.ReferenceIdeal.defs _ _).mono (fun _ h c => ?_) (Cert.ReferenceIdeal.Value.run_raw (F := Ideal) m' ρ')
  obtain ⟨k0, k1, k2, k3, k4, k5, k6, k7, k8⟩ := Cert.ReferenceIdeal.Value.after_ops_args (F := Ideal) (StableHlo.launchContents m' c)
  refine ⟨?_, (h c _).trans k0, (h c _).trans k1, (h c _).trans k2, (h c _).trans k3, (h c _).trans k4, (h c _).trans k5,
      (h c _).trans k6, (h c _).trans k7, (h c _).trans k8⟩
  obtain ⟨hU, hI0, hval, hW, hb⟩ := Cert.PreReal.reals _ _ _ _ _ _ _ _ _ (hpre c)
  obtain ⟨e0, e1, e2, e3, e4, e5, e6, e7, e8⟩ := hagree c
  refine (h c _).trans ((Cert.ReferenceIdeal.RefLink.after_ops_v93 (F := Ideal) (StableHlo.launchContents m' c)).trans ?_)
  show Cert.ReferenceIdeal.Read.val_main_v93 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
  rw [e0, e1, e2, e3, e4, e5, e6, e7, e8,
    Cert.ReferenceIdeal.RefValue.reference_eq _ _ _ _ _ _ _ _ _ hU hI0 hval hW hb]
  exact Eq.trans (by rfl) (Cert.KernelIdeal.Val.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
